-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x18 : Shape := ⟨2, ![16384, 18]⟩
abbrev S1000000x64 : Shape := ⟨2, ![1000000, 64]⟩
abbrev S1000000x1 : Shape := ⟨2, ![1000000, 1]⟩
abbrev S100000x64 : Shape := ⟨2, ![100000, 64]⟩
abbrev S100000x1 : Shape := ⟨2, ![100000, 1]⟩
abbrev S21x64 : Shape := ⟨2, ![21, 64]⟩
abbrev S21x1 : Shape := ⟨2, ![21, 1]⟩
abbrev S18x64 : Shape := ⟨2, ![18, 64]⟩
abbrev S18x1 : Shape := ⟨2, ![18, 1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S100000x64 : S_.BroadcastsInDim S100000x64 (![] : Fin 0 → Fin S100000x64.rank)
  reducesTo_S100000x64_S_d0_1 : S100000x64.ReducesTo [0, 1] S_
  bcast_S_S100000x1 : S_.BroadcastsInDim S100000x1 (![] : Fin 0 → Fin S100000x1.rank)
  reducesTo_S100000x1_S_d0_1 : S100000x1.ReducesTo [0, 1] S_
  bcast_S_S21x64 : S_.BroadcastsInDim S21x64 (![] : Fin 0 → Fin S21x64.rank)
  reducesTo_S21x64_S_d0_1 : S21x64.ReducesTo [0, 1] S_
  bcast_S_S21x1 : S_.BroadcastsInDim S21x1 (![] : Fin 0 → Fin S21x1.rank)
  reducesTo_S21x1_S_d0_1 : S21x1.ReducesTo [0, 1] S_
  bcast_S_S18x64 : S_.BroadcastsInDim S18x64 (![] : Fin 0 → Fin S18x64.rank)
  reducesTo_S18x64_S_d0_1 : S18x64.ReducesTo [0, 1] S_
  bcast_S_S18x1 : S_.BroadcastsInDim S18x1 (![] : Fin 0 → Fin S18x1.rank)
  reducesTo_S18x1_S_d0_1 : S18x1.ReducesTo [0, 1] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg2 : IVec S16384 32) (main_v45 : IVec S_ 1) (main_v50 : IVec S16384 1) : IVec S_ 1 :=
  let main_c_19 : IVec S_ 1 := constantI S_ 1 1#1
  let main_v51 : IVec S_ 1 := (fun x v => Host.reduce IntOp.andi x v reducesTo_S16384_S_d0 h_S_) main_v50 main_c_19
  let main_v52 : IVec S_ 1 := andi main_v45 main_v51
  let main_c_20 : IVec S_ 32 := constantI S_ 32 0#32
  let main_v53 : IVec S16384 32 := broadcastInDim S16384 ![] bcast_S_S16384 main_c_20
  let main_v54 : IVec S16384 1 := cmpi .sge main_arg2 main_v53
  let main_c_21 : IVec S_ 32 := constantI S_ 32 21#32
  let main_v55 : IVec S16384 32 := broadcastInDim S16384 ![] bcast_S_S16384 main_c_21
  let main_v56 : IVec S16384 1 := cmpi .slt main_arg2 main_v55
  let main_v57 : IVec S16384 1 := andi main_v54 main_v56
  let main_c_22 : IVec S_ 1 := constantI S_ 1 1#1
  let main_v58 : IVec S_ 1 := (fun x v => Host.reduce IntOp.andi x v reducesTo_S16384_S_d0 h_S_) main_v57 main_c_22
  let main_v59 : IVec S_ 1 := andi main_v52 main_v58
  main_v59

def fn_part2 {F : FTy → Type} [FloatOps F] (main_arg0 : IVec S16384 32) (main_arg1 : IVec S16384 32) (main_arg2 : IVec S16384 32) (main_arg11 : FVec F S18x1 .f32) (main_v33 : IVec S_ 1) : IVec S_ 1 :=
  let main_v34 : FVec F S18x1 .f32 := Host.absf main_arg11
  let main_cst_12 : FVec F S_ .f32 := constant S_ .f32 0x7F800000#32
  let main_v35 : FVec F S18x1 .f32 := broadcastInDim S18x1 ![] bcast_S_S18x1 main_cst_12
  let main_v36 : IVec S18x1 1 := cmpf .olt main_v34 main_v35
  let main_c_13 : IVec S_ 1 := constantI S_ 1 1#1
  let main_v37 : IVec S_ 1 := (fun x v => Host.reduce IntOp.andi x v reducesTo_S18x1_S_d0_1 h_S_) main_v36 main_c_13
  let main_v38 : IVec S_ 1 := andi main_v33 main_v37
  let main_c_14 : IVec S_ 32 := constantI S_ 32 0#32
  let main_v39 : IVec S16384 32 := broadcastInDim S16384 ![] bcast_S_S16384 main_c_14
  let main_v40 : IVec S16384 1 := cmpi .sge main_arg0 main_v39
  let main_c_15 : IVec S_ 32 := constantI S_ 32 1000000#32
  let main_v41 : IVec S16384 32 := broadcastInDim S16384 ![] bcast_S_S16384 main_c_15
  let main_v42 : IVec S16384 1 := cmpi .slt main_arg0 main_v41
  let main_v43 : IVec S16384 1 := andi main_v40 main_v42
  let main_c_16 : IVec S_ 1 := constantI S_ 1 1#1
  let main_v44 : IVec S_ 1 := (fun x v => Host.reduce IntOp.andi x v reducesTo_S16384_S_d0 h_S_) main_v43 main_c_16
  let main_v45 : IVec S_ 1 := andi main_v38 main_v44
  let main_c_17 : IVec S_ 32 := constantI S_ 32 0#32
  let main_v46 : IVec S16384 32 := broadcastInDim S16384 ![] bcast_S_S16384 main_c_17
  let main_v47 : IVec S16384 1 := cmpi .sge main_arg1 main_v46
  let main_c_18 : IVec S_ 32 := constantI S_ 32 100000#32
  let main_v48 : IVec S16384 32 := broadcastInDim S16384 ![] bcast_S_S16384 main_c_18
  let main_v49 : IVec S16384 1 := cmpi .slt main_arg1 main_v48
  let main_v50 : IVec S16384 1 := andi main_v47 main_v49
  fn_part3 (F := F) main_arg2 main_v45 main_v50

def fn_part1 {F : FTy → Type} [FloatOps F] (main_arg0 : IVec S16384 32) (main_arg1 : IVec S16384 32) (main_arg2 : IVec S16384 32) (main_arg8 : FVec F S21x64 .f32) (main_arg9 : FVec F S21x1 .f32) (main_arg10 : FVec F S18x64 .f32) (main_arg11 : FVec F S18x1 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S21x64 .f32 := Host.absf main_arg8
  let main_cst_6 : FVec F S_ .f32 := constant S_ .f32 0x7F800000#32
  let main_v20 : FVec F S21x64 .f32 := broadcastInDim S21x64 ![] bcast_S_S21x64 main_cst_6
  let main_v21 : IVec S21x64 1 := cmpf .olt main_v19 main_v20
  let main_c_7 : IVec S_ 1 := constantI S_ 1 1#1
  let main_v22 : IVec S_ 1 := (fun x v => Host.reduce IntOp.andi x v reducesTo_S21x64_S_d0_1 h_S_) main_v21 main_c_7
  let main_v23 : IVec S_ 1 := andi main_v18 main_v22
  let main_v24 : FVec F S21x1 .f32 := Host.absf main_arg9
  let main_cst_8 : FVec F S_ .f32 := constant S_ .f32 0x7F800000#32
  let main_v25 : FVec F S21x1 .f32 := broadcastInDim S21x1 ![] bcast_S_S21x1 main_cst_8
  let main_v26 : IVec S21x1 1 := cmpf .olt main_v24 main_v25
  let main_c_9 : IVec S_ 1 := constantI S_ 1 1#1
  let main_v27 : IVec S_ 1 := (fun x v => Host.reduce IntOp.andi x v reducesTo_S21x1_S_d0_1 h_S_) main_v26 main_c_9
  let main_v28 : IVec S_ 1 := andi main_v23 main_v27
  let main_v29 : FVec F S18x64 .f32 := Host.absf main_arg10
  let main_cst_10 : FVec F S_ .f32 := constant S_ .f32 0x7F800000#32
  let main_v30 : FVec F S18x64 .f32 := broadcastInDim S18x64 ![] bcast_S_S18x64 main_cst_10
  let main_v31 : IVec S18x64 1 := cmpf .olt main_v29 main_v30
  let main_c_11 : IVec S_ 1 := constantI S_ 1 1#1
  let main_v32 : IVec S_ 1 := (fun x v => Host.reduce IntOp.andi x v reducesTo_S18x64_S_d0_1 h_S_) main_v31 main_c_11
  let main_v33 : IVec S_ 1 := andi main_v28 main_v32
  fn_part2 (F := F) main_arg0 main_arg1 main_arg2 main_arg11 main_v33

def fn {F : FTy → Type} [FloatOps F] (main_arg0 : IVec S16384 32) (main_arg1 : IVec S16384 32) (main_arg2 : IVec S16384 32) (main_arg3 : IVec S16384x18 32) (main_arg4 : FVec F S1000000x64 .f32) (main_arg5 : FVec F S1000000x1 .f32) (main_arg6 : FVec F S100000x64 .f32) (main_arg7 : FVec F S100000x1 .f32) (main_arg8 : FVec F S21x64 .f32) (main_arg9 : FVec F S21x1 .f32) (main_arg10 : FVec F S18x64 .f32) (main_arg11 : FVec F S18x1 .f32) : IVec S_ 1 :=
  let main_v0 : FVec F S1000000x64 .f32 := Host.absf main_arg4
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x1 .f32 := Host.absf main_arg5
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S100000x64 .f32 := Host.absf main_arg6
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000x1 .f32 := Host.absf main_arg7
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg0 main_arg1 main_arg2 main_arg8 main_arg9 main_arg10 main_arg11 main_v13 main_v16
-- ==== Kernel.lean ====
abbrev S16384 : Shape := ⟨1, ![16384]⟩
abbrev S16384x18 : Shape := ⟨2, ![16384, 18]⟩
abbrev S1000000x64 : Shape := ⟨2, ![1000000, 64]⟩
abbrev S1000000x1 : Shape := ⟨2, ![1000000, 1]⟩
abbrev S100000x64 : Shape := ⟨2, ![100000, 64]⟩
abbrev S100000x1 : Shape := ⟨2, ![100000, 1]⟩
abbrev S21x64 : Shape := ⟨2, ![21, 64]⟩
abbrev S21x1 : Shape := ⟨2, ![21, 1]⟩
abbrev S18x64 : Shape := ⟨2, ![18, 64]⟩
abbrev S18x1 : Shape := ⟨2, ![18, 1]⟩
abbrev S16384x1 : Shape := ⟨2, ![16384, 1]⟩
abbrev S1000000x1x64 : Shape := ⟨3, ![1000000, 1, 64]⟩
abbrev S1000000x1x1 : Shape := ⟨3, ![1000000, 1, 1]⟩
abbrev S100000x1x64 : Shape := ⟨3, ![100000, 1, 64]⟩
abbrev S100000x1x1 : Shape := ⟨3, ![100000, 1, 1]⟩
abbrev S16384x1x64 : Shape := ⟨3, ![16384, 1, 64]⟩
abbrev S16384x1x1 : Shape := ⟨3, ![16384, 1, 1]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S16384x64 : Shape := ⟨2, ![16384, 64]⟩
abbrev S2048x64 : Shape := ⟨2, ![2048, 64]⟩
abbrev S2048x1 : Shape := ⟨2, ![2048, 1]⟩
abbrev S2048x18 : Shape := ⟨2, ![2048, 18]⟩
abbrev S2048x21 : Shape := ⟨2, ![2048, 21]⟩
abbrev S2048 : Shape := ⟨1, ![2048]⟩

abbrev nBuf : Space → Nat
  | .hbm => 23
  | .vmem => 30
  | .smem => 2
  | _ => 0

abbrev bufTy : (tb : Table) → Fin (tcTables nBuf tb) → BufTy
  | .hbm, ⟨0, _⟩ => ⟨S16384, .i32⟩
  | .hbm, ⟨1, _⟩ => ⟨S16384x18, .i32⟩
  | .hbm, ⟨2, _⟩ => ⟨S1000000x64, .f32⟩
  | .hbm, ⟨3, _⟩ => ⟨S1000000x1, .f32⟩
  | .hbm, ⟨4, _⟩ => ⟨S100000x64, .f32⟩
  | .hbm, ⟨5, _⟩ => ⟨S100000x1, .f32⟩
  | .hbm, ⟨6, _⟩ => ⟨S21x64, .f32⟩
  | .hbm, ⟨7, _⟩ => ⟨S21x1, .f32⟩
  | .hbm, ⟨8, _⟩ => ⟨S18x64, .f32⟩
  | .hbm, ⟨9, _⟩ => ⟨S18x1, .f32⟩
  | .hbm, ⟨10, _⟩ => ⟨S16384x1, .i32⟩
  | .hbm, ⟨11, _⟩ => ⟨S1000000x1x64, .f32⟩
  | .hbm, ⟨12, _⟩ => ⟨S1000000x1x1, .f32⟩
  | .hbm, ⟨13, _⟩ => ⟨S100000x1x64, .f32⟩
  | .hbm, ⟨14, _⟩ => ⟨S100000x1x1, .f32⟩
  | .hbm, ⟨15, _⟩ => ⟨S16384x1x64, .f32⟩
  | .hbm, ⟨16, _⟩ => ⟨S16384x1x1, .f32⟩
  | .hbm, ⟨17, _⟩ => ⟨S16384x1x1, .f32⟩
  | .hbm, ⟨18, _⟩ => ⟨S16384x64, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384, .f32⟩
  | .local _ .vmem, ⟨0, _⟩ => ⟨S1x1x64, .f32⟩
  | .local _ .vmem, ⟨1, _⟩ => ⟨S1x1x64, .f32⟩
  | .local _ .vmem, ⟨2, _⟩ => ⟨S1x1x1, .f32⟩
  | .local _ .vmem, ⟨3, _⟩ => ⟨S1x1x1, .f32⟩
  | .local _ .vmem, ⟨4, _⟩ => ⟨S1x1x64, .f32⟩
  | .local _ .vmem, ⟨5, _⟩ => ⟨S1x1x64, .f32⟩
  | .local _ .vmem, ⟨6, _⟩ => ⟨S1x1x1, .f32⟩
  | .local _ .vmem, ⟨7, _⟩ => ⟨S1x1x1, .f32⟩
  | .local _ .vmem, ⟨8, _⟩ => ⟨S1x1x64, .f32⟩
  | .local _ .vmem, ⟨9, _⟩ => ⟨S1x1x64, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S2048x64, .f32⟩
  | .local _ .vmem, ⟨15, _⟩ => ⟨S2048x64, .f32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x1, .i32⟩
  | .local _ .vmem, ⟨21, _⟩ => ⟨S2048x1, .i32⟩
  | .local _ .vmem, ⟨22, _⟩ => ⟨S2048x18, .i32⟩
  | .local _ .vmem, ⟨23, _⟩ => ⟨S2048x18, .i32⟩
  | .local _ .vmem, ⟨24, _⟩ => ⟨S21x64, .f32⟩
  | .local _ .vmem, ⟨25, _⟩ => ⟨S21x1, .f32⟩
  | .local _ .vmem, ⟨26, _⟩ => ⟨S18x64, .f32⟩
  | .local _ .vmem, ⟨27, _⟩ => ⟨S18x1, .f32⟩
  | .local _ .vmem, ⟨28, _⟩ => ⟨S2048x1, .f32⟩
  | .local _ .vmem, ⟨29, _⟩ => ⟨S2048x1, .f32⟩
  | .local _ .smem, ⟨0, _⟩ => ⟨S16384, .i32⟩
  | .local _ .smem, ⟨1, _⟩ => ⟨S16384, .i32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨1, ![16384], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x18 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S21x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S21x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S18x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S18x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S16384_S16384x1 : S16384.ShapeCasts S16384x1
  shapeCasts_S1000000x64_S1000000x1x64 : S1000000x64.ShapeCasts S1000000x1x64
  shapeCasts_S1000000x1_S1000000x1x1 : S1000000x1.ShapeCasts S1000000x1x1
  shapeCasts_S100000x64_S100000x1x64 : S100000x64.ShapeCasts S100000x1x64
  shapeCasts_S100000x1_S100000x1x1 : S100000x1.ShapeCasts S100000x1x1
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  reduces_S1x1x64_S1x1 : S1x1x64.Reduces [2] S1x1
  shapeCasts_S1x1_S1x1x1 : S1x1.ShapeCasts S1x1x1
  shapeCasts_S16384x1x64_S16384x64 : S16384x1x64.ShapeCasts S16384x64
  shapeCasts_S16384x1x1_S16384x1 : S16384x1x1.ShapeCasts S16384x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x18_S2048x18_0_0 : ∀ a, (![0, 0] : Fin 2 → Nat) a + S2048x18.size a ≤ S2048x18.size a
  h_S2048x18 : 0 < S2048x18.numel
  iota_S2048x21_d1_w32 : S2048x21.Iotas .tc 32 [1]
  broadcasts_S2048x1_S2048x21 : S2048x1.Broadcasts S2048x21
  natLt_1_32 : 1 < 32
  inb_S21x64_S21x64_0_0 : ∀ a, (![0, 0] : Fin 2 → Nat) a + S21x64.size a ≤ S21x64.size a
  h_S21x64 : 0 < S21x64.numel
  inb_S21x1_S21x1_0_0 : ∀ a, (![0, 0] : Fin 2 → Nat) a + S21x1.size a ≤ S21x1.size a
  h_S21x1 : 0 < S21x1.numel
  reduces_S2048x64_S2048 : S2048x64.Reduces [1] S2048
  shapeCasts_S2048_S2048x1 : S2048.ShapeCasts S2048x1
  inb_S18x64_S18x64_0_0 : ∀ a, (![0, 0] : Fin 2 → Nat) a + S18x64.size a ≤ S18x64.size a
  h_S18x64 : 0 < S18x64.numel
  reduces_S2048x18_S2048 : S2048x18.Reduces [1] S2048
  inb_S18x1_S18x1_0_0 : ∀ a, (![0, 0] : Fin 2 → Nat) a + S18x1.size a ≤ S18x1.size a
  h_S18x1 : 0 < S18x1.numel
  shapeCasts_S16384x1_S16384 : S16384x1.ShapeCasts S16384
  dot_S2048x21_S21x64_S2048x64_1_0_0_1_n_n_wf : DotDims.WF S2048x21 S21x64 S2048x64 [1] [0] [0] [1] [] []
  dot_S2048x21_S21x1_S2048x1_1_0_0_1_n_n_wf : DotDims.WF S2048x21 S21x1 S2048x1 [1] [0] [0] [1] [] []
  dot_S2048x18_S18x64_S2048x64_1_0_0_1_n_n_wf : DotDims.WF S2048x18 S18x64 S2048x64 [1] [0] [0] [1] [] []
  dot_S2048x18_S18x1_S2048x1_1_0_0_1_n_n_wf : DotDims.WF S2048x18 S18x1 S2048x1 [1] [0] [0] [1] [] []
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S16384x1x64.size a
  hwx0_4 : ∀ i : grid0.Coords, EltTy.bits .f32 = 32 ∨ (Rect.block (s := S16384x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S16384x1x1.size a
  hwx0_5 : ∀ i : grid0.Coords, EltTy.bits .f32 = 32 ∨ (Rect.block (s := S16384x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S16384x1x1.size a
  hwx0_6 : ∀ i : grid0.Coords, EltTy.bits .f32 = 32 ∨ (Rect.block (s := S16384x1x1) S1x1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S16384x1.size a
  hwx1_1 : ∀ i : grid1.Coords, EltTy.bits .f32 = 32 ∨ (Rect.block (s := S16384x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S16384x1.size a
  hwx1_3 : ∀ i : grid1.Coords, EltTy.bits .i32 = 32 ∨ (Rect.block (s := S16384x1) S2048x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x18.size a ≤ S16384x18.size a
  hwx1_4 : ∀ i : grid1.Coords, EltTy.bits .i32 = 32 ∨ (Rect.block (s := S16384x18) S2048x18.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S21x64.size a ≤ S21x64.size a
  hwx1_5 : ∀ i : grid1.Coords, EltTy.bits .f32 = 32 ∨ (Rect.block (s := S21x64) S21x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S21x1.size a ≤ S21x1.size a
  hwx1_6 : ∀ i : grid1.Coords, EltTy.bits .f32 = 32 ∨ (Rect.block (s := S21x1) S21x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S18x64.size a ≤ S18x64.size a
  hwx1_7 : ∀ i : grid1.Coords, EltTy.bits .f32 = 32 ∨ (Rect.block (s := S18x64) S18x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S18x1.size a ≤ S18x1.size a
  hwx1_8 : ∀ i : grid1.Coords, EltTy.bits .f32 = 32 ∨ (Rect.block (s := S18x1) S18x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x1.size a ≤ S16384x1.size a
  hwx1_9 : ∀ i : grid1.Coords, EltTy.bits .f32 = 32 ∨ (Rect.block (s := S16384x1) S2048x1.size (cc1_transform_9 i) (hinb1_9 i)).WholeWords (EltTy.packing .f32)

variable [Facts₀]

def dot_S2048x21_S21x64_S2048x64_1_0_0_1_n_n : DotDims S2048x21 S21x64 S2048x64 where
  lhsContracting := [1]
  rhsContracting := [0]
  lhsNonContracting := [0]
  rhsNonContracting := [1]
  lhsBatch := []
  rhsBatch := []
  wf := dot_S2048x21_S21x64_S2048x64_1_0_0_1_n_n_wf
def dot_S2048x21_S21x1_S2048x1_1_0_0_1_n_n : DotDims S2048x21 S21x1 S2048x1 where
  lhsContracting := [1]
  rhsContracting := [0]
  lhsNonContracting := [0]
  rhsNonContracting := [1]
  lhsBatch := []
  rhsBatch := []
  wf := dot_S2048x21_S21x1_S2048x1_1_0_0_1_n_n_wf
def dot_S2048x18_S18x64_S2048x64_1_0_0_1_n_n : DotDims S2048x18 S18x64 S2048x64 where
  lhsContracting := [1]
  rhsContracting := [0]
  lhsNonContracting := [0]
  rhsNonContracting := [1]
  lhsBatch := []
  rhsBatch := []
  wf := dot_S2048x18_S18x64_S2048x64_1_0_0_1_n_n_wf
def dot_S2048x18_S18x1_S2048x1_1_0_0_1_n_n : DotDims S2048x18 S18x1 S2048x1 where
  lhsContracting := [1]
  rhsContracting := [0]
  lhsNonContracting := [0]
  rhsNonContracting := [1]
  lhsBatch := []
  rhsBatch := []
  wf := dot_S2048x18_S18x1_S2048x1_1_0_0_1_n_n_wf

abbrev spec0_0 : Pipeline.WinSpec sig grid0.rank :=
  Pipeline.WinSpec.ofSpec (Memref.whole main_v1) S1x1x64.size reads0_0 false false 2 stage0_0 sem0_0 nbuf0_0 hstage0_0

abbrev spec0_1 : Pipeline.WinSpec sig grid0.rank :=
  Pipeline.WinSpec.ofSpec (Memref.whole main_v2) S1x1x1.size reads0_1 false false 2 stage0_1 sem0_1 nbuf0_1 hstage0_1

abbrev spec0_2 : Pipeline.WinSpec sig grid0.rank :=
  Pipeline.WinSpec.ofSpec (Memref.whole main_v3) S1x1x64.size reads0_2 false false 2 stage0_2 sem0_2 nbuf0_2 hstage0_2

abbrev spec0_3 : Pipeline.WinSpec sig grid0.rank :=
  Pipeline.WinSpec.ofSpec (Memref.whole main_v4) S1x1x1.size reads0_3 false false 2 stage0_3 sem0_3 nbuf0_3 hstage0_3

abbrev spec0_4 : Pipeline.WinSpec sig grid0.rank :=
  Pipeline.WinSpec.ofSpec (Memref.whole main_v5_0) S1x1x64.size reads0_4 true false 2 stage0_4 sem0_4 nbuf0_4 hstage0_4

abbrev spec0_5 : Pipeline.WinSpec sig grid0.rank :=
  Pipeline.WinSpec.ofSpec (Memref.whole main_v5_1) S1x1x1.size reads0_5 true false 2 stage0_5 sem0_5 nbuf0_5 hstage0_5

abbrev spec0_6 : Pipeline.WinSpec sig grid0.rank :=
  Pipeline.WinSpec.ofSpec (Memref.whole main_v5_2) S1x1x1.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | 5 => hreads0_5 | 6 => hreads0_6 | ⟨_ + 7, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x64.size a ≤ S1000000x1x64.size a), EltTy.bits .f32 = 32 ∨ (Rect.block (s := S1000000x1x64) S1x1x64.size (cc0_transform_0 k0_off1_inb numel1_S1 pf i) h).WholeWords (EltTy.packing .f32)) ∧
  (∀ i : grid0.Coords, ∃ h : (∀ a, (cc0_transform_1 k0_off1_inb numel1_S1 pf i a + 1) * S1x1x1.size a ≤ S1000000x1x1.size a), EltTy.bits .f32 = 32 ∨ (Rect.block (s := S1000000x1x1) S1x1x1.size (cc0_transform_1 k0_off1_inb numel1_S1 pf i) h).WholeWords (EltTy.packing .f32)) ∧
  (∀ i : grid0.Coords, ∃ h : (∀ a, (cc0_transform_2 k0_off1_inb numel1_S1 pf i a + 1) * S1x1x64.size a ≤ S100000x1x64.size a), EltTy.bits .f32 = 32 ∨ (Rect.block (s := S100000x1x64) S1x1x64.size (cc0_transform_2 k0_off1_inb numel1_S1 pf i) h).WholeWords (EltTy.packing .f32)) ∧
  (∀ i : grid0.Coords, ∃ h : (∀ a, (cc0_transform_3 k0_off1_inb numel1_S1 pf i a + 1) * S1x1x1.size a ≤ S100000x1x1.size a), EltTy.bits .f32 = 32 ∨ (Rect.block (s := S100000x1x1) S1x1x1.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | 5 => hwx0_5 | 6 => hwx0_6 | ⟨_ + 7, h⟩ => absurd h (Nat.not_lt.2 (Nat.le_add_left _ _))
abbrev win1_0 : Pipeline.Window sig grid1 :=
  Pipeline.Window.ofSpec (Memref.whole main_v6) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S2048x18.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S21x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S21x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S18x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S18x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S2048x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where
  harr0 : ∀ w, (spec0 w).arr.IsWhole

variable [Facts]
-- ==== ReferenceIdeal.lean ====
abbrev S16384 : Shape := ⟨1, ![16384]⟩
abbrev S16384x18 : Shape := ⟨2, ![16384, 18]⟩
abbrev S1000000x64 : Shape := ⟨2, ![1000000, 64]⟩
abbrev S1000000x1 : Shape := ⟨2, ![1000000, 1]⟩
abbrev S100000x64 : Shape := ⟨2, ![100000, 64]⟩
abbrev S100000x1 : Shape := ⟨2, ![100000, 1]⟩
abbrev S21x64 : Shape := ⟨2, ![21, 64]⟩
abbrev S21x1 : Shape := ⟨2, ![21, 1]⟩
abbrev S18x64 : Shape := ⟨2, ![18, 64]⟩
abbrev S18x1 : Shape := ⟨2, ![18, 1]⟩
abbrev S_ : Shape := ⟨0, ![]⟩
abbrev S16384x1 : Shape := ⟨2, ![16384, 1]⟩
abbrev S16384x64 : Shape := ⟨2, ![16384, 64]⟩

abbrev nBuf : Space → Nat
  | .hbm => 110
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384x18, .i32⟩
  | .hbm, ⟨4, _⟩ => ⟨S1000000x64, .f32⟩
  | .hbm, ⟨5, _⟩ => ⟨S1000000x1, .f32⟩
  | .hbm, ⟨6, _⟩ => ⟨S100000x64, .f32⟩
  | .hbm, ⟨7, _⟩ => ⟨S100000x1, .f32⟩
  | .hbm, ⟨8, _⟩ => ⟨S21x64, .f32⟩
  | .hbm, ⟨9, _⟩ => ⟨S21x1, .f32⟩
  | .hbm, ⟨10, _⟩ => ⟨S18x64, .f32⟩
  | .hbm, ⟨11, _⟩ => ⟨S18x1, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x64, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x1, .f32⟩
  | .hbm, ⟨30, _⟩ => ⟨S16384, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x64, .f32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384x1, .i32⟩
  | .hbm, ⟨48, _⟩ => ⟨S16384x1, .f32⟩
  | .hbm, ⟨49, _⟩ => ⟨S16384, .f32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S16384x1, .i32⟩
  | .hbm, ⟨58, _⟩ => ⟨S16384x64, .f32⟩
  | .hbm, ⟨59, _⟩ => ⟨S_, .i32⟩
  | .hbm, ⟨60, _⟩ => ⟨S16384, .i32⟩
  | .hbm, ⟨61, _⟩ => ⟨S16384, .i1⟩
  | .hbm, ⟨62, _⟩ => ⟨S_, .i32⟩
  | .hbm, ⟨63, _⟩ => ⟨S16384, .i32⟩
  | .hbm, ⟨64, _⟩ => ⟨S16384, .i32⟩
  | .hbm, ⟨65, _⟩ => ⟨S16384, .i32⟩
  | .hbm, ⟨66, _⟩ => ⟨S16384x1, .i32⟩
  | .hbm, ⟨67, _⟩ => ⟨S16384x1, .f32⟩
  | .hbm, ⟨68, _⟩ => ⟨S16384, .f32⟩
  | .hbm, ⟨69, _⟩ => ⟨S_, .i32⟩
  | .hbm, ⟨70, _⟩ => ⟨S16384x18, .i32⟩
  | .hbm, ⟨71, _⟩ => ⟨S16384x18, .i1⟩
  | .hbm, ⟨72, _⟩ => ⟨S16384x18, .f32⟩
  | .hbm, ⟨73, _⟩ => ⟨S16384x64, .f32⟩
  | .hbm, ⟨74, _⟩ => ⟨S_, .f32⟩
  | .hbm, ⟨75, _⟩ => ⟨S16384, .f32⟩
  | .hbm, ⟨76, _⟩ => ⟨S_, .f32⟩
  | .hbm, ⟨77, _⟩ => ⟨S16384, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S16384, .f32⟩
  | .hbm, ⟨82, _⟩ => ⟨S_, .i32⟩
  | .hbm, ⟨83, _⟩ => ⟨S16384x18, .i32⟩
  | .hbm, ⟨84, _⟩ => ⟨S16384x18, .i1⟩
  | .hbm, ⟨85, _⟩ => ⟨S16384x18, .f32⟩
  | .hbm, ⟨86, _⟩ => ⟨S16384x1, .f32⟩
  | .hbm, ⟨87, _⟩ => ⟨S_, .f32⟩
  | .hbm, ⟨88, _⟩ => ⟨S16384, .f32⟩
  | .hbm, ⟨89, _⟩ => ⟨S_, .f32⟩
  | .hbm, ⟨90, _⟩ => ⟨S16384, .f32⟩
  | .hbm, ⟨91, _⟩ => ⟨S_, .f32⟩
  | .hbm, ⟨92, _⟩ => ⟨S16384, .f32⟩
  | .hbm, ⟨93, _⟩ => ⟨S16384, .f32⟩
  | .hbm, ⟨94, _⟩ => ⟨S16384, .f32⟩
  | .hbm, ⟨95, _⟩ => ⟨S16384x64, .f32⟩
  | .hbm, ⟨96, _⟩ => ⟨S_, .f32⟩
  | .hbm, ⟨97, _⟩ => ⟨S16384, .f32⟩
  | .hbm, ⟨98, _⟩ => ⟨S16384x64, .f32⟩
  | .hbm, ⟨99, _⟩ => ⟨S_, .f32⟩
  | .hbm, ⟨100, _⟩ => ⟨S16384, .f32⟩
  | .hbm, ⟨101, _⟩ => ⟨S16384, .f32⟩
  | .hbm, ⟨102, _⟩ => ⟨S_, .f32⟩
  | .hbm, ⟨103, _⟩ => ⟨S16384, .f32⟩
  | .hbm, ⟨104, _⟩ => ⟨S16384, .f32⟩
  | .hbm, ⟨105, _⟩ => ⟨S16384, .f32⟩
  | .hbm, ⟨106, _⟩ => ⟨S16384, .f32⟩
  | .hbm, ⟨107, _⟩ => ⟨S16384, .f32⟩
  | .hbm, ⟨108, _⟩ => ⟨S16384, .f32⟩
  | .hbm, ⟨109, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_cst_16 : Ref sig .tc := ⟨.hbm, 89, rfl⟩
abbrev main_v59 : Ref sig .tc := ⟨.hbm, 90, rfl⟩
abbrev main_cst_17 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_18 : Ref sig .tc := ⟨.hbm, 96, rfl⟩
abbrev main_v64 : Ref sig .tc := ⟨.hbm, 97, rfl⟩
abbrev main_v65 : Ref sig .tc := ⟨.hbm, 98, rfl⟩
abbrev main_cst_19 : Ref sig .tc := ⟨.hbm, 99, rfl⟩
abbrev main_v66 : Ref sig .tc := ⟨.hbm, 100, rfl⟩
abbrev main_v67 : Ref sig .tc := ⟨.hbm, 101, rfl⟩
abbrev main_cst_20 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x1_S16384 : S16384x1.ShapeCasts S16384
  bcast_S_S16384x18 : S_.BroadcastsInDim S16384x18 (![] : Fin 0 → Fin S16384x18.rank)
  reducesTo_S16384x64_S16384_d1 : S16384x64.ReducesTo [1] S16384
  h_S_ : 0 < S_.numel
  reducesTo_S16384x18_S16384_d1 : S16384x18.ReducesTo [1] S16384
  reducesTo_S16384x1_S16384_d1 : S16384x1.ReducesTo [1] S16384
  gather_S1000000x64_S16384x1_S16384x64_1_0_n_n_0_1_164_wf : GatherDims.WF S1000000x64 S16384x1 S16384x64 [1] [0] [] [0] [] 1 ![1, 64]
  gather_S1000000x1_S16384x1_S16384x1_1_0_n_n_0_1_11_wf : GatherDims.WF S1000000x1 S16384x1 S16384x1 [1] [0] [] [0] [] 1 ![1, 1]
  gather_S100000x64_S16384x1_S16384x64_1_0_n_n_0_1_164_wf : GatherDims.WF S100000x64 S16384x1 S16384x64 [1] [0] [] [0] [] 1 ![1, 64]
  gather_S100000x1_S16384x1_S16384x1_1_0_n_n_0_1_11_wf : GatherDims.WF S100000x1 S16384x1 S16384x1 [1] [0] [] [0] [] 1 ![1, 1]
  gather_S21x64_S16384x1_S16384x64_1_0_n_n_0_1_164_wf : GatherDims.WF S21x64 S16384x1 S16384x64 [1] [0] [] [0] [] 1 ![1, 64]
  gather_S21x1_S16384x1_S16384x1_1_0_n_n_0_1_11_wf : GatherDims.WF S21x1 S16384x1 S16384x1 [1] [0] [] [0] [] 1 ![1, 1]
  dot_S16384x18_S18x64_S16384x64_1_0_0_1_n_n_wf : DotDims.WF S16384x18 S18x64 S16384x64 [1] [0] [0] [1] [] []
  dot_S16384x18_S18x1_S16384x1_1_0_0_1_n_n_wf : DotDims.WF S16384x18 S18x1 S16384x1 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S1000000x1_S16384x1_S16384x1_1_0_n_n_0_1_11 : GatherDims S1000000x1 S16384x1 S16384x1 where
  offsetDims := [1]
  collapsedSliceDims := [0]
  operandBatchingDims := []
  startIndicesBatchingDims := []
  startIndexMap := [0]
  indexVectorDim := 1
  sliceSizes := ![1, 1]
  wf := gather_S1000000x1_S16384x1_S16384x1_1_0_n_n_0_1_11_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000x1_S16384x1_S16384x1_1_0_n_n_0_1_11 : GatherDims S100000x1 S16384x1 S16384x1 where
  offsetDims := [1]
  collapsedSliceDims := [0]
  operandBatchingDims := []
  startIndicesBatchingDims := []
  startIndexMap := [0]
  indexVectorDim := 1
  sliceSizes := ![1, 1]
  wf := gather_S100000x1_S16384x1_S16384x1_1_0_n_n_0_1_11_wf
def gather_S21x64_S16384x1_S16384x64_1_0_n_n_0_1_164 : GatherDims S21x64 S16384x1 S16384x64 where
  offsetDims := [1]
  collapsedSliceDims := [0]
  operandBatchingDims := []
  startIndicesBatchingDims := []
  startIndexMap := [0]
  indexVectorDim := 1
  sliceSizes := ![1, 64]
  wf := gather_S21x64_S16384x1_S16384x64_1_0_n_n_0_1_164_wf
def gather_S21x1_S16384x1_S16384x1_1_0_n_n_0_1_11 : GatherDims S21x1 S16384x1 S16384x1 where
  offsetDims := [1]
  collapsedSliceDims := [0]
  operandBatchingDims := []
  startIndicesBatchingDims := []
  startIndexMap := [0]
  indexVectorDim := 1
  sliceSizes := ![1, 1]
  wf := gather_S21x1_S16384x1_S16384x1_1_0_n_n_0_1_11_wf
def dot_S16384x18_S18x64_S16384x64_1_0_0_1_n_n : DotDims S16384x18 S18x64 S16384x64 where
  lhsContracting := [1]
  rhsContracting := [0]
  lhsNonContracting := [0]
  rhsNonContracting := [1]
  lhsBatch := []
  rhsBatch := []
  wf := dot_S16384x18_S18x64_S16384x64_1_0_0_1_n_n_wf
def dot_S16384x18_S18x1_S16384x1_1_0_0_1_n_n : DotDims S16384x18 S18x1 S16384x1 where
  lhsContracting := [1]
  rhsContracting := [0]
  lhsNonContracting := [0]
  rhsNonContracting := [1]
  lhsBatch := []
  rhsBatch := []
  wf := dot_S16384x18_S18x1_S16384x1_1_0_0_1_n_n_wf

class Facts : Prop extends Facts₀ where

variable [Facts]
-- ==== Proof.KRegion0.lean ====
/-
  The first call (the gather kernel) as one region of the program, at any float instance, at any contents V of the
  core's buffers when the region is entered and at any admissible contents a of its two prefetched tables (user_id
  and item_id). Its grid has 16384 points, one per batch row. At point r the four input windows hold row
  user_id[r] of user_emb and of user_b and row item_id[r] of item_emb and of item_b (their index maps read the
  tables; a is kept a variable so that no table is ever evaluated); the body copies the user row out (out0_4),
  stores  Σ_d Q_d I_d + user_b + item_b  (out0_5) and  Σ_d I_d  (out0_6). The region invariant is the class's
  (scratch and generator register untouched) beside the two tables held whole, which the body never reads.
-/
import proofs.«428560_j76630806495462_2_alg».proof.Proof.Gen.Kernel.Launch
import proofs.«428560_j76630806495462_2_alg».proof.Proof.Gen.Kernel.Skeleton
import proofs.«428560_j76630806495462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b)) (a : (pcfg0 (F := F)).Adm)

/-- The current staging memref of each window at point t. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)

/-- The kernel body at point t, on what the pipeline calls it with. -/
abbrev bodyAt0 (t : Fin (cfg0 a).N) : Prog (TpuEff nD τ sig (Elt F) Λ₀ .tc) PUnit :=
  cc0__gather_kernel (grid0.coords t) (Memref.whole main_arg0) (Memref.isWhole_whole _) (Memref.whole main_arg1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))

/-- Window w's block at point t, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-! An input window's current staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes a whole buffer -/

abbrev rRow : Rect S1x1x64 := Rect.unit (s := S1x1x64) ![0, 0, 0] S1x1x64.size inb_S1x1x64_S1x1x64_0_0_0
abbrev rOne : Rect S1x1x1 := Rect.unit (s := S1x1x1) ![0, 0, 0] S1x1x1.size inb_S1x1x1_S1x1x1_0_0_0

/-- The three output windows' staging buffers after the body, from the input blocks: one store each. -/
def out0_4 (x0 : Vec F S1x1x64 .f32) : Vec F S1x1x64 .f32 :=
  View.canon [⟨rRow, k0_pay1 (View.ld x0 rRow)⟩]
def out0_5 (x0 : Vec F S1x1x64 .f32) (x1 : Vec F S1x1x1 .f32) (x2 : Vec F S1x1x64 .f32) (x3 : Vec F S1x1x1 .f32) : Vec F S1x1x1 .f32 :=
  View.canon [⟨rOne, k0_pay4 (View.ld x0 rRow) (View.ld x1 rOne) (View.ld x2 rRow) (View.ld x3 rOne)⟩]
def out0_6 (x2 : Vec F S1x1x64 .f32) : Vec F S1x1x1 .f32 :=
  View.canon [⟨rOne, k0_pay3 (View.ld x2 rRow)⟩]

theorem coverRow (p0 : Vec F S1x1x64 .f32) (y : S1x1x64.Idx) :
    ∃ pc ∈ ([⟨rRow, p0⟩] : List (View.Piece (Elt F) S1x1x64 .f32)), y ∈ pc.1.set :=
  View.cover_of_tiled [⟨rRow, p0⟩] S1x1x64.size (by rfl) y
theorem coverOne (p0 : Vec F S1x1x1 .f32) (y : S1x1x1.Idx) :
    ∃ pc ∈ ([⟨rOne, p0⟩] : List (View.Piece (Elt F) S1x1x1 .f32)), y ∈ pc.1.set :=
  View.cover_of_tiled [⟨rOne, p0⟩] S1x1x1.size (by rfl) y

/-! ## The body's triple -/

set_option maxHeartbeats 4000000 in
/-- The body on whole staging memrefs, the inputs' at read contents and the outputs' at anything, runs to the
    continuation holding the inputs' as they were and each output's at out0_W of the inputs'. The two table memrefs
    are handed to it and never accessed. -/
theorem sound_kernel0 (c : Dev nD) (E : Set ℕ) (i : grid0.Coords)
    (arg1 : Memref sig .tc .smem S16384 .i32) (harg1 : arg1.IsWhole) (arg2 : Memref sig .tc .smem S16384 .i32) (harg2 : arg2.IsWhole)
    (arg3 : Memref sig .tc .vmem S1x1x64 .f32) (harg3 : arg3.IsWhole) (arg4 : Memref sig .tc .vmem S1x1x1 .f32) (harg4 : arg4.IsWhole)
    (arg5 : Memref sig .tc .vmem S1x1x64 .f32) (harg5 : arg5.IsWhole) (arg6 : Memref sig .tc .vmem S1x1x1 .f32) (harg6 : arg6.IsWhole)
    (arg7 : Memref sig .tc .vmem S1x1x64 .f32) (harg7 : arg7.IsWhole) (arg8 : Memref sig .tc .vmem S1x1x1 .f32) (harg8 : arg8.IsWhole)
    (arg9 : Memref sig .tc .vmem S1x1x1 .f32) (harg9 : arg9.IsWhole)
    (x0 : Vec F S1x1x64 .f32) (x1 : Vec F S1x1x1 .f32) (x2 : Vec F S1x1x64 .f32) (x3 : Vec F S1x1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (out0_4 x0) ∗ owns (c : Thread nD τ) arg8 fullShare (out0_5 x0 x1 x2 x3)
            ∗ owns (c : Thread nD τ) arg9 fullShare (out0_6 x2)) -∗ K ⟨⟩))
      ⊢ wp frame (wpE (defs₀ (F := F)) Variants.none c none) E
          (cc0__gather_kernel i arg1 harg1 arg2 harg2 arg3 harg3 arg4 harg4 arg5 harg5 arg6 harg6 arg7 harg7 arg8 harg8 arg9 harg9) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (coverRow _)
  isplitl [H5]
  · iexists _; isplitr
    swap; · iexact H5
    ipureintro
    try dsimp only
    exact View.read_writes_eq_canon _ _ _ (coverOne _)
  iexists _; isplitr
  swap; · iexact H6
  ipureintro
  try dsimp only
  exact View.read_writes_eq_canon _ _ _ (coverOne _)

/-! ## The pipeline's proof data -/

/-- The two tables held whole at the contents a. -/
abbrev tabs0 (c : Dev nD) : sProp 𝕄 :=
  Pipeline.prefHeld (Ix := Unit) (Name := ℕ) (U := UR sig nD τ) (Lvl := ℕ) pre0 c (fun _ => fullShare) a.1

/-- The proof data of the first call on core c: the arrays as the region finds them; after the body at point t each
    input's buffer at its block and each output's at out0_W of the input blocks; the class's invariant beside the two
    tables; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => out0_4 (iblk0 V a c 0 t)
    | ⟨5, _⟩ => out0_5 (iblk0 V a c 0 t) (iblk0 V a c 1 t) (iblk0 V a c 2 t) (iblk0 V a c 3 t)
    | ⟨6, _⟩ => out0_6 (iblk0 V a c 2 t)
  Φ _ := iprop(Pipeline.ΦA spec0 c ∗ tabs0 a c)
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = iblk0 V a c 1 t := by dsimp only [dat0]; try rfl
theorem after0_2 (c : Dev nD) (t : Fin (cfg0 a).N) : (dat0 V a c).after 2 t = iblk0 V a c 2 t := by dsimp only [dat0]; try rfl
theorem after0_3 (c : Dev nD) (t : Fin (cfg0 a).N) : (dat0 V a c).after 3 t = iblk0 V a c 3 t := by dsimp only [dat0]; try rfl
theorem after0_4 (c : Dev nD) (t : Fin (cfg0 a).N) : (dat0 V a c).after 4 t = out0_4 (iblk0 V a c 0 t) := by dsimp only [dat0]; try rfl
theorem after0_5 (c : Dev nD) (t : Fin (cfg0 a).N) : (dat0 V a c).after 5 t = out0_5 (iblk0 V a c 0 t) (iblk0 V a c 1 t) (iblk0 V a c 2 t) (iblk0 V a c 3 t) := by dsimp only [dat0]; try rfl
theorem after0_6 (c : Dev nD) (t : Fin (cfg0 a).N) : (dat0 V a c).after 6 t = out0_6 (iblk0 V a c 2 t) := by dsimp only [dat0]; try rfl

theorem before0_0 (c : Dev nD) (t : Fin (cfg0 a).N) (d) : (dat0 V a c).before 0 t d = iblk0 V a c 0 t := before0_0_of V a (dat0 V a c) (A_eq0 V a c 0) (after0_0 V a c) t d
theorem before0_1 (c : Dev nD) (t : Fin (cfg0 a).N) (d) : (dat0 V a c).before 1 t d = iblk0 V a c 1 t := before0_1_of V a (dat0 V a c) (A_eq0 V a c 1) (after0_1 V a c) t d
theorem before0_2 (c : Dev nD) (t : Fin (cfg0 a).N) (d) : (dat0 V a c).before 2 t d = iblk0 V a c 2 t := before0_2_of V a (dat0 V a c) (A_eq0 V a c 2) (after0_2 V a c) t d
theorem before0_3 (c : Dev nD) (t : Fin (cfg0 a).N) (d) : (dat0 V a c).before 3 t d = iblk0 V a c 3 t := before0_3_of V a (dat0 V a c) (A_eq0 V a c 3) (after0_3 V a c) t d

/-! ## The body obligation, at a generic point -/

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t))

/-- The body at any point: the inputs' memrefs hold their blocks, so sound_kernel0 applies; the invariant (the
    tables in it) and the core's dues pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ _ _ _ _ (iblk0 V a c 0 t) (iblk0 V a c 1 t) (iblk0 V a c 2 t) (iblk0 V a c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V a c) (defs₀ (F := F)) Variants.none () Set.univ := fun t => by
  rw [bigSep_W0, bigSep_W0]
  exact sound_body0 V a c t

end Region0

end Cert.Kernel.Hand

end
-- ==== Proof.KRegion1.lean ====
/-
  The second call (the combine kernel) as one region of the program, at any float instance and at any contents V of
  the core's buffers when the region is entered. Its grid has 8 points, one per tile of 2048 batch rows. At a point
  the nine input windows hold their blocks of V's arrays (the Q tile, the first call's partial sums, the item-row
  sums, the occupation words, the genre words, and the four small tables whole), the body loads each whole, and its
  one store writes the tile's 2048 scores: out1_9, a function of the nine blocks. The proof data say exactly that,
  the region invariant is the class's (scratch and generator register untouched), nothing is owed.
-/
import proofs.«428560_j76630806495462_2_alg».proof.Proof.Gen.Kernel.Launch
import proofs.«428560_j76630806495462_2_alg».proof.Proof.Gen.Kernel.Skeleton
import proofs.«428560_j76630806495462_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (unfetched, its
    block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rQ : Rect S2048x64 := Rect.unit (s := S2048x64) ![0, 0] S2048x64.size inb_S2048x64_S2048x64_0_0
abbrev rC : Rect S2048x1 := Rect.unit (s := S2048x1) ![0, 0] S2048x1.size inb_S2048x1_S2048x1_0_0
abbrev rG : Rect S2048x18 := Rect.unit (s := S2048x18) ![0, 0] S2048x18.size inb_S2048x18_S2048x18_0_0
abbrev rOe : Rect S21x64 := Rect.unit (s := S21x64) ![0, 0] S21x64.size inb_S21x64_S21x64_0_0
abbrev rOb : Rect S21x1 := Rect.unit (s := S21x1) ![0, 0] S21x1.size inb_S21x1_S21x1_0_0
abbrev rGe : Rect S18x64 := Rect.unit (s := S18x64) ![0, 0] S18x64.size inb_S18x64_S18x64_0_0
abbrev rGb : Rect S18x1 := Rect.unit (s := S18x1) ![0, 0] S18x1.size inb_S18x1_S18x1_0_0

/-- The tile's scores as the body computes them from what it loads. -/
def tile1 (v0 : Vec F S2048x64 .f32) (v2 v4 : Vec F S2048x1 .f32) (v6 : Vec F S2048x1 .i32) (v8 : Vec F S2048x18 .i32)
    (v14 : Vec F S21x64 .f32) (v16 : Vec F S21x1 .f32) (v25 : Vec F S18x64 .f32) (v34 : Vec F S18x1 .f32) : FVec F S2048x1 .f32 :=
  k1_pay1 (k1_pay2 v2) (k1_pay3 v4) (k1_pay5 v6 v16) (k1_pay6 v0 v6 v14) (k1_pay7 v8) (k1_pay8 v8) (k1_pay9 v8 v25) v34

/-- The output window's staging buffer after the body, from the nine input blocks: its one store as a piece. -/
def out1_9 (x0 : Vec F S2048x64 .f32) (x1 x2 : Vec F S2048x1 .f32) (x3 : Vec F S2048x1 .i32) (x4 : Vec F S2048x18 .i32)
    (x5 : Vec F S21x64 .f32) (x6 : Vec F S21x1 .f32) (x7 : Vec F S18x64 .f32) (x8 : Vec F S18x1 .f32) : Vec F S2048x1 .f32 :=
  View.canon [⟨rC, tile1 (View.ld x0 rQ) (View.ld x1 rC) (View.ld x2 rC) (View.ld x3 rC) (View.ld x4 rG) (View.ld x5 rOe) (View.ld x6 rOb) (View.ld x7 rGe) (View.ld x8 rGb)⟩]

/-- The one store takes the whole buffer, so it covers it. -/
theorem cover1_9 (p0 : Vec F S2048x1 .f32) (y : S2048x1.Idx) :
    ∃ pc ∈ ([⟨rC, p0⟩] : List (View.Piece (Elt F) S2048x1 .f32)), y ∈ pc.1.set :=
  View.cover_of_tiled [⟨rC, p0⟩] S2048x1.size (by rfl) y

/-! ## The body's triple -/

set_option maxHeartbeats 4000000 in
/-- The body on whole staging memrefs, the inputs' at read contents and the output's at anything, runs to the
    continuation holding the inputs' as they were and the output's at out1_9 of the inputs'. -/
theorem sound_kernel1 (c : Dev nD) (E : Set ℕ) (i : grid1.Coords)
    (arg1 : Memref sig .tc .vmem S2048x64 .f32) (harg1 : arg1.IsWhole) (arg2 : Memref sig .tc .vmem S2048x1 .f32) (harg2 : arg2.IsWhole)
    (arg3 : Memref sig .tc .vmem S2048x1 .f32) (harg3 : arg3.IsWhole) (arg4 : Memref sig .tc .vmem S2048x1 .i32) (harg4 : arg4.IsWhole)
    (arg5 : Memref sig .tc .vmem S2048x18 .i32) (harg5 : arg5.IsWhole) (arg6 : Memref sig .tc .vmem S21x64 .f32) (harg6 : arg6.IsWhole)
    (arg7 : Memref sig .tc .vmem S21x1 .f32) (harg7 : arg7.IsWhole) (arg8 : Memref sig .tc .vmem S18x64 .f32) (harg8 : arg8.IsWhole)
    (arg9 : Memref sig .tc .vmem S18x1 .f32) (harg9 : arg9.IsWhole) (arg10 : Memref sig .tc .vmem S2048x1 .f32) (harg10 : arg10.IsWhole)
    (x0 : Vec F S2048x64 .f32) (x1 x2 : Vec F S2048x1 .f32) (x3 : Vec F S2048x1 .i32) (x4 : Vec F S2048x18 .i32)
    (x5 : Vec F S21x64 .f32) (x6 : Vec F S21x1 .f32) (x7 : Vec F S18x64 .f32) (x8 : Vec F S18x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E
          (cc1__combine_kernel i arg1 harg1 arg2 harg2 arg3 harg3 arg4 harg4 arg5 harg5 arg6 harg6 arg7 harg7 arg8 harg8 arg9 harg9 arg10 harg10) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of the second call on core c: the arrays as the region finds them; after the body at point t each
    input's buffer at its block and the output's at out1_9 of the input blocks; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d
theorem before1_6 (c : Dev nD) (t : Fin cfg1.N) (d) : (dat1 V c).before 6 t d = iblk1 V c 6 t := before1_6_of V (dat1 V c) (A_eq1 V c 6) (after1_6 V c) t d
theorem before1_7 (c : Dev nD) (t : Fin cfg1.N) (d) : (dat1 V c).before 7 t d = iblk1 V c 7 t := before1_7_of V (dat1 V c) (A_eq1 V c 7) (after1_7 V c) t d
theorem before1_8 (c : Dev nD) (t : Fin cfg1.N) (d) : (dat1 V c).before 8 t d = iblk1 V c 8 t := before1_8_of V (dat1 V c) (A_eq1 V c 8) (after1_8 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so sound_kernel1 applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The whole program as a run of five items: the host reshapes before the first call, the first call (the gather
  kernel, with its two prefetched tables), the reshapes of its three results, the second call (the combine kernel),
  and the last reshape. The contents of every buffer of the core at each boundary are a fold from the launch memory
  (W0 … W5): a host stretch applies its operations, a call leaves its output arrays at what its write-backs leave and
  everything else as it found it. The thread state between items is "every buffer held at the boundary's contents,
  the generator register at some state, nothing owed". The tables' contents are read off the launch memory (tbl) and
  the first call's pipeline runs at them under the side condition Ok (every table-indexed block inside its array).
  The run ends with every buffer at W5: the frame and the value are both read off that.
-/
import proofs.«428560_j76630806495462_2_alg».proof.Proof.KRegion0
import proofs.«428560_j76630806495462_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables, read off the launch memory -/

/-- Core c's buffers as launched. -/
abbrev Vm (c : Dev nD) (b : Ref sig .tc) : Buf (Elt F) ((c : Thread nD τ).loc b) := m ((c : Thread nD τ).loc b)
/-- The two tables' contents (the program runs on one device). -/
def tbl : pre0.Contents (Elt F) := fun j => Vm m (0 : Dev nD) (pre0.ref j)
theorem Vm_pre (c : Dev nD) (j : Fin 2) : Vm m c (pre0.ref j) = tbl m j := by
  obtain rfl : c = 0 := Subsingleton.elim _ _; rfl
/-- The first call's side condition of the tables: every block they index lies inside its array. -/
abbrev Ok : Prop := ok0 (F := F) (tbl m)
abbrev adm0 (hO : Ok m) : (pcfg0 (F := F)).Adm := ⟨tbl m, hO⟩
/-- Both calls' admissible table contents (the second has none). -/
def adm (hO : Ok m) : (p : Fin 2) → (pcfgs (F := F) p).Adm
  | ⟨0, _⟩ => adm0 m hO
  | ⟨1, _⟩ => cfg1.toPCfg_adm

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, every other buffer as entered. -/
def W2 (hO : Ok m) (c : Dev nD) : Valuation τ sig (Elt F) :=
  Pipeline.withArrays spec0 c (W1 m ρ c) fun w => (dat0 (V1 m ρ) (adm0 m hO) c).arrAt w (cfg0 (adm0 m hO)).N
theorem W2_arr (hO : Ok m) (c : Dev nD) (w : Fin (cfg0 (adm0 m hO)).W) :
    W2 m ρ hO c (Proc.devRef .tc (Pipeline.arrRef spec0 w)) = (dat0 (V1 m ρ) (adm0 m hO) c).arrAt w (cfg0 (adm0 m hO)).N := by
  unfold W2; exact Pipeline.withArrays_arr spec0 winFacts0.arr_inj c _ _ w
theorem W2_of_ne (hO : Ok m) (c : Dev nD) (b : Ref sig .tc) (hb : ∀ w, Pipeline.arrRef spec0 w ≠ b) :
    W2 m ρ hO c (Proc.devRef .tc b) = W1 m ρ c (Proc.devRef .tc b) := by
  unfold W2; exact Pipeline.withArrays_of_ne spec0 c _ _ b hb
abbrev V2 (hO : Ok m) : (c : Dev nD) → (b : Ref sig .tc) → Buf (Elt F) ((c : Thread nD τ).loc b) := fun c b => W2 m ρ hO c b
theorem hF0 (hO : Ok m) (c : Dev nD) (w : Fin (cfg0 (adm0 m hO)).W) :
    (dat0 (V1 m ρ) (adm0 m hO) c).arrAt w (cfg0 (adm0 m hO)).N = V2 m ρ hO c (Pipeline.arrRef spec0 w) :=
  (W2_arr m ρ hO c w).symm
theorem hrest0 (hO : Ok m) (c : Dev nD) : ∀ b, b ∉ Finset.univ.image (Pipeline.arrRef spec0) → V2 m ρ hO c b = V1 m ρ c b :=
  fun b hb => W2_of_ne m ρ hO c b fun w e => hb (Finset.mem_image.mpr ⟨w, Finset.mem_univ _, e⟩)

abbrev W3 (hO : Ok m) : Dev nD → Valuation τ sig (Elt F) := fun c => StableHlo.after hostOps1 (W2 m ρ hO c)
abbrev V3 (hO : Ok m) : (c : Dev nD) → (b : Ref sig .tc) → Buf (Elt F) ((c : Thread nD τ).loc b) := fun c b => W3 m ρ hO c b
/-- After the second call. -/
def W4 (hO : Ok m) (c : Dev nD) : Valuation τ sig (Elt F) :=
  Pipeline.withArrays spec1 c (W3 m ρ hO c) fun w => (dat1 (V3 m ρ hO) c).arrAt w cfg1.N
theorem W4_arr (hO : Ok m) (c : Dev nD) (w : Fin cfg1.W) :
    W4 m ρ hO c (Proc.devRef .tc (Pipeline.arrRef spec1 w)) = (dat1 (V3 m ρ hO) c).arrAt w cfg1.N := by
  unfold W4; exact Pipeline.withArrays_arr spec1 winFacts1.arr_inj c _ _ w
theorem W4_of_ne (hO : Ok m) (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev V4 (hO : Ok m) : (c : Dev nD) → (b : Ref sig .tc) → Buf (Elt F) ((c : Thread nD τ).loc b) := fun c b => W4 m ρ hO c b
theorem hF1 (hO : Ok m) (c : Dev nD) (w : Fin cfg1.W) : (dat1 (V3 m ρ hO) c).arrAt w cfg1.N = V4 m ρ hO c (Pipeline.arrRef spec1 w) :=
  (W4_arr m ρ hO c w).symm
theorem hrest1 (hO : Ok m) (c : Dev nD) : ∀ b, b ∉ Finset.univ.image (Pipeline.arrRef spec1) → V4 m ρ hO c b = V3 m ρ hO c b :=
  fun b hb => W4_of_ne m ρ hO c b fun w e => hb (Finset.mem_image.mpr ⟨w, Finset.mem_univ _, e⟩)
/-- At the return. -/
abbrev W5 (hO : Ok m) : Dev nD → Valuation τ sig (Elt F) := fun c => StableHlo.after hostOps2 (W4 m ρ hO c)

/-- The tables stand at the first call's entry as launched: no reshape writes them. -/
theorem V1_pre (c : Dev nD) (j : Fin 2) : V1 m ρ c (pre0.ref j) = tbl m j := by
  rw [← Vm_pre m c j]
  match j with
  | ⟨0, _⟩ => exact StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  | ⟨1, _⟩ => exact StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The proof data family and the thread state -/

/-- Every pipeline's proof data, each at its region's entry contents. -/
def pdats (hO : Ok m) : (p : Fin 2) → (c : Dev nD) → Dat τ (Elt F) Unit ℕ (UR sig nD τ) ℕ (Pipeline.pin (pcfgs (F := F)) (adm m hO) p) c
  | ⟨0, _⟩ => fun c => dat0 (V1 m ρ) (adm0 m hO) c
  | ⟨1, _⟩ => fun c => dat1 (V3 m ρ hO) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (hO : Ok m) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (hO : Ok m) (c : Dev nD) : sProp 𝕄 := iprop(StableHlo.held (c : Thread nD τ) (Pipeline.ucRefs τ sig) (W5 m ρ hO c) ∗ ∃ r, prngReg c r)

/-! ## The regions as segments -/

set_option backward.isDefEq.respectTransparency.types false in
/-- The first call over the thread state: entered from every buffer at W1, left at W2. Its arrays are split out of
    the buffers and put back at the exit contents; the two tables are split out of the rest, go through the region
    invariant whole and come back; the generator register goes into the invariant and out; nothing owed. -/
def reg0 (hO : Ok m) : Pipeline.RegionSeg (pcfgs (F := F)) (adm m hO) (pdats m ρ hO) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) (adm0 m hO) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ tabs0 (adm0 m hO) c)
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) (adm m hO) (pdats m ρ hO) winFacts0 arr_whole0 c
      ((pdats m ρ hO 0 c).share_full fun _ => rfl) (V1 m ρ c) fun _ => rfl
    rw [Pipeline.unscopedBufs_held] at hsplit
    have htab : (Pipeline.unscopedRest (Ix := Unit) (Name := ℕ) (U := UR sig nD τ) (Lvl := ℕ) spec0 c (V1 m ρ c) : sProp 𝕄)
        = iprop(tabs0 (adm0 m hO) c ∗ Pipeline.unscopedRestP (Ix := Unit) (Name := ℕ) (U := UR sig nD τ) (Lvl := ℕ) pre0 spec0 c (V1 m ρ c)) := by
      rw [Pipeline.unscopedRest_split preFacts0 c (V1 m ρ c), show (fun k => V1 m ρ c (pre0.ref k)) = tbl m from funext (V1_pre m ρ c)]
    iintro ⟨⟨Hub, Hp, HO⟩, -, -⟩
    ihave H := hsplit $$ Hub
    icases H with ⟨Ha, Hrest⟩
    ihave Hrest' := (Entails.of_eq htab) $$ Hrest
    icases Hrest' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ tabs0 (adm0 m hO) c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m ρ hO 0 c).Φ (Fin.last _) = iprop(Pipeline.ΦA spec0 c ∗ tabs0 (adm0 m hO) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m hO) (Ix := Unit) (Name := ℕ) (U := UR sig nD τ) (Lvl := ℕ)
      winFacts0 arr_whole0 c (pdats m ρ hO) ((pdats m ρ hO 0 c).share_full fun _ => rfl)
      (V1 m ρ c) (V2 m ρ hO c) ((pdats m ρ hO 0 c).arrAt · (cfg0 (adm0 m hO)).N) (hF0 m ρ hO c) (hrest0 m ρ hO c)
    rw [Pipeline.unscopedBufs_held] at hjoin
    have htab : (Pipeline.unscopedRest (Ix := Unit) (Name := ℕ) (U := UR sig nD τ) (Lvl := ℕ) spec0 c (V1 m ρ c) : sProp 𝕄)
        = iprop(tabs0 (adm0 m hO) c ∗ Pipeline.unscopedRestP (Ix := Unit) (Name := ℕ) (U := UR sig nD τ) (Lvl := ℕ) pre0 spec0 c (V1 m ρ c)) := by
      rw [Pipeline.unscopedRest_split preFacts0 c (V1 m ρ c), show (fun k => V1 m ρ c (pre0.ref k)) = tbl m from funext (V1_pre m ρ c)]
    iintro ⟨Ha, HO, ⟨HY, Ht⟩, Hrest⟩
    ihave Hrest' := (Entails.of_eq htab.symm) $$ [Ht Hrest]
    · isplitl [Ht]; · iexact Ht
      iexact Hrest
    imodintro
    isplitl [Ha Hrest']
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every buffer at W3, left at W4. -/
def reg1 (hO : Ok m) : Pipeline.RegionSeg (pcfgs (F := F)) (adm m hO) (pdats m ρ hO) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(StableHlo.held (c : Thread nD τ) (Pipeline.ucRefs τ sig) (W4 m ρ hO c) ∗ R c)
  X c := iprop(∃ r, prngReg c r)
  Y c := iprop(∃ r, prngReg c r)
  Z c := Pipeline.unscopedRest (Ix := Unit) (Name := ℕ) (U := UR sig nD τ) (Lvl := ℕ) spec1 c (V3 m ρ hO c)
  hentry c := by
    rw [Pipeline.ownSems0_none]
    have hsplit := Pipeline.arrays_of_unscopedBufs (p := 1) (pcfgs (F := F)) (adm m hO) (pdats m ρ hO) winFacts1 arr_whole1 c
      ((pdats m ρ hO 1 c).share_full fun _ => rfl) (V3 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hO) (Ix := Unit) (Name := ℕ) (U := UR sig nD τ) (Lvl := ℕ)
      winFacts1 arr_whole1 c (pdats m ρ hO) ((pdats m ρ hO 1 c).share_full fun _ => rfl)
      (V3 m ρ hO c) (V4 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs (hO : Ok m) : List (Pipeline.Seg (pcfgs (F := F)) (adm m hO) (pdats m ρ hO) () defs₀ 𝒱₀ L lv) :=
  [ .host (hseg m hO hostOps0 hostOps0_sub hostOps0_fresh (W0 m ρ)),
    .region (reg0 m ρ hO),
    .host (hseg m hO hostOps1 hostOps1_sub hostOps1_fresh (W2 m ρ hO)),
    .region (reg1 m ρ hO),
    .host (hseg m hO hostOps2 hostOps2_sub hostOps2_fresh (W4 m ρ hO)) ]
theorem main_run (hO : Ok m) (c : Dev nD) : main (F := F) c = Pipeline.Seg.run (segs m ρ hO) := (main_chain c).trans (by chain_rfl)

set_option backward.isDefEq.respectTransparency.types false in
/-- THE RUN: from any memory with zero counters whose tables satisfy Ok, every weakly fair execution of the program
    terminates, nothing faulting, and every final state has every unscoped buffer of every core at W5. -/
theorem run (hO : Ok m) : θ_run defs (onTc (τ := τ) (main (F := F))) ⟨m, fun _ => 0, ρ⟩ (fun r => ∀ c : Dev nD,
      ∀ b ∈ Pipeline.ucRefs τ sig, r.2.mem (((c : Thread nD τ)).1, b) = W5 m ρ hO c b) :=
  Pipeline.θ_run_regions_kit (pcfgs (F := F)) (adm m hO) (pdats m ρ hO) () (cellOf_inj (adm m hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun c => by
      show iprop(StableHlo.held (c : Thread nD τ) (Pipeline.ucRefs τ sig) (W5 m ρ hO c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ hO c) s')
      isplitl [Hh] <;> iassumption)
    (hQ := fun s h c => h c)

end Cert.Kernel.Hand

end
-- ==== Proof.KArgs.lean ====
/-
  The twelve arguments end as launched.

  No reshape writes an argument, and neither call writes one: the first call's arrays are the reshaped tables and its
  three results; the second call reads the genre words and the occupation and genre tables through input windows,
  which leave their arrays as entered, and its one output is its own result. So at an argument's buffer the fold of
  boundary contents walks back to the launch memory: from the second call's entry first, then from the return.
-/
import proofs.«428560_j76630806495462_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer that no reshape of a host stretch writes keeps its contents over the stretch. -/
local macro "unwritten " b:ident : tactic => `(tactic|
  exact StableHlo.after_of_forall_not_mem (b := Proc.devRef .tc $b) _ _ (List.forall_iff_forall_mem.mp (by
    simp only [hostOps0, hostOps1, hostOps2, List.Forall, StableHlo.reshape_writes, Finset.mem_singleton]
    repeat' apply And.intro
    all_goals exact StableHlo.devRef_ne_of_ne (by decide))))

/-! At the second call's entry every argument is as launched: the first call's arrays are none of them. -/

theorem W3_main_arg0 (hO : Ok m) (c : Dev nD) :
    W3 m ρ hO c (Proc.devRef .tc main_arg0) = m ((c : Thread nD τ).loc main_arg0) :=
  calc W3 m ρ hO c (Proc.devRef .tc main_arg0)
    _ = W2 m ρ hO c (Proc.devRef .tc main_arg0) := by unwritten main_arg0
    _ = W1 m ρ c (Proc.devRef .tc main_arg0) := W2_of_ne m ρ hO c main_arg0 (by decide)
    _ = W0 m ρ c (Proc.devRef .tc main_arg0) := by unwritten main_arg0
    _ = m ((c : Thread nD τ).loc main_arg0) := rfl

theorem W3_main_arg1 (hO : Ok m) (c : Dev nD) :
    W3 m ρ hO c (Proc.devRef .tc main_arg1) = m ((c : Thread nD τ).loc main_arg1) :=
  calc W3 m ρ hO c (Proc.devRef .tc main_arg1)
    _ = W2 m ρ hO c (Proc.devRef .tc main_arg1) := by unwritten main_arg1
    _ = W1 m ρ c (Proc.devRef .tc main_arg1) := W2_of_ne m ρ hO c main_arg1 (by decide)
    _ = W0 m ρ c (Proc.devRef .tc main_arg1) := by unwritten main_arg1
    _ = m ((c : Thread nD τ).loc main_arg1) := rfl

theorem W3_main_arg2 (hO : Ok m) (c : Dev nD) :
    W3 m ρ hO c (Proc.devRef .tc main_arg2) = m ((c : Thread nD τ).loc main_arg2) :=
  calc W3 m ρ hO c (Proc.devRef .tc main_arg2)
    _ = W2 m ρ hO c (Proc.devRef .tc main_arg2) := by unwritten main_arg2
    _ = W1 m ρ c (Proc.devRef .tc main_arg2) := W2_of_ne m ρ hO c main_arg2 (by decide)
    _ = W0 m ρ c (Proc.devRef .tc main_arg2) := by unwritten main_arg2
    _ = m ((c : Thread nD τ).loc main_arg2) := rfl

theorem W3_main_arg3 (hO : Ok m) (c : Dev nD) :
    W3 m ρ hO c (Proc.devRef .tc main_arg3) = m ((c : Thread nD τ).loc main_arg3) :=
  calc W3 m ρ hO c (Proc.devRef .tc main_arg3)
    _ = W2 m ρ hO c (Proc.devRef .tc main_arg3) := by unwritten main_arg3
    _ = W1 m ρ c (Proc.devRef .tc main_arg3) := W2_of_ne m ρ hO c main_arg3 (by decide)
    _ = W0 m ρ c (Proc.devRef .tc main_arg3) := by unwritten main_arg3
    _ = m ((c : Thread nD τ).loc main_arg3) := rfl

theorem W3_main_arg4 (hO : Ok m) (c : Dev nD) :
    W3 m ρ hO c (Proc.devRef .tc main_arg4) = m ((c : Thread nD τ).loc main_arg4) :=
  calc W3 m ρ hO c (Proc.devRef .tc main_arg4)
    _ = W2 m ρ hO c (Proc.devRef .tc main_arg4) := by unwritten main_arg4
    _ = W1 m ρ c (Proc.devRef .tc main_arg4) := W2_of_ne m ρ hO c main_arg4 (by decide)
    _ = W0 m ρ c (Proc.devRef .tc main_arg4) := by unwritten main_arg4
    _ = m ((c : Thread nD τ).loc main_arg4) := rfl

theorem W3_main_arg5 (hO : Ok m) (c : Dev nD) :
    W3 m ρ hO c (Proc.devRef .tc main_arg5) = m ((c : Thread nD τ).loc main_arg5) :=
  calc W3 m ρ hO c (Proc.devRef .tc main_arg5)
    _ = W2 m ρ hO c (Proc.devRef .tc main_arg5) := by unwritten main_arg5
    _ = W1 m ρ c (Proc.devRef .tc main_arg5) := W2_of_ne m ρ hO c main_arg5 (by decide)
    _ = W0 m ρ c (Proc.devRef .tc main_arg5) := by unwritten main_arg5
    _ = m ((c : Thread nD τ).loc main_arg5) := rfl

theorem W3_main_arg6 (hO : Ok m) (c : Dev nD) :
    W3 m ρ hO c (Proc.devRef .tc main_arg6) = m ((c : Thread nD τ).loc main_arg6) :=
  calc W3 m ρ hO c (Proc.devRef .tc main_arg6)
    _ = W2 m ρ hO c (Proc.devRef .tc main_arg6) := by unwritten main_arg6
    _ = W1 m ρ c (Proc.devRef .tc main_arg6) := W2_of_ne m ρ hO c main_arg6 (by decide)
    _ = W0 m ρ c (Proc.devRef .tc main_arg6) := by unwritten main_arg6
    _ = m ((c : Thread nD τ).loc main_arg6) := rfl

theorem W3_main_arg7 (hO : Ok m) (c : Dev nD) :
    W3 m ρ hO c (Proc.devRef .tc main_arg7) = m ((c : Thread nD τ).loc main_arg7) :=
  calc W3 m ρ hO c (Proc.devRef .tc main_arg7)
    _ = W2 m ρ hO c (Proc.devRef .tc main_arg7) := by unwritten main_arg7
    _ = W1 m ρ c (Proc.devRef .tc main_arg7) := W2_of_ne m ρ hO c main_arg7 (by decide)
    _ = W0 m ρ c (Proc.devRef .tc main_arg7) := by unwritten main_arg7
    _ = m ((c : Thread nD τ).loc main_arg7) := rfl

theorem W3_main_arg8 (hO : Ok m) (c : Dev nD) :
    W3 m ρ hO c (Proc.devRef .tc main_arg8) = m ((c : Thread nD τ).loc main_arg8) :=
  calc W3 m ρ hO c (Proc.devRef .tc main_arg8)
    _ = W2 m ρ hO c (Proc.devRef .tc main_arg8) := by unwritten main_arg8
    _ = W1 m ρ c (Proc.devRef .tc main_arg8) := W2_of_ne m ρ hO c main_arg8 (by decide)
    _ = W0 m ρ c (Proc.devRef .tc main_arg8) := by unwritten main_arg8
    _ = m ((c : Thread nD τ).loc main_arg8) := rfl

theorem W3_main_arg9 (hO : Ok m) (c : Dev nD) :
    W3 m ρ hO c (Proc.devRef .tc main_arg9) = m ((c : Thread nD τ).loc main_arg9) :=
  calc W3 m ρ hO c (Proc.devRef .tc main_arg9)
    _ = W2 m ρ hO c (Proc.devRef .tc main_arg9) := by unwritten main_arg9
    _ = W1 m ρ c (Proc.devRef .tc main_arg9) := W2_of_ne m ρ hO c main_arg9 (by decide)
    _ = W0 m ρ c (Proc.devRef .tc main_arg9) := by unwritten main_arg9
    _ = m ((c : Thread nD τ).loc main_arg9) := rfl

theorem W3_main_arg10 (hO : Ok m) (c : Dev nD) :
    W3 m ρ hO c (Proc.devRef .tc main_arg10) = m ((c : Thread nD τ).loc main_arg10) :=
  calc W3 m ρ hO c (Proc.devRef .tc main_arg10)
    _ = W2 m ρ hO c (Proc.devRef .tc main_arg10) := by unwritten main_arg10
    _ = W1 m ρ c (Proc.devRef .tc main_arg10) := W2_of_ne m ρ hO c main_arg10 (by decide)
    _ = W0 m ρ c (Proc.devRef .tc main_arg10) := by unwritten main_arg10
    _ = m ((c : Thread nD τ).loc main_arg10) := rfl

theorem W3_main_arg11 (hO : Ok m) (c : Dev nD) :
    W3 m ρ hO c (Proc.devRef .tc main_arg11) = m ((c : Thread nD τ).loc main_arg11) :=
  calc W3 m ρ hO c (Proc.devRef .tc main_arg11)
    _ = W2 m ρ hO c (Proc.devRef .tc main_arg11) := by unwritten main_arg11
    _ = W1 m ρ c (Proc.devRef .tc main_arg11) := W2_of_ne m ρ hO c main_arg11 (by decide)
    _ = W0 m ρ c (Proc.devRef .tc main_arg11) := by unwritten main_arg11
    _ = m ((c : Thread nD τ).loc main_arg11) := rfl

/-! At the return: the arguments that are no array of the second call. -/

theorem W5_main_arg0 (hO : Ok m) (c : Dev nD) :
    W5 m ρ hO c (Proc.devRef .tc main_arg0) = m ((c : Thread nD τ).loc main_arg0) :=
  calc W5 m ρ hO c (Proc.devRef .tc main_arg0)
    _ = W4 m ρ hO c (Proc.devRef .tc main_arg0) := by unwritten main_arg0
    _ = W3 m ρ hO c (Proc.devRef .tc main_arg0) := W4_of_ne m ρ hO c main_arg0 (by decide)
    _ = m ((c : Thread nD τ).loc main_arg0) := W3_main_arg0 m ρ hO c

theorem W5_main_arg1 (hO : Ok m) (c : Dev nD) :
    W5 m ρ hO c (Proc.devRef .tc main_arg1) = m ((c : Thread nD τ).loc main_arg1) :=
  calc W5 m ρ hO c (Proc.devRef .tc main_arg1)
    _ = W4 m ρ hO c (Proc.devRef .tc main_arg1) := by unwritten main_arg1
    _ = W3 m ρ hO c (Proc.devRef .tc main_arg1) := W4_of_ne m ρ hO c main_arg1 (by decide)
    _ = m ((c : Thread nD τ).loc main_arg1) := W3_main_arg1 m ρ hO c

theorem W5_main_arg2 (hO : Ok m) (c : Dev nD) :
    W5 m ρ hO c (Proc.devRef .tc main_arg2) = m ((c : Thread nD τ).loc main_arg2) :=
  calc W5 m ρ hO c (Proc.devRef .tc main_arg2)
    _ = W4 m ρ hO c (Proc.devRef .tc main_arg2) := by unwritten main_arg2
    _ = W3 m ρ hO c (Proc.devRef .tc main_arg2) := W4_of_ne m ρ hO c main_arg2 (by decide)
    _ = m ((c : Thread nD τ).loc main_arg2) := W3_main_arg2 m ρ hO c

theorem W5_main_arg4 (hO : Ok m) (c : Dev nD) :
    W5 m ρ hO c (Proc.devRef .tc main_arg4) = m ((c : Thread nD τ).loc main_arg4) :=
  calc W5 m ρ hO c (Proc.devRef .tc main_arg4)
    _ = W4 m ρ hO c (Proc.devRef .tc main_arg4) := by unwritten main_arg4
    _ = W3 m ρ hO c (Proc.devRef .tc main_arg4) := W4_of_ne m ρ hO c main_arg4 (by decide)
    _ = m ((c : Thread nD τ).loc main_arg4) := W3_main_arg4 m ρ hO c

theorem W5_main_arg5 (hO : Ok m) (c : Dev nD) :
    W5 m ρ hO c (Proc.devRef .tc main_arg5) = m ((c : Thread nD τ).loc main_arg5) :=
  calc W5 m ρ hO c (Proc.devRef .tc main_arg5)
    _ = W4 m ρ hO c (Proc.devRef .tc main_arg5) := by unwritten main_arg5
    _ = W3 m ρ hO c (Proc.devRef .tc main_arg5) := W4_of_ne m ρ hO c main_arg5 (by decide)
    _ = m ((c : Thread nD τ).loc main_arg5) := W3_main_arg5 m ρ hO c

theorem W5_main_arg6 (hO : Ok m) (c : Dev nD) :
    W5 m ρ hO c (Proc.devRef .tc main_arg6) = m ((c : Thread nD τ).loc main_arg6) :=
  calc W5 m ρ hO c (Proc.devRef .tc main_arg6)
    _ = W4 m ρ hO c (Proc.devRef .tc main_arg6) := by unwritten main_arg6
    _ = W3 m ρ hO c (Proc.devRef .tc main_arg6) := W4_of_ne m ρ hO c main_arg6 (by decide)
    _ = m ((c : Thread nD τ).loc main_arg6) := W3_main_arg6 m ρ hO c

theorem W5_main_arg7 (hO : Ok m) (c : Dev nD) :
    W5 m ρ hO c (Proc.devRef .tc main_arg7) = m ((c : Thread nD τ).loc main_arg7) :=
  calc W5 m ρ hO c (Proc.devRef .tc main_arg7)
    _ = W4 m ρ hO c (Proc.devRef .tc main_arg7) := by unwritten main_arg7
    _ = W3 m ρ hO c (Proc.devRef .tc main_arg7) := W4_of_ne m ρ hO c main_arg7 (by decide)
    _ = m ((c : Thread nD τ).loc main_arg7) := W3_main_arg7 m ρ hO c

/-! At the return: the arguments the second call reads through an input window. -/

theorem W5_main_arg3 (hO : Ok m) (c : Dev nD) :
    W5 m ρ hO c (Proc.devRef .tc main_arg3) = m ((c : Thread nD τ).loc main_arg3) :=
  calc W5 m ρ hO c (Proc.devRef .tc main_arg3)
    _ = W4 m ρ hO c (Proc.devRef .tc main_arg3) := by unwritten main_arg3
    _ = W3 m ρ hO c (Proc.devRef .tc main_arg3) :=
      (W4_arr m ρ hO c 4).trans (((dat1 (V3 m ρ hO) c).arrAt_in 4 rfl _).trans (A_eq1 (V3 m ρ hO) c 4))
    _ = m ((c : Thread nD τ).loc main_arg3) := W3_main_arg3 m ρ hO c

theorem W5_main_arg8 (hO : Ok m) (c : Dev nD) :
    W5 m ρ hO c (Proc.devRef .tc main_arg8) = m ((c : Thread nD τ).loc main_arg8) :=
  calc W5 m ρ hO c (Proc.devRef .tc main_arg8)
    _ = W4 m ρ hO c (Proc.devRef .tc main_arg8) := by unwritten main_arg8
    _ = W3 m ρ hO c (Proc.devRef .tc main_arg8) :=
      (W4_arr m ρ hO c 5).trans (((dat1 (V3 m ρ hO) c).arrAt_in 5 rfl _).trans (A_eq1 (V3 m ρ hO) c 5))
    _ = m ((c : Thread nD τ).loc main_arg8) := W3_main_arg8 m ρ hO c

theorem W5_main_arg9 (hO : Ok m) (c : Dev nD) :
    W5 m ρ hO c (Proc.devRef .tc main_arg9) = m ((c : Thread nD τ).loc main_arg9) :=
  calc W5 m ρ hO c (Proc.devRef .tc main_arg9)
    _ = W4 m ρ hO c (Proc.devRef .tc main_arg9) := by unwritten main_arg9
    _ = W3 m ρ hO c (Proc.devRef .tc main_arg9) :=
      (W4_arr m ρ hO c 6).trans (((dat1 (V3 m ρ hO) c).arrAt_in 6 rfl _).trans (A_eq1 (V3 m ρ hO) c 6))
    _ = m ((c : Thread nD τ).loc main_arg9) := W3_main_arg9 m ρ hO c

theorem W5_main_arg10 (hO : Ok m) (c : Dev nD) :
    W5 m ρ hO c (Proc.devRef .tc main_arg10) = m ((c : Thread nD τ).loc main_arg10) :=
  calc W5 m ρ hO c (Proc.devRef .tc main_arg10)
    _ = W4 m ρ hO c (Proc.devRef .tc main_arg10) := by unwritten main_arg10
    _ = W3 m ρ hO c (Proc.devRef .tc main_arg10) :=
      (W4_arr m ρ hO c 7).trans (((dat1 (V3 m ρ hO) c).arrAt_in 7 rfl _).trans (A_eq1 (V3 m ρ hO) c 7))
    _ = m ((c : Thread nD τ).loc main_arg10) := W3_main_arg10 m ρ hO c

theorem W5_main_arg11 (hO : Ok m) (c : Dev nD) :
    W5 m ρ hO c (Proc.devRef .tc main_arg11) = m ((c : Thread nD τ).loc main_arg11) :=
  calc W5 m ρ hO c (Proc.devRef .tc main_arg11)
    _ = W4 m ρ hO c (Proc.devRef .tc main_arg11) := by unwritten main_arg11
    _ = W3 m ρ hO c (Proc.devRef .tc main_arg11) :=
      (W4_arr m ρ hO c 8).trans (((dat1 (V3 m ρ hO) c).arrAt_in 8 rfl _).trans (A_eq1 (V3 m ρ hO) c 8))
    _ = m ((c : Thread nD τ).loc main_arg11) := W3_main_arg11 m ρ hO c

end Cert.Kernel.Hand

end
-- ==== Proof.PreRanges.lean ====
/-
  The precondition read back as index ranges. The printed predicate is a conjunction (a chain of one-bit
  `and`s) whose last three conjuncts say, of the user, item and occupation words of every batch row r,
  0 ≤ w (signed) and w < N (signed), N = 1000000, 100000, 21. Each is an `and`-reduction over the 16384
  rows; a reduction by `and` that is 1 had a 1 at every row, and a word that is nonnegative and below a
  small positive literal, both signed, is below that literal read unsigned.
-/
import proofs.«428560_j76630806495462_2_alg».proof.Pre_finite_inputs
import proofs.«428560_j76630806495462_2_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Ranges

open Idealize.ShloMosaic Idealize.ShloMosaic.ValueIdx Cert.Pre_finite_inputs

/-- The scalar shape has one index. -/
instance : Subsingleton S_.Idx := ⟨fun a b => funext fun d => d.elim0⟩

/-- A word that is nonnegative and below b, both read signed, with b itself nonnegative, is below b read unsigned. -/
theorem toNat_lt_of_signed (w b : BitVec 32) (hb : 2 * b.toNat < 2 ^ 32)
    (h : IntOp.andi (IntOp.cmpi .sge w 0#32) (IntOp.cmpi .slt w b) = 1#1) : w.toNat < b.toNat := by
  obtain ⟨h0, h1⟩ := IntOp.andi_eq_one.1 h
  have hw : 2 * w.toNat < 2 ^ 32 := (Scalar.nonneg_iff w).1 h0
  rw [IntOp.cmpi_slt, BitVec.toInt_eq_toNat_of_lt hw, BitVec.toInt_eq_toNat_of_lt hb] at h1
  exact_mod_cast h1

/-- The one-bit `and` of two scalar arrays, read at the one index. -/
theorem andi_ix0 (x y : IVec S_ 1) : andi x y ix0 = IntOp.andi (x ix0) (y ix0) := rfl

/-- Under the precondition every user word is below 1000000, every item word below 100000 and every occupation
    word below 21, read unsigned. -/
theorem ranges_of_pre {F : FTy → Type} [FloatOps F] (a0 a1 a2 : IVec S16384 32) (a3 : IVec S16384x18 32)
    (a4 : FVec F S1000000x64 .f32) (a5 : FVec F S1000000x1 .f32) (a6 : FVec F S100000x64 .f32)
    (a7 : FVec F S100000x1 .f32) (a8 : FVec F S21x64 .f32) (a9 : FVec F S21x1 .f32) (a10 : FVec F S18x64 .f32)
    (a11 : FVec F S18x1 .f32)
    (h : Cert.Pre_finite_inputs.fn (F := F) a0 a1 a2 a3 a4 a5 a6 a7 a8 a9 a10 a11 = (fun _ => 1#1)) :
    (∀ r : Fin 16384, (a0 (ix1 r)).toNat < 1000000) ∧ (∀ r : Fin 16384, (a1 (ix1 r)).toNat < 100000) ∧
      (∀ r : Fin 16384, (a2 (ix1 r)).toNat < 21) := by
  have e := congrFun h ix0
  dsimp only [fn, fn_part1, fn_part2, fn_part3] at e
  rw [andi_ix0, IntOp.andi_eq_one] at e
  obtain ⟨e, ho⟩ := e
  rw [andi_ix0, IntOp.andi_eq_one] at e
  obtain ⟨e, hi⟩ := e
  rw [andi_ix0, IntOp.andi_eq_one] at e
  obtain ⟨-, hu⟩ := e
  refine ⟨fun r => ?_, fun r => ?_, fun r => ?_⟩
  · exact toNat_lt_of_signed (a0 (ix1 r)) 1000000#32 (by decide) (Host.reduce_andi_all _ _ _ _ ix0 hu (ix1 r))
  · exact toNat_lt_of_signed (a1 (ix1 r)) 100000#32 (by decide) (Host.reduce_andi_all _ _ _ _ ix0 hi (ix1 r))
  · exact toNat_lt_of_signed (a2 (ix1 r)) 21#32 (by decide) (Host.reduce_andi_all _ _ _ _ ix0 ho (ix1 r))

end Cert.Pre_finite_inputs.Ranges

end
-- ==== Proof.OkOfRangesK.lean ====
/-
  The pipeline's side condition on the two prefetched tables, from the index ranges. The first call's four
  table-indexed windows fetch, at grid point i, the block whose leading coordinate is the table's word i read
  unsigned (user_id for the two user arrays, item_id for the two item arrays) and whose other coordinates are 0;
  the blocks have extent 1 along the leading axis, so the block lies inside its array exactly when the word is
  below the array's leading extent: 1000000 for the user arrays, 100000 for the item arrays. The transfer ends
  are word-exact because an f32 element is one 32-bit word.
-/
import proofs.«428560_j76630806495462_2_alg».proof.Kernel
import proofs.«428560_j76630806495462_2_alg».proof.Proof.Gen.Kernel
import Idealize.ShloMosaic.Lib.ValueIdx

noncomputable section

namespace Cert.Kernel.OkOfRanges

open Cert.Kernel Cert.Kernel.Facts₀
open Idealize.ShloMosaic Idealize.ShloMosaic.ValueIdx

variable {F : FTy → Type} [FloatOps F]

/-- A block of extent 1 along the leading axis at a word below N, other coordinates 0, lies inside an [N, 1, K] array
    when its other extents are the array's. -/
theorem block_inb (w : BitVec 32) (N K : Nat) (hw : w.toNat < N) (a : Fin 3) :
    ((![w.toNat, 0, 0] : Fin 3 → Nat) a + 1) * (⟨3, ![1, 1, K]⟩ : Shape).size a ≤ (⟨3, ![N, 1, K]⟩ : Shape).size a := by
  fin_cases a <;> simp <;> omega

/-- Under the index ranges the side condition on the tables' contents holds. -/
theorem ok0_of_ranges (pf : pre0.Contents (Elt F))
    (hu : ∀ r : Fin 16384, (pf 0 (ix1 r) : BitVec 32).toNat < 1000000)
    (hi : ∀ r : Fin 16384, (pf 1 (ix1 r) : BitVec 32).toNat < 100000) : ok0 (F := F) pf := by
  -- whatever index a map reads a table at, the word is in range
  have hu' : ∀ x : S16384.Idx, (pf 0 x : BitVec 32).toNat < 1000000 := fun x => by rw [eq_ix1 x]; exact hu _
  have hi' : ∀ x : S16384.Idx, (pf 1 x : BitVec 32).toNat < 100000 := fun x => by rw [eq_ix1 x]; exact hi _
  refine ⟨fun i => ?_, fun i => ?_, fun i => ?_, fun i => ?_⟩
  · obtain ⟨w, hw, e⟩ : ∃ w : BitVec 32, w.toNat < 1000000 ∧ cc0_transform_0 k0_off1_inb numel1_S1 pf i = ![w.toNat, 0, 0] :=
      ⟨_, hu' _, rfl⟩
    refine ⟨fun a => ?_, Or.inl rfl⟩
    rw [e]; exact block_inb w 1000000 64 hw a
  · obtain ⟨w, hw, e⟩ : ∃ w : BitVec 32, w.toNat < 1000000 ∧ cc0_transform_1 k0_off1_inb numel1_S1 pf i = ![w.toNat, 0, 0] :=
      ⟨_, hu' _, rfl⟩
    refine ⟨fun a => ?_, Or.inl rfl⟩
    rw [e]; exact block_inb w 1000000 1 hw a
  · obtain ⟨w, hw, e⟩ : ∃ w : BitVec 32, w.toNat < 100000 ∧ cc0_transform_2 k0_off1_inb numel1_S1 pf i = ![w.toNat, 0, 0] :=
      ⟨_, hi' _, rfl⟩
    refine ⟨fun a => ?_, Or.inl rfl⟩
    rw [e]; exact block_inb w 100000 64 hw a
  · obtain ⟨w, hw, e⟩ : ∃ w : BitVec 32, w.toNat < 100000 ∧ cc0_transform_3 k0_off1_inb numel1_S1 pf i = ![w.toNat, 0, 0] :=
      ⟨_, hi' _, rfl⟩
    refine ⟨fun a => ?_, Or.inl rfl⟩
    rw [e]; exact block_inb w 100000 1 hw a

end Cert.Kernel.OkOfRanges

end
-- ==== Proof.KOk.lean ====
/-
  From the precondition to what the run needs of the integer inputs: every user_id word names a row of user_emb,
  every item_id word a row of item_emb, every occupation word a row of occ_emb (the three index-range conjuncts,
  read unsigned), hence every block the first call's tables index lies inside its array.
-/
import proofs.«428560_j76630806495462_2_alg».proof.Defs
import proofs.«428560_j76630806495462_2_alg».proof.Proof.KRun
import proofs.«428560_j76630806495462_2_alg».proof.Proof.PreRanges
import proofs.«428560_j76630806495462_2_alg».proof.Proof.OkOfRangesK

noncomputable section

namespace Cert.Kernel.Hand

open Cert.Kernel Cert.Kernel.Gen
open Idealize.ShloMosaic Idealize.ShloMosaic.TcCoe Idealize.ShloMosaic.ValueIdx Idealize.SL.Sem

/-- The three index ranges, on the one device. -/
theorem ranges_of_pre (m : (ℓ : Loc nD τ sig) → Buf (Elt Bits) ℓ) (h : Cert.Pre_Kernel m) :
    (∀ r : Fin 16384, (tbl m 0 (ix1 r) : BitVec 32).toNat < 1000000)
    ∧ (∀ r : Fin 16384, (tbl m 1 (ix1 r) : BitVec 32).toNat < 100000)
    ∧ (∀ r : Fin 16384, (m (((0 : Dev nD).tc : Thread nD τ).loc main_arg2) (ix1 r) : BitVec 32).toNat < 21) :=
  Cert.Pre_finite_inputs.Ranges.ranges_of_pre _ _ _ _ _ _ _ _ _ _ _ _ (h 0)

/-- The first call's side condition of its tables holds under the precondition. -/
theorem ok_of_pre (m : (ℓ : Loc nD τ sig) → Buf (Elt Bits) ℓ) (h : Cert.Pre_Kernel m) : Ok m :=
  Cert.Kernel.OkOfRanges.ok0_of_ranges (tbl m) (ranges_of_pre m h).1 (ranges_of_pre m h).2.1

end Cert.Kernel.Hand

end
-- ==== Proof.KIRegion0.lean ====
/-
  The first call (the gather kernel) as one region of the program, at any float instance, at any contents V of the
  core's buffers when the region is entered and at any admissible contents a of its two prefetched tables (user_id
  and item_id). Its grid has 16384 points, one per batch row. At point r the four input windows hold row
  user_id[r] of user_emb and of user_b and row item_id[r] of item_emb and of item_b (their index maps read the
  tables; a is kept a variable so that no table is ever evaluated); the body copies the user row out (out0_4),
  stores  Σ_d Q_d I_d + user_b + item_b  (out0_5) and  Σ_d I_d  (out0_6). The region invariant is the class's
  (scratch and generator register untouched) beside the two tables held whole, which the body never reads.
-/
import proofs.«428560_j76630806495462_2_alg».proof.Proof.Gen.KernelIdeal.Launch
import proofs.«428560_j76630806495462_2_alg».proof.Proof.Gen.KernelIdeal.Skeleton
import proofs.«428560_j76630806495462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b)) (a : (pcfg0 (F := F)).Adm)

/-- The current staging memref of each window at point t. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)
abbrev st0_6 (t : Fin (cfg0 a).N) := ((cfg0 a).win 6).stage ((cfg0 a).slots t 6)

/-- The kernel body at point t, on what the pipeline calls it with. -/
abbrev bodyAt0 (t : Fin (cfg0 a).N) : Prog (TpuEff nD τ sig (Elt F) Λ₀ .tc) PUnit :=
  cc0__gather_kernel (grid0.coords t) (Memref.whole main_arg0) (Memref.isWhole_whole _) (Memref.whole main_arg1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))

/-- Window w's block at point t, read off its array as the region finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-! An input window's current staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes a whole buffer -/

abbrev rRow : Rect S1x1x64 := Rect.unit (s := S1x1x64) ![0, 0, 0] S1x1x64.size inb_S1x1x64_S1x1x64_0_0_0
abbrev rOne : Rect S1x1x1 := Rect.unit (s := S1x1x1) ![0, 0, 0] S1x1x1.size inb_S1x1x1_S1x1x1_0_0_0

/-- The three output windows' staging buffers after the body, from the input blocks: one store each. -/
def out0_4 (x0 : Vec F S1x1x64 .f32) : Vec F S1x1x64 .f32 :=
  View.canon [⟨rRow, k0_pay1 (View.ld x0 rRow)⟩]
def out0_5 (x0 : Vec F S1x1x64 .f32) (x1 : Vec F S1x1x1 .f32) (x2 : Vec F S1x1x64 .f32) (x3 : Vec F S1x1x1 .f32) : Vec F S1x1x1 .f32 :=
  View.canon [⟨rOne, k0_pay4 (View.ld x0 rRow) (View.ld x1 rOne) (View.ld x2 rRow) (View.ld x3 rOne)⟩]
def out0_6 (x2 : Vec F S1x1x64 .f32) : Vec F S1x1x1 .f32 :=
  View.canon [⟨rOne, k0_pay3 (View.ld x2 rRow)⟩]

theorem coverRow (p0 : Vec F S1x1x64 .f32) (y : S1x1x64.Idx) :
    ∃ pc ∈ ([⟨rRow, p0⟩] : List (View.Piece (Elt F) S1x1x64 .f32)), y ∈ pc.1.set :=
  View.cover_of_tiled [⟨rRow, p0⟩] S1x1x64.size (by rfl) y
theorem coverOne (p0 : Vec F S1x1x1 .f32) (y : S1x1x1.Idx) :
    ∃ pc ∈ ([⟨rOne, p0⟩] : List (View.Piece (Elt F) S1x1x1 .f32)), y ∈ pc.1.set :=
  View.cover_of_tiled [⟨rOne, p0⟩] S1x1x1.size (by rfl) y

/-! ## The body's triple -/

set_option maxHeartbeats 4000000 in
/-- The body on whole staging memrefs, the inputs' at read contents and the outputs' at anything, runs to the
    continuation holding the inputs' as they were and each output's at out0_W of the inputs'. The two table memrefs
    are handed to it and never accessed. -/
theorem sound_kernel0 (c : Dev nD) (E : Set ℕ) (i : grid0.Coords)
    (arg1 : Memref sig .tc .smem S16384 .i32) (harg1 : arg1.IsWhole) (arg2 : Memref sig .tc .smem S16384 .i32) (harg2 : arg2.IsWhole)
    (arg3 : Memref sig .tc .vmem S1x1x64 .f32) (harg3 : arg3.IsWhole) (arg4 : Memref sig .tc .vmem S1x1x1 .f32) (harg4 : arg4.IsWhole)
    (arg5 : Memref sig .tc .vmem S1x1x64 .f32) (harg5 : arg5.IsWhole) (arg6 : Memref sig .tc .vmem S1x1x1 .f32) (harg6 : arg6.IsWhole)
    (arg7 : Memref sig .tc .vmem S1x1x64 .f32) (harg7 : arg7.IsWhole) (arg8 : Memref sig .tc .vmem S1x1x1 .f32) (harg8 : arg8.IsWhole)
    (arg9 : Memref sig .tc .vmem S1x1x1 .f32) (harg9 : arg9.IsWhole)
    (x0 : Vec F S1x1x64 .f32) (x1 : Vec F S1x1x1 .f32) (x2 : Vec F S1x1x64 .f32) (x3 : Vec F S1x1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (out0_4 x0) ∗ owns (c : Thread nD τ) arg8 fullShare (out0_5 x0 x1 x2 x3)
            ∗ owns (c : Thread nD τ) arg9 fullShare (out0_6 x2)) -∗ K ⟨⟩))
      ⊢ wp frame (wpE (defs₀ (F := F)) Variants.none c none) E
          (cc0__gather_kernel i arg1 harg1 arg2 harg2 arg3 harg3 arg4 harg4 arg5 harg5 arg6 harg6 arg7 harg7 arg8 harg8 arg9 harg9) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (coverRow _)
  isplitl [H5]
  · iexists _; isplitr
    swap; · iexact H5
    ipureintro
    try dsimp only
    exact View.read_writes_eq_canon _ _ _ (coverOne _)
  iexists _; isplitr
  swap; · iexact H6
  ipureintro
  try dsimp only
  exact View.read_writes_eq_canon _ _ _ (coverOne _)

/-! ## The pipeline's proof data -/

/-- The two tables held whole at the contents a. -/
abbrev tabs0 (c : Dev nD) : sProp 𝕄 :=
  Pipeline.prefHeld (Ix := Unit) (Name := ℕ) (U := UR sig nD τ) (Lvl := ℕ) pre0 c (fun _ => fullShare) a.1

/-- The proof data of the first call on core c: the arrays as the region finds them; after the body at point t each
    input's buffer at its block and each output's at out0_W of the input blocks; the class's invariant beside the two
    tables; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => out0_4 (iblk0 V a c 0 t)
    | ⟨5, _⟩ => out0_5 (iblk0 V a c 0 t) (iblk0 V a c 1 t) (iblk0 V a c 2 t) (iblk0 V a c 3 t)
    | ⟨6, _⟩ => out0_6 (iblk0 V a c 2 t)
  Φ _ := iprop(Pipeline.ΦA spec0 c ∗ tabs0 a c)
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = iblk0 V a c 1 t := by dsimp only [dat0]; try rfl
theorem after0_2 (c : Dev nD) (t : Fin (cfg0 a).N) : (dat0 V a c).after 2 t = iblk0 V a c 2 t := by dsimp only [dat0]; try rfl
theorem after0_3 (c : Dev nD) (t : Fin (cfg0 a).N) : (dat0 V a c).after 3 t = iblk0 V a c 3 t := by dsimp only [dat0]; try rfl
theorem after0_4 (c : Dev nD) (t : Fin (cfg0 a).N) : (dat0 V a c).after 4 t = out0_4 (iblk0 V a c 0 t) := by dsimp only [dat0]; try rfl
theorem after0_5 (c : Dev nD) (t : Fin (cfg0 a).N) : (dat0 V a c).after 5 t = out0_5 (iblk0 V a c 0 t) (iblk0 V a c 1 t) (iblk0 V a c 2 t) (iblk0 V a c 3 t) := by dsimp only [dat0]; try rfl
theorem after0_6 (c : Dev nD) (t : Fin (cfg0 a).N) : (dat0 V a c).after 6 t = out0_6 (iblk0 V a c 2 t) := by dsimp only [dat0]; try rfl

theorem before0_0 (c : Dev nD) (t : Fin (cfg0 a).N) (d) : (dat0 V a c).before 0 t d = iblk0 V a c 0 t := before0_0_of V a (dat0 V a c) (A_eq0 V a c 0) (after0_0 V a c) t d
theorem before0_1 (c : Dev nD) (t : Fin (cfg0 a).N) (d) : (dat0 V a c).before 1 t d = iblk0 V a c 1 t := before0_1_of V a (dat0 V a c) (A_eq0 V a c 1) (after0_1 V a c) t d
theorem before0_2 (c : Dev nD) (t : Fin (cfg0 a).N) (d) : (dat0 V a c).before 2 t d = iblk0 V a c 2 t := before0_2_of V a (dat0 V a c) (A_eq0 V a c 2) (after0_2 V a c) t d
theorem before0_3 (c : Dev nD) (t : Fin (cfg0 a).N) (d) : (dat0 V a c).before 3 t d = iblk0 V a c 3 t := before0_3_of V a (dat0 V a c) (A_eq0 V a c 3) (after0_3 V a c) t d

/-! ## The body obligation, at a generic point -/

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t))

/-- The body at any point: the inputs' memrefs hold their blocks, so sound_kernel0 applies; the invariant (the
    tables in it) and the core's dues pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ _ _ _ _ (iblk0 V a c 0 t) (iblk0 V a c 1 t) (iblk0 V a c 2 t) (iblk0 V a c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V a c) (defs₀ (F := F)) Variants.none () Set.univ := fun t => by
  rw [bigSep_W0, bigSep_W0]
  exact sound_body0 V a c t

end Region0

end Cert.KernelIdeal.Hand

end
-- ==== Proof.KIRegion1.lean ====
/-
  The second call (the combine kernel) as one region of the program, at any float instance and at any contents V of
  the core's buffers when the region is entered. Its grid has 8 points, one per tile of 2048 batch rows. At a point
  the nine input windows hold their blocks of V's arrays (the Q tile, the first call's partial sums, the item-row
  sums, the occupation words, the genre words, and the four small tables whole), the body loads each whole, and its
  one store writes the tile's 2048 scores: out1_9, a function of the nine blocks. The proof data say exactly that,
  the region invariant is the class's (scratch and generator register untouched), nothing is owed.
-/
import proofs.«428560_j76630806495462_2_alg».proof.Proof.Gen.KernelIdeal.Launch
import proofs.«428560_j76630806495462_2_alg».proof.Proof.Gen.KernelIdeal.Skeleton
import proofs.«428560_j76630806495462_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not (unfetched, its
    block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rQ : Rect S2048x64 := Rect.unit (s := S2048x64) ![0, 0] S2048x64.size inb_S2048x64_S2048x64_0_0
abbrev rC : Rect S2048x1 := Rect.unit (s := S2048x1) ![0, 0] S2048x1.size inb_S2048x1_S2048x1_0_0
abbrev rG : Rect S2048x18 := Rect.unit (s := S2048x18) ![0, 0] S2048x18.size inb_S2048x18_S2048x18_0_0
abbrev rOe : Rect S21x64 := Rect.unit (s := S21x64) ![0, 0] S21x64.size inb_S21x64_S21x64_0_0
abbrev rOb : Rect S21x1 := Rect.unit (s := S21x1) ![0, 0] S21x1.size inb_S21x1_S21x1_0_0
abbrev rGe : Rect S18x64 := Rect.unit (s := S18x64) ![0, 0] S18x64.size inb_S18x64_S18x64_0_0
abbrev rGb : Rect S18x1 := Rect.unit (s := S18x1) ![0, 0] S18x1.size inb_S18x1_S18x1_0_0

/-- The tile's scores as the body computes them from what it loads. -/
def tile1 (v0 : Vec F S2048x64 .f32) (v2 v4 : Vec F S2048x1 .f32) (v6 : Vec F S2048x1 .i32) (v8 : Vec F S2048x18 .i32)
    (v14 : Vec F S21x64 .f32) (v16 : Vec F S21x1 .f32) (v25 : Vec F S18x64 .f32) (v34 : Vec F S18x1 .f32) : FVec F S2048x1 .f32 :=
  k1_pay1 (k1_pay2 v2) (k1_pay3 v4) (k1_pay5 v6 v16) (k1_pay6 v0 v6 v14) (k1_pay7 v8) (k1_pay8 v8) (k1_pay9 v8 v25) v34

/-- The output window's staging buffer after the body, from the nine input blocks: its one store as a piece. -/
def out1_9 (x0 : Vec F S2048x64 .f32) (x1 x2 : Vec F S2048x1 .f32) (x3 : Vec F S2048x1 .i32) (x4 : Vec F S2048x18 .i32)
    (x5 : Vec F S21x64 .f32) (x6 : Vec F S21x1 .f32) (x7 : Vec F S18x64 .f32) (x8 : Vec F S18x1 .f32) : Vec F S2048x1 .f32 :=
  View.canon [⟨rC, tile1 (View.ld x0 rQ) (View.ld x1 rC) (View.ld x2 rC) (View.ld x3 rC) (View.ld x4 rG) (View.ld x5 rOe) (View.ld x6 rOb) (View.ld x7 rGe) (View.ld x8 rGb)⟩]

/-- The one store takes the whole buffer, so it covers it. -/
theorem cover1_9 (p0 : Vec F S2048x1 .f32) (y : S2048x1.Idx) :
    ∃ pc ∈ ([⟨rC, p0⟩] : List (View.Piece (Elt F) S2048x1 .f32)), y ∈ pc.1.set :=
  View.cover_of_tiled [⟨rC, p0⟩] S2048x1.size (by rfl) y

/-! ## The body's triple -/

set_option maxHeartbeats 4000000 in
/-- The body on whole staging memrefs, the inputs' at read contents and the output's at anything, runs to the
    continuation holding the inputs' as they were and the output's at out1_9 of the inputs'. -/
theorem sound_kernel1 (c : Dev nD) (E : Set ℕ) (i : grid1.Coords)
    (arg1 : Memref sig .tc .vmem S2048x64 .f32) (harg1 : arg1.IsWhole) (arg2 : Memref sig .tc .vmem S2048x1 .f32) (harg2 : arg2.IsWhole)
    (arg3 : Memref sig .tc .vmem S2048x1 .f32) (harg3 : arg3.IsWhole) (arg4 : Memref sig .tc .vmem S2048x1 .i32) (harg4 : arg4.IsWhole)
    (arg5 : Memref sig .tc .vmem S2048x18 .i32) (harg5 : arg5.IsWhole) (arg6 : Memref sig .tc .vmem S21x64 .f32) (harg6 : arg6.IsWhole)
    (arg7 : Memref sig .tc .vmem S21x1 .f32) (harg7 : arg7.IsWhole) (arg8 : Memref sig .tc .vmem S18x64 .f32) (harg8 : arg8.IsWhole)
    (arg9 : Memref sig .tc .vmem S18x1 .f32) (harg9 : arg9.IsWhole) (arg10 : Memref sig .tc .vmem S2048x1 .f32) (harg10 : arg10.IsWhole)
    (x0 : Vec F S2048x64 .f32) (x1 x2 : Vec F S2048x1 .f32) (x3 : Vec F S2048x1 .i32) (x4 : Vec F S2048x18 .i32)
    (x5 : Vec F S21x64 .f32) (x6 : Vec F S21x1 .f32) (x7 : Vec F S18x64 .f32) (x8 : Vec F S18x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E
          (cc1__combine_kernel i arg1 harg1 arg2 harg2 arg3 harg3 arg4 harg4 arg5 harg5 arg6 harg6 arg7 harg7 arg8 harg8 arg9 harg9 arg10 harg10) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- The proof data of the second call on core c: the arrays as the region finds them; after the body at point t each
    input's buffer at its block and the output's at out1_9 of the input blocks; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d
theorem before1_6 (c : Dev nD) (t : Fin cfg1.N) (d) : (dat1 V c).before 6 t d = iblk1 V c 6 t := before1_6_of V (dat1 V c) (A_eq1 V c 6) (after1_6 V c) t d
theorem before1_7 (c : Dev nD) (t : Fin cfg1.N) (d) : (dat1 V c).before 7 t d = iblk1 V c 7 t := before1_7_of V (dat1 V c) (A_eq1 V c 7) (after1_7 V c) t d
theorem before1_8 (c : Dev nD) (t : Fin cfg1.N) (d) : (dat1 V c).before 8 t d = iblk1 V c 8 t := before1_8_of V (dat1 V c) (A_eq1 V c 8) (after1_8 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so sound_kernel1 applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/-
  The whole program as a run of five items: the host reshapes before the first call, the first call (the gather
  kernel, with its two prefetched tables), the reshapes of its three results, the second call (the combine kernel),
  and the last reshape. The contents of every buffer of the core at each boundary are a fold from the launch memory
  (W0 … W5): a host stretch applies its operations, a call leaves its output arrays at what its write-backs leave and
  everything else as it found it. The thread state between items is "every buffer held at the boundary's contents,
  the generator register at some state, nothing owed". The tables' contents are read off the launch memory (tbl) and
  the first call's pipeline runs at them under the side condition Ok (every table-indexed block inside its array).
  The run ends with every buffer at W5: the frame and the value are both read off that.
-/
import proofs.«428560_j76630806495462_2_alg».proof.Proof.KIRegion0
import proofs.«428560_j76630806495462_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables, read off the launch memory -/

/-- Core c's buffers as launched. -/
abbrev Vm (c : Dev nD) (b : Ref sig .tc) : Buf (Elt F) ((c : Thread nD τ).loc b) := m ((c : Thread nD τ).loc b)
/-- The two tables' contents (the program runs on one device). -/
def tbl : pre0.Contents (Elt F) := fun j => Vm m (0 : Dev nD) (pre0.ref j)
theorem Vm_pre (c : Dev nD) (j : Fin 2) : Vm m c (pre0.ref j) = tbl m j := by
  obtain rfl : c = 0 := Subsingleton.elim _ _; rfl
/-- The first call's side condition of the tables: every block they index lies inside its array. -/
abbrev Ok : Prop := ok0 (F := F) (tbl m)
abbrev adm0 (hO : Ok m) : (pcfg0 (F := F)).Adm := ⟨tbl m, hO⟩
/-- Both calls' admissible table contents (the second has none). -/
def adm (hO : Ok m) : (p : Fin 2) → (pcfgs (F := F) p).Adm
  | ⟨0, _⟩ => adm0 m hO
  | ⟨1, _⟩ => cfg1.toPCfg_adm

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, every other buffer as entered. -/
def W2 (hO : Ok m) (c : Dev nD) : Valuation τ sig (Elt F) :=
  Pipeline.withArrays spec0 c (W1 m ρ c) fun w => (dat0 (V1 m ρ) (adm0 m hO) c).arrAt w (cfg0 (adm0 m hO)).N
theorem W2_arr (hO : Ok m) (c : Dev nD) (w : Fin (cfg0 (adm0 m hO)).W) :
    W2 m ρ hO c (Proc.devRef .tc (Pipeline.arrRef spec0 w)) = (dat0 (V1 m ρ) (adm0 m hO) c).arrAt w (cfg0 (adm0 m hO)).N := by
  unfold W2; exact Pipeline.withArrays_arr spec0 winFacts0.arr_inj c _ _ w
theorem W2_of_ne (hO : Ok m) (c : Dev nD) (b : Ref sig .tc) (hb : ∀ w, Pipeline.arrRef spec0 w ≠ b) :
    W2 m ρ hO c (Proc.devRef .tc b) = W1 m ρ c (Proc.devRef .tc b) := by
  unfold W2; exact Pipeline.withArrays_of_ne spec0 c _ _ b hb
abbrev V2 (hO : Ok m) : (c : Dev nD) → (b : Ref sig .tc) → Buf (Elt F) ((c : Thread nD τ).loc b) := fun c b => W2 m ρ hO c b
theorem hF0 (hO : Ok m) (c : Dev nD) (w : Fin (cfg0 (adm0 m hO)).W) :
    (dat0 (V1 m ρ) (adm0 m hO) c).arrAt w (cfg0 (adm0 m hO)).N = V2 m ρ hO c (Pipeline.arrRef spec0 w) :=
  (W2_arr m ρ hO c w).symm
theorem hrest0 (hO : Ok m) (c : Dev nD) : ∀ b, b ∉ Finset.univ.image (Pipeline.arrRef spec0) → V2 m ρ hO c b = V1 m ρ c b :=
  fun b hb => W2_of_ne m ρ hO c b fun w e => hb (Finset.mem_image.mpr ⟨w, Finset.mem_univ _, e⟩)

abbrev W3 (hO : Ok m) : Dev nD → Valuation τ sig (Elt F) := fun c => StableHlo.after hostOps1 (W2 m ρ hO c)
abbrev V3 (hO : Ok m) : (c : Dev nD) → (b : Ref sig .tc) → Buf (Elt F) ((c : Thread nD τ).loc b) := fun c b => W3 m ρ hO c b
/-- After the second call. -/
def W4 (hO : Ok m) (c : Dev nD) : Valuation τ sig (Elt F) :=
  Pipeline.withArrays spec1 c (W3 m ρ hO c) fun w => (dat1 (V3 m ρ hO) c).arrAt w cfg1.N
theorem W4_arr (hO : Ok m) (c : Dev nD) (w : Fin cfg1.W) :
    W4 m ρ hO c (Proc.devRef .tc (Pipeline.arrRef spec1 w)) = (dat1 (V3 m ρ hO) c).arrAt w cfg1.N := by
  unfold W4; exact Pipeline.withArrays_arr spec1 winFacts1.arr_inj c _ _ w
theorem W4_of_ne (hO : Ok m) (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev V4 (hO : Ok m) : (c : Dev nD) → (b : Ref sig .tc) → Buf (Elt F) ((c : Thread nD τ).loc b) := fun c b => W4 m ρ hO c b
theorem hF1 (hO : Ok m) (c : Dev nD) (w : Fin cfg1.W) : (dat1 (V3 m ρ hO) c).arrAt w cfg1.N = V4 m ρ hO c (Pipeline.arrRef spec1 w) :=
  (W4_arr m ρ hO c w).symm
theorem hrest1 (hO : Ok m) (c : Dev nD) : ∀ b, b ∉ Finset.univ.image (Pipeline.arrRef spec1) → V4 m ρ hO c b = V3 m ρ hO c b :=
  fun b hb => W4_of_ne m ρ hO c b fun w e => hb (Finset.mem_image.mpr ⟨w, Finset.mem_univ _, e⟩)
/-- At the return. -/
abbrev W5 (hO : Ok m) : Dev nD → Valuation τ sig (Elt F) := fun c => StableHlo.after hostOps2 (W4 m ρ hO c)

/-- The tables stand at the first call's entry as launched: no reshape writes them. -/
theorem V1_pre (c : Dev nD) (j : Fin 2) : V1 m ρ c (pre0.ref j) = tbl m j := by
  rw [← Vm_pre m c j]
  match j with
  | ⟨0, _⟩ => exact StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  | ⟨1, _⟩ => exact StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The proof data family and the thread state -/

/-- Every pipeline's proof data, each at its region's entry contents. -/
def pdats (hO : Ok m) : (p : Fin 2) → (c : Dev nD) → Dat τ (Elt F) Unit ℕ (UR sig nD τ) ℕ (Pipeline.pin (pcfgs (F := F)) (adm m hO) p) c
  | ⟨0, _⟩ => fun c => dat0 (V1 m ρ) (adm0 m hO) c
  | ⟨1, _⟩ => fun c => dat1 (V3 m ρ hO) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (hO : Ok m) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (hO : Ok m) (c : Dev nD) : sProp 𝕄 := iprop(StableHlo.held (c : Thread nD τ) (Pipeline.ucRefs τ sig) (W5 m ρ hO c) ∗ ∃ r, prngReg c r)

/-! ## The regions as segments -/

set_option backward.isDefEq.respectTransparency.types false in
/-- The first call over the thread state: entered from every buffer at W1, left at W2. Its arrays are split out of
    the buffers and put back at the exit contents; the two tables are split out of the rest, go through the region
    invariant whole and come back; the generator register goes into the invariant and out; nothing owed. -/
def reg0 (hO : Ok m) : Pipeline.RegionSeg (pcfgs (F := F)) (adm m hO) (pdats m ρ hO) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) (adm0 m hO) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ tabs0 (adm0 m hO) c)
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) (adm m hO) (pdats m ρ hO) winFacts0 arr_whole0 c
      ((pdats m ρ hO 0 c).share_full fun _ => rfl) (V1 m ρ c) fun _ => rfl
    rw [Pipeline.unscopedBufs_held] at hsplit
    have htab : (Pipeline.unscopedRest (Ix := Unit) (Name := ℕ) (U := UR sig nD τ) (Lvl := ℕ) spec0 c (V1 m ρ c) : sProp 𝕄)
        = iprop(tabs0 (adm0 m hO) c ∗ Pipeline.unscopedRestP (Ix := Unit) (Name := ℕ) (U := UR sig nD τ) (Lvl := ℕ) pre0 spec0 c (V1 m ρ c)) := by
      rw [Pipeline.unscopedRest_split preFacts0 c (V1 m ρ c), show (fun k => V1 m ρ c (pre0.ref k)) = tbl m from funext (V1_pre m ρ c)]
    iintro ⟨⟨Hub, Hp, HO⟩, -, -⟩
    ihave H := hsplit $$ Hub
    icases H with ⟨Ha, Hrest⟩
    ihave Hrest' := (Entails.of_eq htab) $$ Hrest
    icases Hrest' with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ tabs0 (adm0 m hO) c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m ρ hO 0 c).Φ (Fin.last _) = iprop(Pipeline.ΦA spec0 c ∗ tabs0 (adm0 m hO) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m hO) (Ix := Unit) (Name := ℕ) (U := UR sig nD τ) (Lvl := ℕ)
      winFacts0 arr_whole0 c (pdats m ρ hO) ((pdats m ρ hO 0 c).share_full fun _ => rfl)
      (V1 m ρ c) (V2 m ρ hO c) ((pdats m ρ hO 0 c).arrAt · (cfg0 (adm0 m hO)).N) (hF0 m ρ hO c) (hrest0 m ρ hO c)
    rw [Pipeline.unscopedBufs_held] at hjoin
    have htab : (Pipeline.unscopedRest (Ix := Unit) (Name := ℕ) (U := UR sig nD τ) (Lvl := ℕ) spec0 c (V1 m ρ c) : sProp 𝕄)
        = iprop(tabs0 (adm0 m hO) c ∗ Pipeline.unscopedRestP (Ix := Unit) (Name := ℕ) (U := UR sig nD τ) (Lvl := ℕ) pre0 spec0 c (V1 m ρ c)) := by
      rw [Pipeline.unscopedRest_split preFacts0 c (V1 m ρ c), show (fun k => V1 m ρ c (pre0.ref k)) = tbl m from funext (V1_pre m ρ c)]
    iintro ⟨Ha, HO, ⟨HY, Ht⟩, Hrest⟩
    ihave Hrest' := (Entails.of_eq htab.symm) $$ [Ht Hrest]
    · isplitl [Ht]; · iexact Ht
      iexact Hrest
    imodintro
    isplitl [Ha Hrest']
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every buffer at W3, left at W4. -/
def reg1 (hO : Ok m) : Pipeline.RegionSeg (pcfgs (F := F)) (adm m hO) (pdats m ρ hO) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(StableHlo.held (c : Thread nD τ) (Pipeline.ucRefs τ sig) (W4 m ρ hO c) ∗ R c)
  X c := iprop(∃ r, prngReg c r)
  Y c := iprop(∃ r, prngReg c r)
  Z c := Pipeline.unscopedRest (Ix := Unit) (Name := ℕ) (U := UR sig nD τ) (Lvl := ℕ) spec1 c (V3 m ρ hO c)
  hentry c := by
    rw [Pipeline.ownSems0_none]
    have hsplit := Pipeline.arrays_of_unscopedBufs (p := 1) (pcfgs (F := F)) (adm m hO) (pdats m ρ hO) winFacts1 arr_whole1 c
      ((pdats m ρ hO 1 c).share_full fun _ => rfl) (V3 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hO) (Ix := Unit) (Name := ℕ) (U := UR sig nD τ) (Lvl := ℕ)
      winFacts1 arr_whole1 c (pdats m ρ hO) ((pdats m ρ hO 1 c).share_full fun _ => rfl)
      (V3 m ρ hO c) (V4 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs (hO : Ok m) : List (Pipeline.Seg (pcfgs (F := F)) (adm m hO) (pdats m ρ hO) () defs₀ 𝒱₀ L lv) :=
  [ .host (hseg m hO hostOps0 hostOps0_sub hostOps0_fresh (W0 m ρ)),
    .region (reg0 m ρ hO),
    .host (hseg m hO hostOps1 hostOps1_sub hostOps1_fresh (W2 m ρ hO)),
    .region (reg1 m ρ hO),
    .host (hseg m hO hostOps2 hostOps2_sub hostOps2_fresh (W4 m ρ hO)) ]
theorem main_run (hO : Ok m) (c : Dev nD) : main (F := F) c = Pipeline.Seg.run (segs m ρ hO) := (main_chain c).trans (by chain_rfl)

set_option backward.isDefEq.respectTransparency.types false in
/-- THE RUN: from any memory with zero counters whose tables satisfy Ok, every weakly fair execution of the program
    terminates, nothing faulting, and every final state has every unscoped buffer of every core at W5. -/
theorem run (hO : Ok m) : θ_run defs (onTc (τ := τ) (main (F := F))) ⟨m, fun _ => 0, ρ⟩ (fun r => ∀ c : Dev nD,
      ∀ b ∈ Pipeline.ucRefs τ sig, r.2.mem (((c : Thread nD τ)).1, b) = W5 m ρ hO c b) :=
  Pipeline.θ_run_regions_kit (pcfgs (F := F)) (adm m hO) (pdats m ρ hO) () (cellOf_inj (adm m hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun c => by
      show iprop(StableHlo.held (c : Thread nD τ) (Pipeline.ucRefs τ sig) (W5 m ρ hO c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ hO c) s')
      isplitl [Hh] <;> iassumption)
    (hQ := fun s h c => h c)

end Cert.KernelIdeal.Hand

end
-- ==== Proof.KIArgs.lean ====
/-
  The twelve arguments end as launched.

  No reshape writes an argument, and neither call writes one: the first call's arrays are the reshaped tables and its
  three results; the second call reads the genre words and the occupation and genre tables through input windows,
  which leave their arrays as entered, and its one output is its own result. So at an argument's buffer the fold of
  boundary contents walks back to the launch memory: from the second call's entry first, then from the return.
-/
import proofs.«428560_j76630806495462_2_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer that no reshape of a host stretch writes keeps its contents over the stretch. -/
local macro "unwritten " b:ident : tactic => `(tactic|
  exact StableHlo.after_of_forall_not_mem (b := Proc.devRef .tc $b) _ _ (List.forall_iff_forall_mem.mp (by
    simp only [hostOps0, hostOps1, hostOps2, List.Forall, StableHlo.reshape_writes, Finset.mem_singleton]
    repeat' apply And.intro
    all_goals exact StableHlo.devRef_ne_of_ne (by decide))))

/-! At the second call's entry every argument is as launched: the first call's arrays are none of them. -/

theorem W3_main_arg0 (hO : Ok m) (c : Dev nD) :
    W3 m ρ hO c (Proc.devRef .tc main_arg0) = m ((c : Thread nD τ).loc main_arg0) :=
  calc W3 m ρ hO c (Proc.devRef .tc main_arg0)
    _ = W2 m ρ hO c (Proc.devRef .tc main_arg0) := by unwritten main_arg0
    _ = W1 m ρ c (Proc.devRef .tc main_arg0) := W2_of_ne m ρ hO c main_arg0 (by decide)
    _ = W0 m ρ c (Proc.devRef .tc main_arg0) := by unwritten main_arg0
    _ = m ((c : Thread nD τ).loc main_arg0) := rfl

theorem W3_main_arg1 (hO : Ok m) (c : Dev nD) :
    W3 m ρ hO c (Proc.devRef .tc main_arg1) = m ((c : Thread nD τ).loc main_arg1) :=
  calc W3 m ρ hO c (Proc.devRef .tc main_arg1)
    _ = W2 m ρ hO c (Proc.devRef .tc main_arg1) := by unwritten main_arg1
    _ = W1 m ρ c (Proc.devRef .tc main_arg1) := W2_of_ne m ρ hO c main_arg1 (by decide)
    _ = W0 m ρ c (Proc.devRef .tc main_arg1) := by unwritten main_arg1
    _ = m ((c : Thread nD τ).loc main_arg1) := rfl

theorem W3_main_arg2 (hO : Ok m) (c : Dev nD) :
    W3 m ρ hO c (Proc.devRef .tc main_arg2) = m ((c : Thread nD τ).loc main_arg2) :=
  calc W3 m ρ hO c (Proc.devRef .tc main_arg2)
    _ = W2 m ρ hO c (Proc.devRef .tc main_arg2) := by unwritten main_arg2
    _ = W1 m ρ c (Proc.devRef .tc main_arg2) := W2_of_ne m ρ hO c main_arg2 (by decide)
    _ = W0 m ρ c (Proc.devRef .tc main_arg2) := by unwritten main_arg2
    _ = m ((c : Thread nD τ).loc main_arg2) := rfl

theorem W3_main_arg3 (hO : Ok m) (c : Dev nD) :
    W3 m ρ hO c (Proc.devRef .tc main_arg3) = m ((c : Thread nD τ).loc main_arg3) :=
  calc W3 m ρ hO c (Proc.devRef .tc main_arg3)
    _ = W2 m ρ hO c (Proc.devRef .tc main_arg3) := by unwritten main_arg3
    _ = W1 m ρ c (Proc.devRef .tc main_arg3) := W2_of_ne m ρ hO c main_arg3 (by decide)
    _ = W0 m ρ c (Proc.devRef .tc main_arg3) := by unwritten main_arg3
    _ = m ((c : Thread nD τ).loc main_arg3) := rfl

theorem W3_main_arg4 (hO : Ok m) (c : Dev nD) :
    W3 m ρ hO c (Proc.devRef .tc main_arg4) = m ((c : Thread nD τ).loc main_arg4) :=
  calc W3 m ρ hO c (Proc.devRef .tc main_arg4)
    _ = W2 m ρ hO c (Proc.devRef .tc main_arg4) := by unwritten main_arg4
    _ = W1 m ρ c (Proc.devRef .tc main_arg4) := W2_of_ne m ρ hO c main_arg4 (by decide)
    _ = W0 m ρ c (Proc.devRef .tc main_arg4) := by unwritten main_arg4
    _ = m ((c : Thread nD τ).loc main_arg4) := rfl

theorem W3_main_arg5 (hO : Ok m) (c : Dev nD) :
    W3 m ρ hO c (Proc.devRef .tc main_arg5) = m ((c : Thread nD τ).loc main_arg5) :=
  calc W3 m ρ hO c (Proc.devRef .tc main_arg5)
    _ = W2 m ρ hO c (Proc.devRef .tc main_arg5) := by unwritten main_arg5
    _ = W1 m ρ c (Proc.devRef .tc main_arg5) := W2_of_ne m ρ hO c main_arg5 (by decide)
    _ = W0 m ρ c (Proc.devRef .tc main_arg5) := by unwritten main_arg5
    _ = m ((c : Thread nD τ).loc main_arg5) := rfl

theorem W3_main_arg6 (hO : Ok m) (c : Dev nD) :
    W3 m ρ hO c (Proc.devRef .tc main_arg6) = m ((c : Thread nD τ).loc main_arg6) :=
  calc W3 m ρ hO c (Proc.devRef .tc main_arg6)
    _ = W2 m ρ hO c (Proc.devRef .tc main_arg6) := by unwritten main_arg6
    _ = W1 m ρ c (Proc.devRef .tc main_arg6) := W2_of_ne m ρ hO c main_arg6 (by decide)
    _ = W0 m ρ c (Proc.devRef .tc main_arg6) := by unwritten main_arg6
    _ = m ((c : Thread nD τ).loc main_arg6) := rfl

theorem W3_main_arg7 (hO : Ok m) (c : Dev nD) :
    W3 m ρ hO c (Proc.devRef .tc main_arg7) = m ((c : Thread nD τ).loc main_arg7) :=
  calc W3 m ρ hO c (Proc.devRef .tc main_arg7)
    _ = W2 m ρ hO c (Proc.devRef .tc main_arg7) := by unwritten main_arg7
    _ = W1 m ρ c (Proc.devRef .tc main_arg7) := W2_of_ne m ρ hO c main_arg7 (by decide)
    _ = W0 m ρ c (Proc.devRef .tc main_arg7) := by unwritten main_arg7
    _ = m ((c : Thread nD τ).loc main_arg7) := rfl

theorem W3_main_arg8 (hO : Ok m) (c : Dev nD) :
    W3 m ρ hO c (Proc.devRef .tc main_arg8) = m ((c : Thread nD τ).loc main_arg8) :=
  calc W3 m ρ hO c (Proc.devRef .tc main_arg8)
    _ = W2 m ρ hO c (Proc.devRef .tc main_arg8) := by unwritten main_arg8
    _ = W1 m ρ c (Proc.devRef .tc main_arg8) := W2_of_ne m ρ hO c main_arg8 (by decide)
    _ = W0 m ρ c (Proc.devRef .tc main_arg8) := by unwritten main_arg8
    _ = m ((c : Thread nD τ).loc main_arg8) := rfl

theorem W3_main_arg9 (hO : Ok m) (c : Dev nD) :
    W3 m ρ hO c (Proc.devRef .tc main_arg9) = m ((c : Thread nD τ).loc main_arg9) :=
  calc W3 m ρ hO c (Proc.devRef .tc main_arg9)
    _ = W2 m ρ hO c (Proc.devRef .tc main_arg9) := by unwritten main_arg9
    _ = W1 m ρ c (Proc.devRef .tc main_arg9) := W2_of_ne m ρ hO c main_arg9 (by decide)
    _ = W0 m ρ c (Proc.devRef .tc main_arg9) := by unwritten main_arg9
    _ = m ((c : Thread nD τ).loc main_arg9) := rfl

theorem W3_main_arg10 (hO : Ok m) (c : Dev nD) :
    W3 m ρ hO c (Proc.devRef .tc main_arg10) = m ((c : Thread nD τ).loc main_arg10) :=
  calc W3 m ρ hO c (Proc.devRef .tc main_arg10)
    _ = W2 m ρ hO c (Proc.devRef .tc main_arg10) := by unwritten main_arg10
    _ = W1 m ρ c (Proc.devRef .tc main_arg10) := W2_of_ne m ρ hO c main_arg10 (by decide)
    _ = W0 m ρ c (Proc.devRef .tc main_arg10) := by unwritten main_arg10
    _ = m ((c : Thread nD τ).loc main_arg10) := rfl

theorem W3_main_arg11 (hO : Ok m) (c : Dev nD) :
    W3 m ρ hO c (Proc.devRef .tc main_arg11) = m ((c : Thread nD τ).loc main_arg11) :=
  calc W3 m ρ hO c (Proc.devRef .tc main_arg11)
    _ = W2 m ρ hO c (Proc.devRef .tc main_arg11) := by unwritten main_arg11
    _ = W1 m ρ c (Proc.devRef .tc main_arg11) := W2_of_ne m ρ hO c main_arg11 (by decide)
    _ = W0 m ρ c (Proc.devRef .tc main_arg11) := by unwritten main_arg11
    _ = m ((c : Thread nD τ).loc main_arg11) := rfl

/-! At the return: the arguments that are no array of the second call. -/

theorem W5_main_arg0 (hO : Ok m) (c : Dev nD) :
    W5 m ρ hO c (Proc.devRef .tc main_arg0) = m ((c : Thread nD τ).loc main_arg0) :=
  calc W5 m ρ hO c (Proc.devRef .tc main_arg0)
    _ = W4 m ρ hO c (Proc.devRef .tc main_arg0) := by unwritten main_arg0
    _ = W3 m ρ hO c (Proc.devRef .tc main_arg0) := W4_of_ne m ρ hO c main_arg0 (by decide)
    _ = m ((c : Thread nD τ).loc main_arg0) := W3_main_arg0 m ρ hO c

theorem W5_main_arg1 (hO : Ok m) (c : Dev nD) :
    W5 m ρ hO c (Proc.devRef .tc main_arg1) = m ((c : Thread nD τ).loc main_arg1) :=
  calc W5 m ρ hO c (Proc.devRef .tc main_arg1)
    _ = W4 m ρ hO c (Proc.devRef .tc main_arg1) := by unwritten main_arg1
    _ = W3 m ρ hO c (Proc.devRef .tc main_arg1) := W4_of_ne m ρ hO c main_arg1 (by decide)
    _ = m ((c : Thread nD τ).loc main_arg1) := W3_main_arg1 m ρ hO c

theorem W5_main_arg2 (hO : Ok m) (c : Dev nD) :
    W5 m ρ hO c (Proc.devRef .tc main_arg2) = m ((c : Thread nD τ).loc main_arg2) :=
  calc W5 m ρ hO c (Proc.devRef .tc main_arg2)
    _ = W4 m ρ hO c (Proc.devRef .tc main_arg2) := by unwritten main_arg2
    _ = W3 m ρ hO c (Proc.devRef .tc main_arg2) := W4_of_ne m ρ hO c main_arg2 (by decide)
    _ = m ((c : Thread nD τ).loc main_arg2) := W3_main_arg2 m ρ hO c

theorem W5_main_arg4 (hO : Ok m) (c : Dev nD) :
    W5 m ρ hO c (Proc.devRef .tc main_arg4) = m ((c : Thread nD τ).loc main_arg4) :=
  calc W5 m ρ hO c (Proc.devRef .tc main_arg4)
    _ = W4 m ρ hO c (Proc.devRef .tc main_arg4) := by unwritten main_arg4
    _ = W3 m ρ hO c (Proc.devRef .tc main_arg4) := W4_of_ne m ρ hO c main_arg4 (by decide)
    _ = m ((c : Thread nD τ).loc main_arg4) := W3_main_arg4 m ρ hO c

theorem W5_main_arg5 (hO : Ok m) (c : Dev nD) :
    W5 m ρ hO c (Proc.devRef .tc main_arg5) = m ((c : Thread nD τ).loc main_arg5) :=
  calc W5 m ρ hO c (Proc.devRef .tc main_arg5)
    _ = W4 m ρ hO c (Proc.devRef .tc main_arg5) := by unwritten main_arg5
    _ = W3 m ρ hO c (Proc.devRef .tc main_arg5) := W4_of_ne m ρ hO c main_arg5 (by decide)
    _ = m ((c : Thread nD τ).loc main_arg5) := W3_main_arg5 m ρ hO c

theorem W5_main_arg6 (hO : Ok m) (c : Dev nD) :
    W5 m ρ hO c (Proc.devRef .tc main_arg6) = m ((c : Thread nD τ).loc main_arg6) :=
  calc W5 m ρ hO c (Proc.devRef .tc main_arg6)
    _ = W4 m ρ hO c (Proc.devRef .tc main_arg6) := by unwritten main_arg6
    _ = W3 m ρ hO c (Proc.devRef .tc main_arg6) := W4_of_ne m ρ hO c main_arg6 (by decide)
    _ = m ((c : Thread nD τ).loc main_arg6) := W3_main_arg6 m ρ hO c

theorem W5_main_arg7 (hO : Ok m) (c : Dev nD) :
    W5 m ρ hO c (Proc.devRef .tc main_arg7) = m ((c : Thread nD τ).loc main_arg7) :=
  calc W5 m ρ hO c (Proc.devRef .tc main_arg7)
    _ = W4 m ρ hO c (Proc.devRef .tc main_arg7) := by unwritten main_arg7
    _ = W3 m ρ hO c (Proc.devRef .tc main_arg7) := W4_of_ne m ρ hO c main_arg7 (by decide)
    _ = m ((c : Thread nD τ).loc main_arg7) := W3_main_arg7 m ρ hO c

/-! At the return: the arguments the second call reads through an input window. -/

theorem W5_main_arg3 (hO : Ok m) (c : Dev nD) :
    W5 m ρ hO c (Proc.devRef .tc main_arg3) = m ((c : Thread nD τ).loc main_arg3) :=
  calc W5 m ρ hO c (Proc.devRef .tc main_arg3)
    _ = W4 m ρ hO c (Proc.devRef .tc main_arg3) := by unwritten main_arg3
    _ = W3 m ρ hO c (Proc.devRef .tc main_arg3) :=
      (W4_arr m ρ hO c 4).trans (((dat1 (V3 m ρ hO) c).arrAt_in 4 rfl _).trans (A_eq1 (V3 m ρ hO) c 4))
    _ = m ((c : Thread nD τ).loc main_arg3) := W3_main_arg3 m ρ hO c

theorem W5_main_arg8 (hO : Ok m) (c : Dev nD) :
    W5 m ρ hO c (Proc.devRef .tc main_arg8) = m ((c : Thread nD τ).loc main_arg8) :=
  calc W5 m ρ hO c (Proc.devRef .tc main_arg8)
    _ = W4 m ρ hO c (Proc.devRef .tc main_arg8) := by unwritten main_arg8
    _ = W3 m ρ hO c (Proc.devRef .tc main_arg8) :=
      (W4_arr m ρ hO c 5).trans (((dat1 (V3 m ρ hO) c).arrAt_in 5 rfl _).trans (A_eq1 (V3 m ρ hO) c 5))
    _ = m ((c : Thread nD τ).loc main_arg8) := W3_main_arg8 m ρ hO c

theorem W5_main_arg9 (hO : Ok m) (c : Dev nD) :
    W5 m ρ hO c (Proc.devRef .tc main_arg9) = m ((c : Thread nD τ).loc main_arg9) :=
  calc W5 m ρ hO c (Proc.devRef .tc main_arg9)
    _ = W4 m ρ hO c (Proc.devRef .tc main_arg9) := by unwritten main_arg9
    _ = W3 m ρ hO c (Proc.devRef .tc main_arg9) :=
      (W4_arr m ρ hO c 6).trans (((dat1 (V3 m ρ hO) c).arrAt_in 6 rfl _).trans (A_eq1 (V3 m ρ hO) c 6))
    _ = m ((c : Thread nD τ).loc main_arg9) := W3_main_arg9 m ρ hO c

theorem W5_main_arg10 (hO : Ok m) (c : Dev nD) :
    W5 m ρ hO c (Proc.devRef .tc main_arg10) = m ((c : Thread nD τ).loc main_arg10) :=
  calc W5 m ρ hO c (Proc.devRef .tc main_arg10)
    _ = W4 m ρ hO c (Proc.devRef .tc main_arg10) := by unwritten main_arg10
    _ = W3 m ρ hO c (Proc.devRef .tc main_arg10) :=
      (W4_arr m ρ hO c 7).trans (((dat1 (V3 m ρ hO) c).arrAt_in 7 rfl _).trans (A_eq1 (V3 m ρ hO) c 7))
    _ = m ((c : Thread nD τ).loc main_arg10) := W3_main_arg10 m ρ hO c

theorem W5_main_arg11 (hO : Ok m) (c : Dev nD) :
    W5 m ρ hO c (Proc.devRef .tc main_arg11) = m ((c : Thread nD τ).loc main_arg11) :=
  calc W5 m ρ hO c (Proc.devRef .tc main_arg11)
    _ = W4 m ρ hO c (Proc.devRef .tc main_arg11) := by unwritten main_arg11
    _ = W3 m ρ hO c (Proc.devRef .tc main_arg11) :=
      (W4_arr m ρ hO c 8).trans (((dat1 (V3 m ρ hO) c).arrAt_in 8 rfl _).trans (A_eq1 (V3 m ρ hO) c 8))
    _ = m ((c : Thread nD τ).loc main_arg11) := W3_main_arg11 m ρ hO c

end Cert.KernelIdeal.Hand

end
-- ==== Proof.OkOfRanges.lean ====
/-
  The pipeline's side condition on the two prefetched tables, from the index ranges. The first call's four
  table-indexed windows fetch, at grid point i, the block whose leading coordinate is the table's word i read
  unsigned (user_id for the two user arrays, item_id for the two item arrays) and whose other coordinates are 0;
  the blocks have extent 1 along the leading axis, so the block lies inside its array exactly when the word is
  below the array's leading extent: 1000000 for the user arrays, 100000 for the item arrays. The transfer ends
  are word-exact because an f32 element is one 32-bit word.
-/
import proofs.«428560_j76630806495462_2_alg».proof.KernelIdeal
import proofs.«428560_j76630806495462_2_alg».proof.Proof.Gen.KernelIdeal
import Idealize.ShloMosaic.Lib.ValueIdx

noncomputable section

namespace Cert.KernelIdeal.OkOfRanges

open Cert.KernelIdeal Cert.KernelIdeal.Facts₀
open Idealize.ShloMosaic Idealize.ShloMosaic.ValueIdx

variable {F : FTy → Type} [FloatOps F]

/-- A block of extent 1 along the leading axis at a word below N, other coordinates 0, lies inside an [N, 1, K] array
    when its other extents are the array's. -/
theorem block_inb (w : BitVec 32) (N K : Nat) (hw : w.toNat < N) (a : Fin 3) :
    ((![w.toNat, 0, 0] : Fin 3 → Nat) a + 1) * (⟨3, ![1, 1, K]⟩ : Shape).size a ≤ (⟨3, ![N, 1, K]⟩ : Shape).size a := by
  fin_cases a <;> simp <;> omega

/-- Under the index ranges the side condition on the tables' contents holds. -/
theorem ok0_of_ranges (pf : pre0.Contents (Elt F))
    (hu : ∀ r : Fin 16384, (pf 0 (ix1 r) : BitVec 32).toNat < 1000000)
    (hi : ∀ r : Fin 16384, (pf 1 (ix1 r) : BitVec 32).toNat < 100000) : ok0 (F := F) pf := by
  -- whatever index a map reads a table at, the word is in range
  have hu' : ∀ x : S16384.Idx, (pf 0 x : BitVec 32).toNat < 1000000 := fun x => by rw [eq_ix1 x]; exact hu _
  have hi' : ∀ x : S16384.Idx, (pf 1 x : BitVec 32).toNat < 100000 := fun x => by rw [eq_ix1 x]; exact hi _
  refine ⟨fun i => ?_, fun i => ?_, fun i => ?_, fun i => ?_⟩
  · obtain ⟨w, hw, e⟩ : ∃ w : BitVec 32, w.toNat < 1000000 ∧ cc0_transform_0 k0_off1_inb numel1_S1 pf i = ![w.toNat, 0, 0] :=
      ⟨_, hu' _, rfl⟩
    refine ⟨fun a => ?_, Or.inl rfl⟩
    rw [e]; exact block_inb w 1000000 64 hw a
  · obtain ⟨w, hw, e⟩ : ∃ w : BitVec 32, w.toNat < 1000000 ∧ cc0_transform_1 k0_off1_inb numel1_S1 pf i = ![w.toNat, 0, 0] :=
      ⟨_, hu' _, rfl⟩
    refine ⟨fun a => ?_, Or.inl rfl⟩
    rw [e]; exact block_inb w 1000000 1 hw a
  · obtain ⟨w, hw, e⟩ : ∃ w : BitVec 32, w.toNat < 100000 ∧ cc0_transform_2 k0_off1_inb numel1_S1 pf i = ![w.toNat, 0, 0] :=
      ⟨_, hi' _, rfl⟩
    refine ⟨fun a => ?_, Or.inl rfl⟩
    rw [e]; exact block_inb w 100000 64 hw a
  · obtain ⟨w, hw, e⟩ : ∃ w : BitVec 32, w.toNat < 100000 ∧ cc0_transform_3 k0_off1_inb numel1_S1 pf i = ![w.toNat, 0, 0] :=
      ⟨_, hi' _, rfl⟩
    refine ⟨fun a => ?_, Or.inl rfl⟩
    rw [e]; exact block_inb w 100000 1 hw a

end Cert.KernelIdeal.OkOfRanges

end
-- ==== Proof.KIOk.lean ====
/-
  From the precondition to what the run needs of the integer inputs: every user_id word names a row of user_emb,
  every item_id word a row of item_emb, every occupation word a row of occ_emb (the three index-range conjuncts,
  read unsigned), hence every block the first call's tables index lies inside its array.
-/
import proofs.«428560_j76630806495462_2_alg».proof.Defs
import proofs.«428560_j76630806495462_2_alg».proof.Proof.KIRun
import proofs.«428560_j76630806495462_2_alg».proof.Proof.PreRanges
import proofs.«428560_j76630806495462_2_alg».proof.Proof.OkOfRanges

noncomputable section

namespace Cert.KernelIdeal.Hand

open Cert.KernelIdeal Cert.KernelIdeal.Gen
open Idealize.ShloMosaic Idealize.ShloMosaic.TcCoe Idealize.ShloMosaic.ValueIdx Idealize.SL.Sem

/-- The three index ranges, on the one device. -/
theorem ranges_of_pre (m : (ℓ : Loc nD τ sig) → Buf (Elt Ideal) ℓ) (h : Cert.Pre_KernelIdeal m) :
    (∀ r : Fin 16384, (tbl m 0 (ix1 r) : BitVec 32).toNat < 1000000)
    ∧ (∀ r : Fin 16384, (tbl m 1 (ix1 r) : BitVec 32).toNat < 100000)
    ∧ (∀ r : Fin 16384, (m (((0 : Dev nD).tc : Thread nD τ).loc main_arg2) (ix1 r) : BitVec 32).toNat < 21) :=
  Cert.Pre_finite_inputs.Ranges.ranges_of_pre _ _ _ _ _ _ _ _ _ _ _ _ (h 0)

/-- The first call's side condition of its tables holds under the precondition. -/
theorem ok_of_pre (m : (ℓ : Loc nD τ sig) → Buf (Elt Ideal) ℓ) (h : Cert.Pre_KernelIdeal m) : Ok m :=
  Cert.KernelIdeal.OkOfRanges.ok0_of_ranges (tbl m) (ranges_of_pre m h).1 (ranges_of_pre m h).2.1

end Cert.KernelIdeal.Hand

end
-- ==== Proof.Frames.lean ====
/-
  The three frames. Each program runs to the end from any memory the precondition admits, nothing faults, and its
  twelve argument arrays end as launched. For the two kernel programs this is the run of their five items (the
  tables' side condition holding by the index ranges of the precondition) read at the arguments: no reshape and no
  call writes an argument. For the reference it is its run with the result dropped.
-/
import proofs.«428560_j76630806495462_2_alg».proof.Defs
import proofs.«428560_j76630806495462_2_alg».proof.Proof.KArgs
import proofs.«428560_j76630806495462_2_alg».proof.Proof.KOk
import proofs.«428560_j76630806495462_2_alg».proof.Proof.KIArgs
import proofs.«428560_j76630806495462_2_alg».proof.Proof.KIOk
import proofs.«428560_j76630806495462_2_alg».proof.Proof.Gen.ReferenceIdeal.Run

noncomputable section

namespace Cert.Proof.Frames

open Idealize.ShloMosaic Idealize.ShloMosaic.TcCoe Idealize.SL.Sem

theorem frame_kernel : Cert.frame_Kernel := fun m ρ hpre =>
  (θ_run (Cert.Kernel.defs (F := Bits)) _ _).mono (fun r h c => ⟨
    (h c _ (Cert.Kernel.Hand.mem_uc Cert.Kernel.main_arg0 (by decide))).trans (Cert.Kernel.Hand.W5_main_arg0 m ρ (Cert.Kernel.Hand.ok_of_pre m hpre) c),
    (h c _ (Cert.Kernel.Hand.mem_uc Cert.Kernel.main_arg1 (by decide))).trans (Cert.Kernel.Hand.W5_main_arg1 m ρ (Cert.Kernel.Hand.ok_of_pre m hpre) c),
    (h c _ (Cert.Kernel.Hand.mem_uc Cert.Kernel.main_arg2 (by decide))).trans (Cert.Kernel.Hand.W5_main_arg2 m ρ (Cert.Kernel.Hand.ok_of_pre m hpre) c),
    (h c _ (Cert.Kernel.Hand.mem_uc Cert.Kernel.main_arg3 (by decide))).trans (Cert.Kernel.Hand.W5_main_arg3 m ρ (Cert.Kernel.Hand.ok_of_pre m hpre) c),
    (h c _ (Cert.Kernel.Hand.mem_uc Cert.Kernel.main_arg4 (by decide))).trans (Cert.Kernel.Hand.W5_main_arg4 m ρ (Cert.Kernel.Hand.ok_of_pre m hpre) c),
    (h c _ (Cert.Kernel.Hand.mem_uc Cert.Kernel.main_arg5 (by decide))).trans (Cert.Kernel.Hand.W5_main_arg5 m ρ (Cert.Kernel.Hand.ok_of_pre m hpre) c),
    (h c _ (Cert.Kernel.Hand.mem_uc Cert.Kernel.main_arg6 (by decide))).trans (Cert.Kernel.Hand.W5_main_arg6 m ρ (Cert.Kernel.Hand.ok_of_pre m hpre) c),
    (h c _ (Cert.Kernel.Hand.mem_uc Cert.Kernel.main_arg7 (by decide))).trans (Cert.Kernel.Hand.W5_main_arg7 m ρ (Cert.Kernel.Hand.ok_of_pre m hpre) c),
    (h c _ (Cert.Kernel.Hand.mem_uc Cert.Kernel.main_arg8 (by decide))).trans (Cert.Kernel.Hand.W5_main_arg8 m ρ (Cert.Kernel.Hand.ok_of_pre m hpre) c),
    (h c _ (Cert.Kernel.Hand.mem_uc Cert.Kernel.main_arg9 (by decide))).trans (Cert.Kernel.Hand.W5_main_arg9 m ρ (Cert.Kernel.Hand.ok_of_pre m hpre) c),
    (h c _ (Cert.Kernel.Hand.mem_uc Cert.Kernel.main_arg10 (by decide))).trans (Cert.Kernel.Hand.W5_main_arg10 m ρ (Cert.Kernel.Hand.ok_of_pre m hpre) c),
    (h c _ (Cert.Kernel.Hand.mem_uc Cert.Kernel.main_arg11 (by decide))).trans (Cert.Kernel.Hand.W5_main_arg11 m ρ (Cert.Kernel.Hand.ok_of_pre m hpre) c)⟩)
    (Cert.Kernel.Hand.run m ρ (Cert.Kernel.Hand.ok_of_pre m hpre))

theorem frame_kernelIdeal : Cert.frame_KernelIdeal := fun m ρ hpre =>
  (θ_run (Cert.KernelIdeal.defs (F := Ideal)) _ _).mono (fun r h c => ⟨
    (h c _ (Cert.KernelIdeal.Hand.mem_uc Cert.KernelIdeal.main_arg0 (by decide))).trans (Cert.KernelIdeal.Hand.W5_main_arg0 m ρ (Cert.KernelIdeal.Hand.ok_of_pre m hpre) c),
    (h c _ (Cert.KernelIdeal.Hand.mem_uc Cert.KernelIdeal.main_arg1 (by decide))).trans (Cert.KernelIdeal.Hand.W5_main_arg1 m ρ (Cert.KernelIdeal.Hand.ok_of_pre m hpre) c),
    (h c _ (Cert.KernelIdeal.Hand.mem_uc Cert.KernelIdeal.main_arg2 (by decide))).trans (Cert.KernelIdeal.Hand.W5_main_arg2 m ρ (Cert.KernelIdeal.Hand.ok_of_pre m hpre) c),
    (h c _ (Cert.KernelIdeal.Hand.mem_uc Cert.KernelIdeal.main_arg3 (by decide))).trans (Cert.KernelIdeal.Hand.W5_main_arg3 m ρ (Cert.KernelIdeal.Hand.ok_of_pre m hpre) c),
    (h c _ (Cert.KernelIdeal.Hand.mem_uc Cert.KernelIdeal.main_arg4 (by decide))).trans (Cert.KernelIdeal.Hand.W5_main_arg4 m ρ (Cert.KernelIdeal.Hand.ok_of_pre m hpre) c),
    (h c _ (Cert.KernelIdeal.Hand.mem_uc Cert.KernelIdeal.main_arg5 (by decide))).trans (Cert.KernelIdeal.Hand.W5_main_arg5 m ρ (Cert.KernelIdeal.Hand.ok_of_pre m hpre) c),
    (h c _ (Cert.KernelIdeal.Hand.mem_uc Cert.KernelIdeal.main_arg6 (by decide))).trans (Cert.KernelIdeal.Hand.W5_main_arg6 m ρ (Cert.KernelIdeal.Hand.ok_of_pre m hpre) c),
    (h c _ (Cert.KernelIdeal.Hand.mem_uc Cert.KernelIdeal.main_arg7 (by decide))).trans (Cert.KernelIdeal.Hand.W5_main_arg7 m ρ (Cert.KernelIdeal.Hand.ok_of_pre m hpre) c),
    (h c _ (Cert.KernelIdeal.Hand.mem_uc Cert.KernelIdeal.main_arg8 (by decide))).trans (Cert.KernelIdeal.Hand.W5_main_arg8 m ρ (Cert.KernelIdeal.Hand.ok_of_pre m hpre) c),
    (h c _ (Cert.KernelIdeal.Hand.mem_uc Cert.KernelIdeal.main_arg9 (by decide))).trans (Cert.KernelIdeal.Hand.W5_main_arg9 m ρ (Cert.KernelIdeal.Hand.ok_of_pre m hpre) c),
    (h c _ (Cert.KernelIdeal.Hand.mem_uc Cert.KernelIdeal.main_arg10 (by decide))).trans (Cert.KernelIdeal.Hand.W5_main_arg10 m ρ (Cert.KernelIdeal.Hand.ok_of_pre m hpre) c),
    (h c _ (Cert.KernelIdeal.Hand.mem_uc Cert.KernelIdeal.main_arg11 (by decide))).trans (Cert.KernelIdeal.Hand.W5_main_arg11 m ρ (Cert.KernelIdeal.Hand.ok_of_pre m hpre) c)⟩)
    (Cert.KernelIdeal.Hand.run m ρ (Cert.KernelIdeal.Hand.ok_of_pre m hpre))

theorem frame_referenceIdeal : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.Spec.lean ====
/-
  The score of one batch row as ONE function of the twelve argument arrays, over the extended reals.

  Row r names a user u = user_id[r], an item t = item_id[r] and an occupation o = occupation[r]; its genre
  words give the 0/1 mask  mask k = [genre[r, k] ≠ 0]  over the 18 genres. With Q, I, O the rows u, t, o of the
  three embedding tables (64 entries each) the score is

      Σ_d Q_d · I_d  +  Σ_d O_d · Q_d  +  g · Σ_d I_d  +  user_b[u] + item_b[t] + occ_b[o] + bg

  where  g = (Σ_d Σ_k mask k · genre_emb[k, d]) / (cnt · 64),  bg = (Σ_k mask k · genre_b[k]) / cnt  and
  cnt = Σ_k mask k  (the quotient is the instance's own, so a row with no genre set means the same on both sides).
  A table row is read at the index word taken unsigned; past the table's end it reads zero, a case the index
  ranges of the precondition exclude. The kernel adds the same seven summands in another order (`kernelSum`);
  addition of extended reals is commutative and associative, so the two orders agree (`kernelSum_eq`).
-/
import Idealize.ShloMosaic.PureOps.Ideal
import Idealize.ShloMosaic.Lib.ValueIdx

noncomputable section

open scoped BigOperators

namespace Cert.Spec

open Idealize.ShloMosaic Idealize.ShloMosaic.ValueIdx

/-- An [N, K] table's shape. -/
abbrev Tab (N K : Nat) : Shape := ⟨2, ![N, K]⟩
/-- The batch's shape, and the genre words'. -/
abbrev Rows : Shape := ⟨1, ![16384]⟩
abbrev RowsG : Shape := ⟨2, ![16384, 18]⟩

/-- Entry d of the row of an [N, K] table that the word w names (read unsigned); zero past the table's end. -/
def row {N K : Nat} (x : FVec Ideal (Tab N K) .f32) (w : BitVec 32) (d : Fin K) : EReal :=
  if h : w.toNat < N then x (ix2 ⟨w.toNat, h⟩ d) else 0

theorem row_of_lt {N K : Nat} (x : FVec Ideal (Tab N K) .f32) (w : BitVec 32) (d : Fin K) (h : w.toNat < N) :
    row x w d = x (ix2 ⟨w.toNat, h⟩ d) := dif_pos h

/-- The indicator of a nonzero word. -/
def ind (w : BitVec 32) : EReal := if w = 0#32 then 0 else 1

/-- The embedding width as both programs carry it: the f32 word of 64. -/
def c64 : EReal := Ideal.ofBits .f32 0x42800000#32

/-- How many of a row's 18 genre words are set. -/
def cnt (gw : Fin 18 → BitVec 32) : EReal := ∑ k : Fin 18, ind (gw k)

/-- The mean over the selected genre rows and all 64 entries of genre_emb. -/
def gmean (gw : Fin 18 → BitVec 32) (ge : FVec Ideal (Tab 18 64) .f32) : EReal :=
  Ideal.div (∑ d : Fin 64, ∑ k : Fin 18, ind (gw k) * ge (ix2 k d)) (cnt gw * c64)

/-- The mean over the selected genre biases. -/
def bmean (gw : Fin 18 → BitVec 32) (gb : FVec Ideal (Tab 18 1) .f32) : EReal :=
  Ideal.div (∑ k : Fin 18, ind (gw k) * gb (ix2 k 0)) (cnt gw)

/-- The seven summands in the reference's order. -/
def refSum (qi oq g isum bq bi bo bg : EReal) : EReal := qi + oq + g * isum + bq + bi + bo + bg

/-- The same in the kernel's order: the first call leaves  qi + bq + bi,  the second adds  oq,  g · isum,  bg,  bo. -/
def kernelSum (qi oq g isum bq bi bo bg : EReal) : EReal := qi + bq + bi + oq + g * isum + bg + bo

theorem kernelSum_eq (qi oq g isum bq bi bo bg : EReal) :
    kernelSum qi oq g isum bq bi bo bg = refSum qi oq g isum bq bi bo bg := by
  unfold kernelSum refSum; abel

/-- Row r's score. -/
def scoreAt (uid iid occ : IVec Rows 32) (gen : IVec RowsG 32)
    (ue : FVec Ideal (Tab 1000000 64) .f32) (ub : FVec Ideal (Tab 1000000 1) .f32)
    (ie : FVec Ideal (Tab 100000 64) .f32) (ib : FVec Ideal (Tab 100000 1) .f32)
    (oe : FVec Ideal (Tab 21 64) .f32) (ob : FVec Ideal (Tab 21 1) .f32)
    (ge : FVec Ideal (Tab 18 64) .f32) (gb : FVec Ideal (Tab 18 1) .f32) (r : Fin 16384) : EReal :=
  refSum (∑ d : Fin 64, row ue (uid (ix1 r)) d * row ie (iid (ix1 r)) d)
    (∑ d : Fin 64, row oe (occ (ix1 r)) d * row ue (uid (ix1 r)) d)
    (gmean (fun k => gen (ix2 r k)) ge) (∑ d : Fin 64, row ie (iid (ix1 r)) d)
    (row ub (uid (ix1 r)) 0) (row ib (iid (ix1 r)) 0) (row ob (occ (ix1 r)) 0) (bmean (fun k => gen (ix2 r k)) gb)

/-- The scores of the whole batch. -/
def score (uid iid occ : IVec Rows 32) (gen : IVec RowsG 32)
    (ue : FVec Ideal (Tab 1000000 64) .f32) (ub : FVec Ideal (Tab 1000000 1) .f32)
    (ie : FVec Ideal (Tab 100000 64) .f32) (ib : FVec Ideal (Tab 100000 1) .f32)
    (oe : FVec Ideal (Tab 21 64) .f32) (ob : FVec Ideal (Tab 21 1) .f32)
    (ge : FVec Ideal (Tab 18 64) .f32) (gb : FVec Ideal (Tab 18 1) .f32) : FVec Ideal Rows .f32 :=
  fun i => scoreAt uid iid occ gen ue ub ie ib oe ob ge gb (i 0)

end Cert.Spec

end
-- ==== Proof.PayValue0.lean ====
/-
  The gather kernel's three stored values, read at an index, over the extended reals.

  One grid point handles one batch row. It copies the user's embedding row (a shape cast to the same shape),
  stores the sum of the item's embedding row over its 64 entries, and stores the inner product of the two rows
  plus the user's and the item's bias.
-/
import proofs.«428560_j76630806495462_2_alg».proof.Proof.Gen.KernelIdeal.Skeleton
import proofs.«428560_j76630806495462_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayValue

open Idealize.ShloMosaic Idealize.ShloMosaic.ValueIdx Cert.KernelIdeal

/-- The row-sum over the last axis of a [1, 1, 64] vector, stored as [1, 1, 1]: the sum of its 64 entries. -/
theorem laneSum_apply (v : FVec Ideal S1x1x64 .f32) (hφ : FKind.Formats .f32)
    (hacc : (0x00000000#32 : BitVec 32) = FKind.add.neutral .f32 hφ) :
    shapeCast S1x1x1 (multiReduction (F := Ideal) .add [2] S1x1 v 0x00000000#32 Gen.reduces_S1x1x64_S1x1 hφ hacc)
        Gen.shapeCasts_S1x1_S1x1x1 (ix3 0 0 0)
      = ∑ d : Fin 64, v (ix3 0 0 d) := by
  refine (shapeCast_apply _ Gen.shapeCasts_S1x1_S1x1x1 (ix3 0 0 0) (ix2 0 0) rfl).trans ?_
  refine (Ideal.multiReduction_add_single v 0x00000000#32 Gen.reduces_S1x1x64_S1x1 hφ hacc (ix2 0 0)).trans ?_
  refine Finset.sum_congr rfl fun d _ => congrArg v ?_
  funext a
  match a with
  | ⟨0, _⟩ => rfl
  | ⟨1, _⟩ => rfl
  | ⟨2, _⟩ => rfl

/-- The copied user row. -/
theorem pay1_apply (x0 : Vec Ideal S1x1x64 .f32) (d : Fin 64) :
    Gen.k0_pay1 x0 (ix3 0 0 d) = x0 (ix3 0 0 d) := by
  unfold Gen.k0_pay1
  exact congrFun (shapeCast_self x0 Gen.shapeCasts_S1x1x64_S1x1x64) _

/-- The item row's shape cast is the row. -/
theorem pay2_eq (x2 : Vec Ideal S1x1x64 .f32) : Gen.k0_pay2 x2 = x2 := by
  unfold Gen.k0_pay2
  exact shapeCast_self x2 Gen.shapeCasts_S1x1x64_S1x1x64

/-- The sum of the item row's 64 entries. -/
theorem pay3_apply (x2 : Vec Ideal S1x1x64 .f32) :
    Gen.k0_pay3 x2 (ix3 0 0 0) = ∑ d : Fin 64, x2 (ix3 0 0 d) := by
  unfold Gen.k0_pay3
  rw [pay2_eq]
  exact laneSum_apply x2 _ _

/-- The inner product of the user's and the item's row, plus the two biases. -/
theorem pay4_apply (x0 : Vec Ideal S1x1x64 .f32) (x1 : Vec Ideal S1x1x1 .f32) (x2 : Vec Ideal S1x1x64 .f32)
    (x3 : Vec Ideal S1x1x1 .f32) :
    Gen.k0_pay4 x0 x1 x2 x3 (ix3 0 0 0)
      = (∑ d : Fin 64, x0 (ix3 0 0 d) * x2 (ix3 0 0 d)) + x1 (ix3 0 0 0) + x3 (ix3 0 0 0) := by
  unfold Gen.k0_pay4
  rw [pay2_eq]
  unfold Gen.k0_pay1
  rw [shapeCast_self x0, shapeCast_self x1, shapeCast_self x3]
  rw [addf_apply, addf_apply]
  refine congrArg (· + x1 (ix3 0 0 0) + x3 (ix3 0 0 0)) ?_
  refine (laneSum_apply (mulf x0 x2) _ _).trans ?_
  rfl

end Cert.KernelIdeal.PayValue

end
-- ==== Proof.KIVal0Idx.lean ====
/-
  The first call's grid and index maps, read. The grid has one axis of 16384 points, so point t is batch row t. A
  table-indexed window's index map reads its table at the grid coordinate: the word it reads at point t is the table's
  entry t. So the two user windows' block at point t is (user word of row t, 0, 0), the two item windows' is (item word
  of row t, 0, 0), and the three output windows' is (t, 0, 0); every point's output blocks are written back, the next
  point's being another row's. All of it at any admissible contents of the two tables, kept a variable.
-/
import proofs.«428560_j76630806495462_2_alg».proof.KernelIdeal
import proofs.«428560_j76630806495462_2_alg».proof.Proof.Gen.KernelIdeal
import Idealize.ShloMosaic.Lib.Pipeline.Value
import Idealize.ShloMosaic.Lib.ValueIdx

set_option maxRecDepth 16384

noncomputable section

namespace Cert.KernelIdeal.Val0

open Cert.KernelIdeal Cert.KernelIdeal.Facts₀
open Idealize.ShloMosaic Idealize.ShloMosaic.TcCoe Idealize.ShloMosaic.ValueIdx
open Idealize.ShloMosaic.Pipeline (Dat Cfg Window)

variable {F : FTy → Type} [FloatOps F]

variable (a : (pcfg0 (F := F)).Adm)

theorem N_eq : (cfg0 a).N = 16384 := (by decide : grid0.N = 16384)

/-- The grid has one axis, so point t has coordinate t. -/
theorem coords_val (t : Fin (cfg0 a).N) : ((cfg0 a).grid.coords t 0).val = t.val := by
  show t.val / 1 % 16384 = t.val
  have := t.isLt
  have e := N_eq a
  omega

/-- A grid coordinate as a 32-bit word, read back unsigned. -/
theorem coord_word (i : grid0.Coords) : (Scalar.indexCast (BitVec.ofNat 32 (i 0).val)).toNat = (i 0).val := by
  show (BitVec.ofNat 32 (i 0).val).toNat = (i 0).val
  have h : (i 0).val < 16384 := (i 0).isLt
  rw [BitVec.toNat_ofNat]; omega

/-- The table word an index map reads at grid point i is the table's entry i: the user table … -/
theorem tab_at0 (pf : pre0.Contents (Elt F)) (i : grid0.Coords)
    (inb : ∀ b, (![(Scalar.indexCast (BitVec.ofNat 32 (i 0).val)).toNat] : Fin 1 → Nat) b + S1.size b ≤ S16384.size b) (h1 : S1.numel = 1) :
    (pf.at 0 (Rect.unit (s := S16384) ![(Scalar.indexCast (BitVec.ofNat 32 (i 0).val)).toNat] S1.size inb) h1 : BitVec 32)
      = (pf 0 (ix1 (i 0)) : BitVec 32) := by
  show (pf 0 _ : BitVec 32) = pf 0 _
  congr 1
  funext b
  apply Fin.ext
  match b with
  | ⟨0, _⟩ =>
    show (Scalar.indexCast (BitVec.ofNat 32 (i 0).val)).toNat + 1 * (Shape.Idx.first (h1.symm ▸ Nat.one_pos) (0 : Fin 1)).val = (i 0).val
    have h0 : (Shape.Idx.first (h1.symm ▸ Nat.one_pos : 0 < S1.numel) (0 : Fin 1)).val = 0 := by
      have := (Shape.Idx.first (h1.symm ▸ Nat.one_pos : 0 < S1.numel) (0 : Fin 1)).isLt
      have e : S1.size (0 : Fin 1) = 1 := by decide
      omega
    rw [h0, coord_word]; omega

/-- … and the item table. -/
theorem tab_at1 (pf : pre0.Contents (Elt F)) (i : grid0.Coords)
    (inb : ∀ b, (![(Scalar.indexCast (BitVec.ofNat 32 (i 0).val)).toNat] : Fin 1 → Nat) b + S1.size b ≤ S16384.size b) (h1 : S1.numel = 1) :
    (pf.at 1 (Rect.unit (s := S16384) ![(Scalar.indexCast (BitVec.ofNat 32 (i 0).val)).toNat] S1.size inb) h1 : BitVec 32)
      = (pf 1 (ix1 (i 0)) : BitVec 32) := by
  show (pf 1 _ : BitVec 32) = pf 1 _
  congr 1
  funext b
  apply Fin.ext
  match b with
  | ⟨0, _⟩ =>
    show (Scalar.indexCast (BitVec.ofNat 32 (i 0).val)).toNat + 1 * (Shape.Idx.first (h1.symm ▸ Nat.one_pos) (0 : Fin 1)).val = (i 0).val
    have h0 : (Shape.Idx.first (h1.symm ▸ Nat.one_pos : 0 < S1.numel) (0 : Fin 1)).val = 0 := by
      have := (Shape.Idx.first (h1.symm ▸ Nat.one_pos : 0 < S1.numel) (0 : Fin 1)).isLt
      have e : S1.size (0 : Fin 1) = 1 := by decide
      omega
    rw [h0, coord_word]; omega

/-! The first call's index maps: the two user windows at the user word, the two item windows at the item word,
    the three output windows at the grid coordinate; the other block coordinates 0. -/
theorem index0 (t : Fin (cfg0 a).N) :
    ((cfg0 a).win 0).index t = ![(a.1 0 (ix1 ((cfg0 a).grid.coords t 0)) : BitVec 32).toNat, 0, 0] :=
  congrArg (fun w : BitVec 32 => (![w.toNat, 0, 0] : Fin 3 → Nat)) (tab_at0 a.1 ((cfg0 a).grid.coords t) (k0_off1_inb _) numel1_S1)
theorem index1 (t : Fin (cfg0 a).N) :
    ((cfg0 a).win 1).index t = ![(a.1 0 (ix1 ((cfg0 a).grid.coords t 0)) : BitVec 32).toNat, 0, 0] :=
  congrArg (fun w : BitVec 32 => (![w.toNat, 0, 0] : Fin 3 → Nat)) (tab_at0 a.1 ((cfg0 a).grid.coords t) (k0_off1_inb _) numel1_S1)
theorem index2 (t : Fin (cfg0 a).N) :
    ((cfg0 a).win 2).index t = ![(a.1 1 (ix1 ((cfg0 a).grid.coords t 0)) : BitVec 32).toNat, 0, 0] :=
  congrArg (fun w : BitVec 32 => (![w.toNat, 0, 0] : Fin 3 → Nat)) (tab_at1 a.1 ((cfg0 a).grid.coords t) (k0_off1_inb _) numel1_S1)
theorem index3 (t : Fin (cfg0 a).N) :
    ((cfg0 a).win 3).index t = ![(a.1 1 (ix1 ((cfg0 a).grid.coords t 0)) : BitVec 32).toNat, 0, 0] :=
  congrArg (fun w : BitVec 32 => (![w.toNat, 0, 0] : Fin 3 → Nat)) (tab_at1 a.1 ((cfg0 a).grid.coords t) (k0_off1_inb _) numel1_S1)
theorem index4 (t : Fin (cfg0 a).N) : ((cfg0 a).win 4).index t = ![t.val, 0, 0] :=
  (congrArg (fun n : Nat => (![n, 0, 0] : Fin 3 → Nat)) (coord_word ((cfg0 a).grid.coords t))).trans
    (congrArg (fun n : Nat => (![n, 0, 0] : Fin 3 → Nat)) (coords_val a t))
theorem index5 (t : Fin (cfg0 a).N) : ((cfg0 a).win 5).index t = ![t.val, 0, 0] :=
  (congrArg (fun n : Nat => (![n, 0, 0] : Fin 3 → Nat)) (coord_word ((cfg0 a).grid.coords t))).trans
    (congrArg (fun n : Nat => (![n, 0, 0] : Fin 3 → Nat)) (coords_val a t))
theorem index6 (t : Fin (cfg0 a).N) : ((cfg0 a).win 6).index t = ![t.val, 0, 0] :=
  (congrArg (fun n : Nat => (![n, 0, 0] : Fin 3 → Nat)) (coord_word ((cfg0 a).grid.coords t))).trans
    (congrArg (fun n : Nat => (![n, 0, 0] : Fin 3 → Nat)) (coords_val a t))

/-- Point t as a batch row. -/
abbrev rowOf (t : Fin (cfg0 a).N) : Fin 16384 := ⟨t.val, N_eq a ▸ t.isLt⟩
/-- Batch row r as a point. -/
abbrev ptOf (r : Fin 16384) : Fin (cfg0 a).N := ⟨r.val, (N_eq a).symm ▸ r.isLt⟩

theorem coords_eq (t : Fin (cfg0 a).N) : (cfg0 a).grid.coords t 0 = rowOf a t := Fin.ext (coords_val a t)

/-- The user word and the item word of batch row r, read unsigned. -/
abbrev uw (r : Fin 16384) : Nat := (a.1 0 (ix1 r) : BitVec 32).toNat
abbrev tw (r : Fin 16384) : Nat := (a.1 1 (ix1 r) : BitVec 32).toNat

theorem index0' (t : Fin (cfg0 a).N) : ((cfg0 a).win 0).index t = ![uw a (rowOf a t), 0, 0] := by rw [index0, coords_eq]
theorem index1' (t : Fin (cfg0 a).N) : ((cfg0 a).win 1).index t = ![uw a (rowOf a t), 0, 0] := by rw [index1, coords_eq]
theorem index2' (t : Fin (cfg0 a).N) : ((cfg0 a).win 2).index t = ![tw a (rowOf a t), 0, 0] := by rw [index2, coords_eq]
theorem index3' (t : Fin (cfg0 a).N) : ((cfg0 a).win 3).index t = ![tw a (rowOf a t), 0, 0] := by rw [index3, coords_eq]

/-! Every point writes its output blocks back: the next point's block is another row's. -/
theorem flush_of_index (w : Window sig (cfg0 a).grid) (hout : w.isOut = true) (i0 : Fin w.shape.rank)
    (hidx : ∀ t : Fin (cfg0 a).N, w.index t i0 = t.val) (t : Fin (cfg0 a).N) : w.flush t = true := by
  unfold Window.flush
  rw [hout, Bool.true_and, Bool.or_eq_true, decide_eq_true_eq, decide_eq_true_eq]
  by_cases h : t.val + 1 = (cfg0 a).grid.N
  · exact Or.inl h
  · have h1 : t.val < (cfg0 a).grid.N := t.isLt
    refine Or.inr ⟨by omega, fun e => ?_⟩
    have := congrFun e i0
    rw [hidx, hidx] at this
    exact absurd this (by show t.val + 1 ≠ t.val; omega)
theorem flush4 (t : Fin (cfg0 a).N) : ((cfg0 a).win 4).flush t = true :=
  flush_of_index a _ rfl (0 : Fin 3) (fun t => congrFun (index4 a t) (0 : Fin 3)) t
theorem flush5 (t : Fin (cfg0 a).N) : ((cfg0 a).win 5).flush t = true :=
  flush_of_index a _ rfl (0 : Fin 3) (fun t => congrFun (index5 a t) (0 : Fin 3)) t
theorem flush6 (t : Fin (cfg0 a).N) : ((cfg0 a).win 6).flush t = true :=
  flush_of_index a _ rfl (0 : Fin 3) (fun t => congrFun (index6 a t) (0 : Fin 3)) t

end Cert.KernelIdeal.Val0

end
-- ==== Proof.KIVal0Emb.lean ====
/-
  Where the first call's blocks sit in their arrays. Every block has extent 1 on the two leading axes, so its element
  (0, 0, d) is element (block row, 0, d) of the array: row t for an output window at point t, the user word's row for
  a user window, the item word's row for an item window.
-/
import proofs.«428560_j76630806495462_2_alg».proof.Proof.KIVal0Idx

set_option maxRecDepth 16384

noncomputable section

namespace Cert.KernelIdeal.Val0

open Cert.KernelIdeal Cert.KernelIdeal.Facts₀
open Idealize.ShloMosaic Idealize.ShloMosaic.TcCoe Idealize.ShloMosaic.ValueIdx
open Idealize.ShloMosaic.Pipeline (Dat Cfg Window)

variable {F : FTy → Type} [FloatOps F]

variable (a : (pcfg0 (F := F)).Adm)

/-! Where a block's elements sit in its array: the block at point t of an output window is row t of its array, of a
    user window row (user word of t), of an item window row (item word of t). -/
theorem emb4 (t : Fin (cfg0 a).N) (d : Fin 64) :
    (((cfg0 a).win 4).blk t).view.emb (ix3 0 0 d) = ix3 (rowOf a t) 0 d := by
  funext b; apply Fin.ext
  match b with
  | ⟨0, _⟩ => show ((cfg0 a).win 4).index t (0 : Fin 3) * 1 + 1 * 0 = t.val; rw [index4]; show t.val * 1 + 1 * 0 = t.val; omega
  | ⟨1, _⟩ => show ((cfg0 a).win 4).index t (1 : Fin 3) * 1 + 1 * 0 = 0; rw [index4]; rfl
  | ⟨2, _⟩ => show ((cfg0 a).win 4).index t (2 : Fin 3) * 64 + 1 * d.val = d.val; rw [index4]; show 0 * 64 + 1 * d.val = d.val; omega
theorem emb5 (t : Fin (cfg0 a).N) :
    (((cfg0 a).win 5).blk t).view.emb (ix3 0 0 0) = ix3 (rowOf a t) 0 0 := by
  funext b; apply Fin.ext
  match b with
  | ⟨0, _⟩ => show ((cfg0 a).win 5).index t (0 : Fin 3) * 1 + 1 * 0 = t.val; rw [index5]; show t.val * 1 + 1 * 0 = t.val; omega
  | ⟨1, _⟩ => show ((cfg0 a).win 5).index t (1 : Fin 3) * 1 + 1 * 0 = 0; rw [index5]; rfl
  | ⟨2, _⟩ => show ((cfg0 a).win 5).index t (2 : Fin 3) * 1 + 1 * 0 = 0; rw [index5]; rfl
theorem emb6 (t : Fin (cfg0 a).N) :
    (((cfg0 a).win 6).blk t).view.emb (ix3 0 0 0) = ix3 (rowOf a t) 0 0 := by
  funext b; apply Fin.ext
  match b with
  | ⟨0, _⟩ => show ((cfg0 a).win 6).index t (0 : Fin 3) * 1 + 1 * 0 = t.val; rw [index6]; show t.val * 1 + 1 * 0 = t.val; omega
  | ⟨1, _⟩ => show ((cfg0 a).win 6).index t (1 : Fin 3) * 1 + 1 * 0 = 0; rw [index6]; rfl
  | ⟨2, _⟩ => show ((cfg0 a).win 6).index t (2 : Fin 3) * 1 + 1 * 0 = 0; rw [index6]; rfl
theorem emb0 (t : Fin (cfg0 a).N) (d : Fin 64) (h : uw a (rowOf a t) < 1000000) :
    (((cfg0 a).win 0).blk t).view.emb (ix3 0 0 d) = ix3 ⟨uw a (rowOf a t), h⟩ 0 d := by
  funext b; apply Fin.ext
  match b with
  | ⟨0, _⟩ => show ((cfg0 a).win 0).index t (0 : Fin 3) * 1 + 1 * 0 = uw a (rowOf a t); rw [index0']; show uw a (rowOf a t) * 1 + 1 * 0 = _; omega
  | ⟨1, _⟩ => show ((cfg0 a).win 0).index t (1 : Fin 3) * 1 + 1 * 0 = 0; rw [index0']; rfl
  | ⟨2, _⟩ => show ((cfg0 a).win 0).index t (2 : Fin 3) * 64 + 1 * d.val = d.val; rw [index0']; show 0 * 64 + 1 * d.val = d.val; omega
theorem emb1 (t : Fin (cfg0 a).N) (h : uw a (rowOf a t) < 1000000) :
    (((cfg0 a).win 1).blk t).view.emb (ix3 0 0 0) = ix3 ⟨uw a (rowOf a t), h⟩ 0 0 := by
  funext b; apply Fin.ext
  match b with
  | ⟨0, _⟩ => show ((cfg0 a).win 1).index t (0 : Fin 3) * 1 + 1 * 0 = uw a (rowOf a t); rw [index1']; show uw a (rowOf a t) * 1 + 1 * 0 = _; omega
  | ⟨1, _⟩ => show ((cfg0 a).win 1).index t (1 : Fin 3) * 1 + 1 * 0 = 0; rw [index1']; rfl
  | ⟨2, _⟩ => show ((cfg0 a).win 1).index t (2 : Fin 3) * 1 + 1 * 0 = 0; rw [index1']; rfl
theorem emb2 (t : Fin (cfg0 a).N) (d : Fin 64) (h : tw a (rowOf a t) < 100000) :
    (((cfg0 a).win 2).blk t).view.emb (ix3 0 0 d) = ix3 ⟨tw a (rowOf a t), h⟩ 0 d := by
  funext b; apply Fin.ext
  match b with
  | ⟨0, _⟩ => show ((cfg0 a).win 2).index t (0 : Fin 3) * 1 + 1 * 0 = tw a (rowOf a t); rw [index2']; show tw a (rowOf a t) * 1 + 1 * 0 = _; omega
  | ⟨1, _⟩ => show ((cfg0 a).win 2).index t (1 : Fin 3) * 1 + 1 * 0 = 0; rw [index2']; rfl
  | ⟨2, _⟩ => show ((cfg0 a).win 2).index t (2 : Fin 3) * 64 + 1 * d.val = d.val; rw [index2']; show 0 * 64 + 1 * d.val = d.val; omega
theorem emb3 (t : Fin (cfg0 a).N) (h : tw a (rowOf a t) < 100000) :
    (((cfg0 a).win 3).blk t).view.emb (ix3 0 0 0) = ix3 ⟨tw a (rowOf a t), h⟩ 0 0 := by
  funext b; apply Fin.ext
  match b with
  | ⟨0, _⟩ => show ((cfg0 a).win 3).index t (0 : Fin 3) * 1 + 1 * 0 = tw a (rowOf a t); rw [index3']; show tw a (rowOf a t) * 1 + 1 * 0 = _; omega
  | ⟨1, _⟩ => show ((cfg0 a).win 3).index t (1 : Fin 3) * 1 + 1 * 0 = 0; rw [index3']; rfl
  | ⟨2, _⟩ => show ((cfg0 a).win 3).index t (2 : Fin 3) * 1 + 1 * 0 = 0; rw [index3']; rfl

end Cert.KernelIdeal.Val0

end
-- ==== Proof.KIVal0Blk.lean ====
/-
  What each point of the first call writes back, over the extended reals. At point t the four input blocks are the
  user's embedding row and bias and the item's embedding row and bias of batch row t (rows of the arrays as the region
  finds them, named by the two table words of row t, which the index ranges keep inside the arrays). The body leaves
  the user's row in the first output block, the inner product of the two rows plus the two biases in the second, the
  sum of the item's row in the third. So what point t writes back to each output array is block t of ONE function of
  the arrays (G4, G5, G6): the statement the blocks-to-array lemmas take.
-/
import proofs.«428560_j76630806495462_2_alg».proof.Proof.KIRegion0
import proofs.«428560_j76630806495462_2_alg».proof.Proof.PayValue0
import proofs.«428560_j76630806495462_2_alg».proof.Proof.KIVal0Emb

set_option maxRecDepth 16384

noncomputable section

namespace Cert.KernelIdeal.Val0

open Cert.KernelIdeal Cert.KernelIdeal.Facts₀
open Idealize.ShloMosaic Idealize.ShloMosaic.TcCoe Idealize.ShloMosaic.ValueIdx
open Idealize.ShloMosaic.Pipeline (Dat Cfg Window)

open Cert.KernelIdeal.Hand Cert.KernelIdeal.PayValue
open scoped BigOperators

/-- An index of a [1, 1, K] block is (0, 0, d); the one index of a [1, 1, 1] block. -/
theorem idx_1x1xK {K : Nat} (y : (⟨3, ![1, 1, K]⟩ : Shape).Idx) : y = ix3 0 0 (y 2) := by
  funext b
  match b with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl
theorem idx_1x1x1 (y : (⟨3, ![1, 1, 1]⟩ : Shape).Idx) : y = ix3 0 0 0 := by
  funext b
  match b with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => exact Fin.ext (by have h : (y 2).val < 1 := (y 2).isLt; show (y 2).val = 0; omega)

theorem hz3 : (![0, 0, 0] : Fin 3 → Nat) = fun _ => 0 := funext fun b => by fin_cases b <;> rfl

/-! What the body leaves in its three output blocks, at an element, from its four input blocks: the user's row
    copied; the inner product of the user's and the item's row plus the two biases; the sum of the item's row. -/
theorem out0_4_apply (x0 : Vec Ideal S1x1x64 .f32) (d : Fin 64) : out0_4 x0 (ix3 0 0 d) = x0 (ix3 0 0 d) := by
  unfold out0_4
  rw [View.canon_unit_zero hz3, View.ld_unit_zero hz3, pay1_apply]
theorem out0_5_apply (x0 : Vec Ideal S1x1x64 .f32) (x1 : Vec Ideal S1x1x1 .f32) (x2 : Vec Ideal S1x1x64 .f32) (x3 : Vec Ideal S1x1x1 .f32) :
    out0_5 x0 x1 x2 x3 (ix3 0 0 0) = (∑ d : Fin 64, x0 (ix3 0 0 d) * x2 (ix3 0 0 d)) + x1 (ix3 0 0 0) + x3 (ix3 0 0 0) := by
  unfold out0_5
  rw [View.canon_unit_zero hz3, View.ld_unit_zero hz3, View.ld_unit_zero hz3, View.ld_unit_zero hz3, View.ld_unit_zero hz3, pay4_apply]
theorem out0_6_apply (x2 : Vec Ideal S1x1x64 .f32) : out0_6 x2 (ix3 0 0 0) = ∑ d : Fin 64, x2 (ix3 0 0 d) := by
  unfold out0_6
  rw [View.canon_unit_zero hz3, View.ld_unit_zero hz3, pay3_apply]

variable (V : (c : Dev nD) → (b : Ref sig .tc) → Buf (Elt Ideal) ((c : Thread nD τ).loc b)) (a : (pcfg0 (F := Ideal)).Adm) (c : Dev nD)
variable (hu : ∀ r : Fin 16384, uw a r < 1000000) (ht : ∀ r : Fin 16384, tw a r < 100000)

/-- The four gathered arrays as the region finds them, as arrays of extended reals: the user embeddings and biases,
    the item embeddings and biases. -/
abbrev ue : S1000000x1x64.Idx → EReal := V c main_v1
abbrev ub : S1000000x1x1.Idx → EReal := V c main_v2
abbrev ie : S100000x1x64.Idx → EReal := V c main_v3
abbrev ib : S100000x1x1.Idx → EReal := V c main_v4

/-! The input blocks at point t, read at an element: the user's rows and the item's rows of those arrays. -/
theorem iblk0_0_apply (t : Fin (cfg0 a).N) (d : Fin 64) :
    (iblk0 V a c 0 t : Vec Ideal S1x1x64 .f32) (ix3 0 0 d) = ue V c (ix3 ⟨uw a (rowOf a t), hu _⟩ 0 d) := by
  show V c main_v1 ((((cfg0 a).win 0).blk t).view.emb (ix3 0 0 d)) = _
  rw [emb0 a t d (hu _)]
theorem iblk0_1_apply (t : Fin (cfg0 a).N) :
    (iblk0 V a c 1 t : Vec Ideal S1x1x1 .f32) (ix3 0 0 0) = ub V c (ix3 ⟨uw a (rowOf a t), hu _⟩ 0 0) := by
  show V c main_v2 ((((cfg0 a).win 1).blk t).view.emb (ix3 0 0 0)) = _
  rw [emb1 a t (hu _)]
theorem iblk0_2_apply (t : Fin (cfg0 a).N) (d : Fin 64) :
    (iblk0 V a c 2 t : Vec Ideal S1x1x64 .f32) (ix3 0 0 d) = ie V c (ix3 ⟨tw a (rowOf a t), ht _⟩ 0 d) := by
  show V c main_v3 ((((cfg0 a).win 2).blk t).view.emb (ix3 0 0 d)) = _
  rw [emb2 a t d (ht _)]
theorem iblk0_3_apply (t : Fin (cfg0 a).N) :
    (iblk0 V a c 3 t : Vec Ideal S1x1x1 .f32) (ix3 0 0 0) = ib V c (ix3 ⟨tw a (rowOf a t), ht _⟩ 0 0) := by
  show V c main_v4 ((((cfg0 a).win 3).blk t).view.emb (ix3 0 0 0)) = _
  rw [emb3 a t (ht _)]

/-! What the first call leaves in its three output arrays, as functions of the region's entry contents: row r of the
    first is the user's embedding row, of the second the inner product of the user's and the item's rows plus their
    two biases, of the third the sum of the item's row. -/
def G4 : Buf (Elt Ideal) ((c : Thread nD τ).loc main_v5_0) := fun (i : S16384x1x64.Idx) =>
  ue V c (ix3 ⟨uw a (i 0), hu (i 0)⟩ 0 (i 2))
def G5 : Buf (Elt Ideal) ((c : Thread nD τ).loc main_v5_1) := fun (i : S16384x1x1.Idx) =>
  (∑ d : Fin 64, ue V c (ix3 ⟨uw a (i 0), hu (i 0)⟩ 0 d) * ie V c (ix3 ⟨tw a (i 0), ht (i 0)⟩ 0 d))
    + ub V c (ix3 ⟨uw a (i 0), hu (i 0)⟩ 0 0) + ib V c (ix3 ⟨tw a (i 0), ht (i 0)⟩ 0 0)
def G6 : Buf (Elt Ideal) ((c : Thread nD τ).loc main_v5_2) := fun (i : S16384x1x1.Idx) =>
  (∑ d : Fin 64, ie V c (ix3 ⟨tw a (i 0), ht (i 0)⟩ 0 d) : EReal)

/-! What point t writes back to each output array is block t of that function. -/
theorem flushed4_eq (t : Fin (cfg0 a).N) :
    (dat0 V a c).flushed 4 t = (((cfg0 a).win 4).blk t).view.read (Elt Ideal) (G4 V a c hu) := by
  show ((cfg0 a).win 4).cut ((cfg0 a).grid.coords t) ((dat0 V a c).after 4 t) = _
  rw [after0_4]
  funext y
  obtain ⟨d, rfl⟩ : ∃ d : Fin 64, y = ix3 0 0 d := ⟨_, idx_1x1xK y⟩
  show out0_4 (iblk0 V a c 0 t) (ix3 0 0 d) = G4 V a c hu ((((cfg0 a).win 4).blk t).view.emb (ix3 0 0 d))
  refine (out0_4_apply (iblk0 V a c 0 t) d).trans ((iblk0_0_apply V a c hu t d).trans ?_)
  rw [emb4]
  rfl
theorem flushed5_eq (t : Fin (cfg0 a).N) :
    (dat0 V a c).flushed 5 t = (((cfg0 a).win 5).blk t).view.read (Elt Ideal) (G5 V a c hu ht) := by
  show ((cfg0 a).win 5).cut ((cfg0 a).grid.coords t) ((dat0 V a c).after 5 t) = _
  rw [after0_5]
  funext y
  obtain rfl : y = ix3 0 0 0 := idx_1x1x1 y
  show out0_5 (iblk0 V a c 0 t) (iblk0 V a c 1 t) (iblk0 V a c 2 t) (iblk0 V a c 3 t) (ix3 0 0 0) = G5 V a c hu ht ((((cfg0 a).win 5).blk t).view.emb (ix3 0 0 0))
  refine (out0_5_apply (iblk0 V a c 0 t) (iblk0 V a c 1 t) (iblk0 V a c 2 t) (iblk0 V a c 3 t)).trans ?_
  rw [emb5, iblk0_1_apply V a c hu, iblk0_3_apply V a c ht]
  simp only [iblk0_0_apply V a c hu, iblk0_2_apply V a c ht]
  rfl
theorem flushed6_eq (t : Fin (cfg0 a).N) :
    (dat0 V a c).flushed 6 t = (((cfg0 a).win 6).blk t).view.read (Elt Ideal) (G6 V a c ht) := by
  show ((cfg0 a).win 6).cut ((cfg0 a).grid.coords t) ((dat0 V a c).after 6 t) = _
  rw [after0_6]
  funext y
  obtain rfl : y = ix3 0 0 0 := idx_1x1x1 y
  show out0_6 (iblk0 V a c 2 t) (ix3 0 0 0) = G6 V a c ht ((((cfg0 a).win 6).blk t).view.emb (ix3 0 0 0))
  refine (out0_6_apply (iblk0 V a c 2 t)).trans ?_
  rw [emb6]
  simp only [iblk0_2_apply V a c ht]
  rfl

end Cert.KernelIdeal.Val0

end
-- ==== Proof.KIVal0.lean ====
/-
  What the first call leaves in its three output arrays, element by element, over the extended reals. Batch row r is
  written by grid point r alone: its output blocks are row r of the three arrays, and what it writes back is block r of
  one function of the arrays the region finds (the user's embedding row; the inner product of the user's and the item's
  rows plus their biases; the sum of the item's row). So after the call row r of each output array holds that function
  at r, the user's and the item's rows being those the two table words of row r name, which the index ranges keep
  inside the gathered arrays.
-/
import proofs.«428560_j76630806495462_2_alg».proof.Proof.KIRun
import proofs.«428560_j76630806495462_2_alg».proof.Proof.KIVal0Blk

set_option maxRecDepth 16384

noncomputable section

open scoped BigOperators

namespace Cert.KernelIdeal.Val0

open Cert.KernelIdeal Cert.KernelIdeal.Facts₀
open Idealize.ShloMosaic Idealize.ShloMosaic.TcCoe Idealize.ShloMosaic.ValueIdx
open Idealize.ShloMosaic.Pipeline (Dat Cfg Window)

open Cert.KernelIdeal.Hand

section Final

/-! Row r of each output array lies in the block of point r. -/
theorem mem4 (a : (pcfg0 (F := Ideal)).Adm) (r : Fin 16384) (d : Fin 64) :
    (ix3 r 0 d : S16384x1x64.Idx) ∈ (((cfg0 a).win 4).blk (ptOf a r)).view.set := by
  have h := View.emb_mem_set (((cfg0 a).win 4).blk (ptOf a r)).view (ix3 0 0 d)
  rw [emb4] at h
  exact h
theorem mem5 (a : (pcfg0 (F := Ideal)).Adm) (r : Fin 16384) :
    (ix3 r 0 0 : S16384x1x1.Idx) ∈ (((cfg0 a).win 5).blk (ptOf a r)).view.set := by
  have h := View.emb_mem_set (((cfg0 a).win 5).blk (ptOf a r)).view (ix3 0 0 0)
  rw [emb5] at h
  exact h
theorem mem6 (a : (pcfg0 (F := Ideal)).Adm) (r : Fin 16384) :
    (ix3 r 0 0 : S16384x1x1.Idx) ∈ (((cfg0 a).win 6).blk (ptOf a r)).view.set := by
  have h := View.emb_mem_set (((cfg0 a).win 6).blk (ptOf a r)).view (ix3 0 0 0)
  rw [emb6] at h
  exact h

variable (m : (ℓ : Loc nD τ sig) → Buf (Elt Ideal) ℓ) (ρ : Dev nD → PrngReg) (hO : Ok m) (c : Dev nD)
variable (hu : ∀ r : Fin 16384, (tbl m 0 (ix1 r) : BitVec 32).toNat < 1000000)
  (ht : ∀ r : Fin 16384, (tbl m 1 (ix1 r) : BitVec 32).toNat < 100000)

/-- After the first call, row r of its first output array is the user's embedding row. -/
theorem out0_user_row (r : Fin 16384) (d : Fin 64) :
    (W2 m ρ hO c (Proc.devRef .tc main_v5_0) (ix3 r 0 d) : EReal)
      = ue (V1 m ρ) c (ix3 ⟨(tbl m 0 (ix1 r) : BitVec 32).toNat, hu r⟩ 0 d) := by
  refine (congrFun (W2_arr m ρ hO c 4) (ix3 r 0 d)).trans ?_
  exact (dat0 (V1 m ρ) (adm0 m hO) c).arrAt_apply_of_mem 4 (G4 (V1 m ρ) (adm0 m hO) c hu)
    (fun t _ => flushed4_eq (V1 m ρ) (adm0 m hO) c hu t) _ (ptOf (adm0 m hO) r) _ (ptOf (adm0 m hO) r).isLt
    (flush4 _ _) (mem4 _ r d)

/-- … row r of its second the inner product of the user's and the item's rows plus the two biases … -/
theorem out0_dot_row (r : Fin 16384) :
    (W2 m ρ hO c (Proc.devRef .tc main_v5_1) (ix3 r 0 0) : EReal)
      = (∑ d : Fin 64, ue (V1 m ρ) c (ix3 ⟨(tbl m 0 (ix1 r) : BitVec 32).toNat, hu r⟩ 0 d)
            * ie (V1 m ρ) c (ix3 ⟨(tbl m 1 (ix1 r) : BitVec 32).toNat, ht r⟩ 0 d))
          + ub (V1 m ρ) c (ix3 ⟨(tbl m 0 (ix1 r) : BitVec 32).toNat, hu r⟩ 0 0)
          + ib (V1 m ρ) c (ix3 ⟨(tbl m 1 (ix1 r) : BitVec 32).toNat, ht r⟩ 0 0) := by
  refine (congrFun (W2_arr m ρ hO c 5) (ix3 r 0 0)).trans ?_
  exact (dat0 (V1 m ρ) (adm0 m hO) c).arrAt_apply_of_mem 5 (G5 (V1 m ρ) (adm0 m hO) c hu ht)
    (fun t _ => flushed5_eq (V1 m ρ) (adm0 m hO) c hu ht t) _ (ptOf (adm0 m hO) r) _ (ptOf (adm0 m hO) r).isLt
    (flush5 _ _) (mem5 _ r)

/-- … and row r of its third the sum of the item's embedding row. -/
theorem out0_isum_row (r : Fin 16384) :
    (W2 m ρ hO c (Proc.devRef .tc main_v5_2) (ix3 r 0 0) : EReal)
      = ∑ d : Fin 64, ie (V1 m ρ) c (ix3 ⟨(tbl m 1 (ix1 r) : BitVec 32).toNat, ht r⟩ 0 d) := by
  refine (congrFun (W2_arr m ρ hO c 6) (ix3 r 0 0)).trans ?_
  exact (dat0 (V1 m ρ) (adm0 m hO) c).arrAt_apply_of_mem 6 (G6 (V1 m ρ) (adm0 m hO) c ht)
    (fun t _ => flushed6_eq (V1 m ρ) (adm0 m hO) c ht t) _ (ptOf (adm0 m hO) r) _ (ptOf (adm0 m hO) r).isLt
    (flush6 _ _) (mem6 _ r)

end Final

end Cert.KernelIdeal.Val0

end
-- ==== Proof.PayValueDot.lean ====
/-
  Two readings the combine kernel's payloads share, over the extended reals.

  A product of an M×K by a K×N matrix accumulated into the zero matrix is, at entry (a, b), the sum over the
  contracted coordinate c of  A[a, c] · B[c, b].  A sum along the rows of a [2048, K] tile, kept as a [2048, 1]
  column, is at row p the sum of the row's K entries.
-/
import proofs.«428560_j76630806495462_2_alg».proof.Proof.Gen.KernelIdeal.Skeleton
import proofs.«428560_j76630806495462_2_alg».proof.Proof.Spec
import Idealize.ShloMosaic.Lib.Pipeline.Value
import Idealize.ShloMosaic.Lib.ValueIdx
import Idealize.ShloMosaic.PureOps.Ideal.Laws
import Idealize.ShloMosaic.Lib.KernelVsHost
import Idealize.ShloMosaic.Lib.StackMember

noncomputable section

open scoped BigOperators

namespace Cert.KernelIdeal.PayValue

open Idealize.ShloMosaic Idealize.ShloMosaic.ValueIdx Cert.KernelIdeal

/-- A matrix product with the plain dimension numbers ([1] × [0] contracted, no batch axis) into the zero
    accumulator, at an entry: the sum of the products along the contracted coordinate. -/
theorem dot_zero_apply {m k n : Nat} (D : DotDims ⟨2, ![m, k]⟩ ⟨2, ![k, n]⟩ ⟨2, ![m, n]⟩)
    (hD : D = DotDims.plain m k n) (prec : Option ContractPrecision)
    (A : FVec Ideal ⟨2, ![m, k]⟩ .f32) (B : FVec Ideal ⟨2, ![k, n]⟩ .f32) (a : Fin m) (b : Fin n) :
    matmul D prec A B (constant (F := Ideal) ⟨2, ![m, n]⟩ .f32 0x00000000#32) (ix2 a b)
      = ∑ c : Fin k, A (ix2 a c) * B (ix2 c b) := by
  subst hD
  rw [matmul_zero_eq_dotGeneral]
  exact StackMember.dotGeneral_plain_apply prec A B a b

/-- The sum along axis 1 of a [2048, K] tile, kept as a [2048, 1] column, at row p. -/
theorem rowSum_apply {K : Nat} (v : FVec Ideal ⟨2, ![2048, K]⟩ .f32)
    (h : (⟨2, ![2048, K]⟩ : Shape).Reduces [1] S2048) (hφ : FKind.Formats .f32)
    (hacc : (0x00000000#32 : BitVec 32) = FKind.add.neutral .f32 hφ) (p : Fin 2048) :
    shapeCast S2048x1 (multiReduction (F := Ideal) .add [1] S2048 v 0x00000000#32 h hφ hacc)
        Gen.shapeCasts_S2048_S2048x1 (ix2 p 0)
      = ∑ k : Fin K, v (ix2 p k) := by
  refine (shapeCast_apply _ Gen.shapeCasts_S2048_S2048x1 (ix2 p 0) (ix1 p) ?_).trans ?_
  · rw [Shape.rowMajor_val_two, Shape.rowMajor_val_one]
    show p.val = p.val * 1 + 0
    omega
  refine (Ideal.multiReduction_add_single v 0x00000000#32 h hφ hacc (ix1 p)).trans ?_
  refine Finset.sum_congr rfl fun d _ => congrArg v ?_
  funext a
  match a with
  | ⟨0, _⟩ => rfl
  | ⟨1, _⟩ => rfl

end Cert.KernelIdeal.PayValue

end
-- ==== Proof.PayValue1a.lean ====
/-
  The combine kernel's two 0/1 matrices, read at an index, over the extended reals.

  Row p of the one-hot matrix compares the row's occupation word with the column number 0 … 20: entry (p, k) is 1
  where the word is k and 0 elsewhere. Row p of the genre mask has 1 where the row's genre word is not zero:
  entry (p, k) is the indicator of a nonzero word. Both are a one-bit comparison widened to a word and converted
  to a float read signed; the widened bit is 0 or 1, so its signed reading is the bit.
-/
import proofs.«428560_j76630806495462_2_alg».proof.Proof.Gen.KernelIdeal.Skeleton
import proofs.«428560_j76630806495462_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayValue

open Idealize.ShloMosaic Idealize.ShloMosaic.ValueIdx Cert.KernelIdeal

/-- A one-bit word widened to 32 bits and converted (read signed) is 1 for the bit 1 and 0 for the bit 0. -/
theorem sitofp_bit (b : BitVec 1) :
    (FloatOps.sitofp .f32 (b.setWidth 32) : Ideal .f32) = if b = 1#1 then (1 : EReal) else 0 := by
  show ((((b.setWidth 32).toInt : ℤ) : ℝ) : EReal) = _
  rcases BitVec.eq_zero_or_eq_one b with h | h <;> subst h <;> simp

/-- The comparison "equal" gives the bit 1 exactly on equal words. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := by simpa using h
    rw [hb]
    exact ⟨fun hc => absurd hc (by decide), fun hc => absurd hc h⟩

/-- The comparison "not equal" gives the bit 1 exactly on different words. -/
theorem cmpi_ne_one_iff (x y : BitVec 32) : IntOp.cmpi .ne x y = 1#1 ↔ x ≠ y := by
  show BitVec.ofBool (!(x == y)) = 1#1 ↔ x ≠ y
  by_cases h : x = y
  · subst h; simp
  · have hb : (x == y) = false := by simpa using h
    rw [hb]
    exact ⟨fun _ => h, fun _ => rfl⟩

/-- A [2048, 1] column of words broadcast along 21 columns reads, at (p, k), the column's row p. -/
theorem bcastCol_apply (v : IVec S2048x1 32) (p : Fin 2048) (k : Fin 21) :
    broadcastTo S2048x21 v Gen.broadcasts_S2048x1_S2048x21 (ix2 p k) = v (ix2 p 0) := by
  refine broadcastTo_apply v Gen.broadcasts_S2048x1_S2048x21 (ix2 p k) (ix2 p 0) fun a => ?_
  match a with
  | ⟨0, _⟩ => rfl
  | ⟨1, _⟩ => rfl

/-- The column number of a [2048, 21] matrix, at (p, k), is k. -/
theorem iotaCol_apply (p : Fin 2048) (k : Fin 21) :
    iota .tc S2048x21 32 [1] Gen.iota_S2048x21_d1_w32 (ix2 p k) = BitVec.ofNat 32 k.val :=
  iota_single_apply .tc S2048x21 32 1 Gen.iota_S2048x21_d1_w32 (ix2 p k)

/-- A word below 21 is the 32-bit word of a column number k below 21 exactly when it is k as a number. -/
theorem eq_ofNat_iff (w : BitVec 32) (k : Fin 21) : w = BitVec.ofNat 32 k.val ↔ w.toNat = k.val := by
  constructor
  · rintro rfl
    rw [BitVec.toNat_ofNat]
    have := k.isLt
    omega
  · intro h
    apply BitVec.eq_of_toNat_eq
    rw [BitVec.toNat_ofNat, h]
    have := k.isLt
    omega

/-- The one-hot matrix of the occupation words: 1 at (p, k) where row p's word is k, else 0. -/
theorem oneHot_apply (x3 : Vec Ideal S2048x1 .i32) (p : Fin 2048) (k : Fin 21) :
    Gen.k1_pay4 (F := Ideal) x3 (ix2 p k) = if (x3 (ix2 p 0)).toNat = k.val then (1 : EReal) else 0 := by
  unfold Gen.k1_pay4
  rw [sitofp_apply, extui_apply]
  refine (sitofp_bit _).trans ?_
  show (if IntOp.cmpi .eq (broadcastTo S2048x21 (shapeCast S2048x1 x3 Gen.shapeCasts_S2048x1_S2048x1)
      Gen.broadcasts_S2048x1_S2048x21 (ix2 p k)) (iota .tc S2048x21 32 [1] Gen.iota_S2048x21_d1_w32 (ix2 p k)) = 1#1
      then (1 : EReal) else 0) = _
  rw [bcastCol_apply, iotaCol_apply, shapeCast_self]
  refine if_congr ?_ rfl rfl
  exact (cmpi_eq_one_iff _ _).trans (eq_ofNat_iff _ k)

/-- The genre mask: at (p, k) the indicator of a nonzero genre word. -/
theorem genreMask_apply (x4 : Vec Ideal S2048x18 .i32) (p : Fin 2048) (k : Fin 18) :
    Gen.k1_pay7 (F := Ideal) x4 (ix2 p k) = Cert.Spec.ind (x4 (ix2 p k)) := by
  unfold Gen.k1_pay7
  rw [sitofp_apply, extui_apply]
  refine (sitofp_bit _).trans ?_
  show (if IntOp.cmpi .ne (x4 (ix2 p k)) 0#32 = 1#1 then (1 : EReal) else 0) = _
  unfold Cert.Spec.ind
  by_cases h : x4 (ix2 p k) = 0#32
  · rw [if_neg (fun hc => (cmpi_ne_one_iff _ _).mp hc h), if_pos h]
  · rw [if_pos ((cmpi_ne_one_iff _ _).mpr h), if_neg h]

end Cert.KernelIdeal.PayValue

end
-- ==== Proof.PayValue1b.lean ====
/-
  The combine kernel's two payloads that select by the occupation word, read at row p of a tile, over the
  extended reals.

  The one-hot matrix has in row p a single 1, at the column the row's occupation word names (the word is below 21).
  Its product with a table of 21 rows therefore keeps one term of the contraction's sum: the table's row the word
  names (0 · x = 0 and 1 · x = x for every extended real, so nothing need be finite). With occ_b this is the
  occupation's bias; with occ_emb, multiplied entry by entry with the user tile and summed along the row, it is the
  inner product of the occupation's row with the user's row.
-/
import proofs.«428560_j76630806495462_2_alg».proof.Proof.Gen.KernelIdeal.Skeleton
import proofs.«428560_j76630806495462_2_alg».proof.Proof.Spec
import Idealize.ShloMosaic.Lib.Pipeline.Value
import Idealize.ShloMosaic.Lib.ValueIdx
import Idealize.ShloMosaic.PureOps.Ideal.Laws
import proofs.«428560_j76630806495462_2_alg».proof.Proof.PayValueDot
import proofs.«428560_j76630806495462_2_alg».proof.Proof.PayValue1a

noncomputable section

open scoped BigOperators

namespace Cert.KernelIdeal.PayValue

open Idealize.ShloMosaic Idealize.ShloMosaic.ValueIdx Cert.KernelIdeal

/-- A sum against a 0/1 row with its one 1 at the column a word below 21 names keeps that column's term. -/
theorem sum_oneHot (w : BitVec 32) (h : w.toNat < 21) (f : Fin 21 → EReal) :
    ∑ c : Fin 21, (if w.toNat = c.val then (1 : EReal) else 0) * f c = f ⟨w.toNat, h⟩ := by
  rw [Finset.sum_eq_single (⟨w.toNat, h⟩ : Fin 21)]
  · rw [if_pos rfl, one_mul]
  · intro c _ hc
    rw [if_neg (fun e => hc (Fin.ext e.symm)), zero_mul]
  · intro hn
    exact absurd (Finset.mem_univ _) hn

/-- The one-hot matrix times a table with 21 rows, at (p, d): entry d of the table's row that row p's
    occupation word names. -/
theorem oneHot_dot_apply {n : Nat} (D : DotDims S2048x21 ⟨2, ![21, n]⟩ ⟨2, ![2048, n]⟩)
    (hD : D = DotDims.plain 2048 21 n) (prec : Option ContractPrecision)
    (x3 : Vec Ideal S2048x1 .i32) (T : FVec Ideal ⟨2, ![21, n]⟩ .f32) (p : Fin 2048) (d : Fin n)
    (ho : (x3 (ix2 p 0)).toNat < 21) :
    matmul D prec (Gen.k1_pay4 (F := Ideal) x3) T (constant (F := Ideal) ⟨2, ![2048, n]⟩ .f32 0x00000000#32) (ix2 p d)
      = Cert.Spec.row T (x3 (ix2 p 0)) d := by
  refine (dot_zero_apply D hD prec _ T p d).trans ?_
  simp only [oneHot_apply]
  rw [sum_oneHot (x3 (ix2 p 0)) ho (fun c => T (ix2 c d)), Cert.Spec.row_of_lt T _ d ho]

/-- The occupation's bias, selected by the one-hot row. -/
theorem pay5_apply (x3 : Vec Ideal S2048x1 .i32) (x6 : Vec Ideal S21x1 .f32) (p : Fin 2048)
    (ho : (x3 (ix2 p 0)).toNat < 21) :
    Gen.k1_pay5 (F := Ideal) x3 x6 (ix2 p 0) = Cert.Spec.row x6 (x3 (ix2 p 0)) 0 := by
  unfold Gen.k1_pay5
  exact oneHot_dot_apply _ rfl _ x3 x6 p 0 ho

/-- The inner product of the selected occupation row with row p of the user tile. -/
theorem pay6_apply (x0 : Vec Ideal S2048x64 .f32) (x3 : Vec Ideal S2048x1 .i32) (x5 : Vec Ideal S21x64 .f32)
    (p : Fin 2048) (ho : (x3 (ix2 p 0)).toNat < 21) :
    Gen.k1_pay6 (F := Ideal) x0 x3 x5 (ix2 p 0)
      = ∑ d : Fin 64, Cert.Spec.row x5 (x3 (ix2 p 0)) d * x0 (ix2 p d) := by
  unfold Gen.k1_pay6
  refine (rowSum_apply _ Gen.reduces_S2048x64_S2048 _ _ p).trans ?_
  refine Finset.sum_congr rfl fun d _ => ?_
  rw [mulf_apply, shapeCast_self x0]
  exact congrArg (· * x0 (ix2 p d)) (oneHot_dot_apply _ rfl _ x3 x5 p d ho)

end Cert.KernelIdeal.PayValue

end
-- ==== Proof.PayValue1c.lean ====
/-
  The combine kernel's payloads over the genre words, read at row p of a tile, over the extended reals.

  The genre mask's row p holds the indicators of the row's 18 genre words. Its sum along the row is the number of
  genres set; its product with genre_emb, summed over the 64 entries and divided by that number times 64, is the
  mean of the selected genre rows. The quotient is the instance's own, so a row with no genre set reads the same
  here as in the specification.
-/
import proofs.«428560_j76630806495462_2_alg».proof.Proof.Gen.KernelIdeal.Skeleton
import proofs.«428560_j76630806495462_2_alg».proof.Proof.Spec
import Idealize.ShloMosaic.Lib.Pipeline.Value
import Idealize.ShloMosaic.Lib.ValueIdx
import Idealize.ShloMosaic.PureOps.Ideal.Laws
import proofs.«428560_j76630806495462_2_alg».proof.Proof.PayValueDot
import proofs.«428560_j76630806495462_2_alg».proof.Proof.PayValue1a

noncomputable section

open scoped BigOperators

namespace Cert.KernelIdeal.PayValue

open Idealize.ShloMosaic Idealize.ShloMosaic.ValueIdx Cert.KernelIdeal

/-- How many of row p's genre words are set. -/
theorem pay8_apply (x4 : Vec Ideal S2048x18 .i32) (p : Fin 2048) :
    Gen.k1_pay8 (F := Ideal) x4 (ix2 p 0) = Cert.Spec.cnt (fun k => x4 (ix2 p k)) := by
  unfold Gen.k1_pay8
  refine (rowSum_apply _ Gen.reduces_S2048x18_S2048 _ _ p).trans ?_
  unfold Cert.Spec.cnt
  exact Finset.sum_congr rfl fun k _ => genreMask_apply x4 p k

/-- The genre mask times a table with 18 rows, at (p, d): the sum of entry d over the selected rows. -/
theorem genreMask_dot_apply {n : Nat} (D : DotDims S2048x18 ⟨2, ![18, n]⟩ ⟨2, ![2048, n]⟩)
    (hD : D = DotDims.plain 2048 18 n) (prec : Option ContractPrecision)
    (x4 : Vec Ideal S2048x18 .i32) (T : FVec Ideal ⟨2, ![18, n]⟩ .f32) (p : Fin 2048) (d : Fin n) :
    matmul D prec (Gen.k1_pay7 (F := Ideal) x4) T (constant (F := Ideal) ⟨2, ![2048, n]⟩ .f32 0x00000000#32) (ix2 p d)
      = ∑ k : Fin 18, Cert.Spec.ind (x4 (ix2 p k)) * T (ix2 k d) := by
  refine (dot_zero_apply D hD prec _ T p d).trans ?_
  exact Finset.sum_congr rfl fun k _ => congrArg (· * T (ix2 k d)) (genreMask_apply x4 p k)

/-- The mean of the selected genre rows over all 64 entries. -/
theorem pay9_apply (x4 : Vec Ideal S2048x18 .i32) (x7 : Vec Ideal S18x64 .f32) (p : Fin 2048) :
    Gen.k1_pay9 (F := Ideal) x4 x7 (ix2 p 0) = Cert.Spec.gmean (fun k => x4 (ix2 p k)) x7 := by
  unfold Gen.k1_pay9
  rw [divf_apply, mulf_apply, broadcast_apply, pay8_apply]
  unfold Cert.Spec.gmean
  refine congrArg (fun z => Ideal.div z _) ?_
  refine (rowSum_apply _ Gen.reduces_S2048x64_S2048 _ _ p).trans ?_
  exact Finset.sum_congr rfl fun d _ => genreMask_dot_apply _ rfl _ x4 x7 p d

end Cert.KernelIdeal.PayValue

end
-- ==== Proof.PayValue1.lean ====
/-
  The one value the combine kernel stores, read at row p of a tile, over the extended reals.

  The kernel adds, in this order: the first call's partial sum (user·item inner product and the user's and item's
  biases), the occupation row's inner product with the user row, the genre mean times the sum of the item row,
  the mean of the selected genre biases, and the occupation's bias.
-/
import proofs.«428560_j76630806495462_2_alg».proof.Proof.Gen.KernelIdeal.Skeleton
import proofs.«428560_j76630806495462_2_alg».proof.Proof.Spec
import Idealize.ShloMosaic.Lib.Pipeline.Value
import Idealize.ShloMosaic.Lib.ValueIdx
import Idealize.ShloMosaic.PureOps.Ideal.Laws
import proofs.«428560_j76630806495462_2_alg».proof.Proof.PayValue1b
import proofs.«428560_j76630806495462_2_alg».proof.Proof.PayValue1c

noncomputable section

open scoped BigOperators

namespace Cert.KernelIdeal.PayValue

open Idealize.ShloMosaic Idealize.ShloMosaic.ValueIdx Cert.KernelIdeal

/-- The value the combine kernel stores for a tile, from the tile's blocks and the four small tables. -/
def tileOut (x0 : Vec Ideal S2048x64 .f32) (x1 x2 : Vec Ideal S2048x1 .f32) (x3 : Vec Ideal S2048x1 .i32)
    (x4 : Vec Ideal S2048x18 .i32) (x5 : Vec Ideal S21x64 .f32) (x6 : Vec Ideal S21x1 .f32)
    (x7 : Vec Ideal S18x64 .f32) (x8 : Vec Ideal S18x1 .f32) : FVec Ideal S2048x1 .f32 :=
  Gen.k1_pay1 (Gen.k1_pay2 x1) (Gen.k1_pay3 x2) (Gen.k1_pay5 x3 x6) (Gen.k1_pay6 x0 x3 x5) (Gen.k1_pay7 x4)
    (Gen.k1_pay8 x4) (Gen.k1_pay9 x4 x7) x8

/-- Row p of the tile: the first call's partial sum, plus the occupation row's inner product with the user row,
    plus the genre mean times the item row's sum, plus the mean genre bias, plus the occupation's bias, added in
    this order. -/
theorem tileOut_apply (x0 : Vec Ideal S2048x64 .f32) (x1 x2 : Vec Ideal S2048x1 .f32) (x3 : Vec Ideal S2048x1 .i32)
    (x4 : Vec Ideal S2048x18 .i32) (x5 : Vec Ideal S21x64 .f32) (x6 : Vec Ideal S21x1 .f32)
    (x7 : Vec Ideal S18x64 .f32) (x8 : Vec Ideal S18x1 .f32) (p : Fin 2048) (ho : (x3 (ix2 p 0)).toNat < 21) :
    tileOut x0 x1 x2 x3 x4 x5 x6 x7 x8 (ix2 p 0)
      = x1 (ix2 p 0) + (∑ d : Fin 64, Cert.Spec.row x5 (x3 (ix2 p 0)) d * x0 (ix2 p d))
        + Cert.Spec.gmean (fun k => x4 (ix2 p k)) x7 * x2 (ix2 p 0) + Cert.Spec.bmean (fun k => x4 (ix2 p k)) x8
        + Cert.Spec.row x6 (x3 (ix2 p 0)) 0 := by
  unfold tileOut Gen.k1_pay1 Gen.k1_pay2 Gen.k1_pay3
  rw [shapeCast_self x1, shapeCast_self x2]
  rw [addf_apply, addf_apply, addf_apply, addf_apply, mulf_apply, divf_apply]
  rw [pay5_apply x3 x6 p ho, pay6_apply x0 x3 x5 p ho, pay8_apply, pay9_apply]
  refine congrArg (fun z => x1 (ix2 p 0) + (∑ d : Fin 64, Cert.Spec.row x5 (x3 (ix2 p 0)) d * x0 (ix2 p d))
        + Cert.Spec.gmean (fun k => x4 (ix2 p k)) x7 * x2 (ix2 p 0) + z + Cert.Spec.row x6 (x3 (ix2 p 0)) 0) ?_
  unfold Cert.Spec.bmean
  exact congrArg (fun z => Ideal.div z _) (genreMask_dot_apply _ rfl _ x4 x8 p 0)

end Cert.KernelIdeal.PayValue

end
-- ==== Proof.KIVal1a.lean ====
/-
  Row by row, what the combine kernel stores for a tile, over the extended reals, with no condition on the
  occupation word.

  The one-hot row of an occupation word o has its single 1 at column o when o is below 21 and is all zero
  otherwise. Its product with a table of 21 rows is therefore the table's row o, or zero past the table's end:
  exactly the specification's reading of a table row at a word. So the tile's value at row p is the
  specification's sum of that row's summands, in the kernel's order, whatever the word is. Read through the
  blocks of the nine arrays the tile was cut from, it is that sum at the batch row the tile's row p is.
-/
import proofs.«428560_j76630806495462_2_alg».proof.Proof.PayValue1

noncomputable section

open scoped BigOperators

namespace Cert.KernelIdeal.Val1

open Idealize.ShloMosaic Idealize.ShloMosaic.ValueIdx Cert.KernelIdeal
open Cert.KernelIdeal.PayValue

/-- A sum against the one-hot row of a word is the table's row the word names, zero past the table's end. -/
theorem sum_oneHot_row {n : Nat} (w : BitVec 32) (T : FVec Ideal ⟨2, ![21, n]⟩ .f32) (d : Fin n) :
    ∑ c : Fin 21, (if w.toNat = c.val then (1 : EReal) else 0) * T (ix2 c d) = Cert.Spec.row T w d := by
  unfold Cert.Spec.row
  by_cases h : w.toNat < 21
  · rw [dif_pos h]
    exact sum_oneHot w h (fun c => T (ix2 c d))
  · rw [dif_neg h]
    refine Finset.sum_eq_zero fun c _ => ?_
    rw [if_neg (fun e : w.toNat = c.val => h (by have := c.isLt; omega)), zero_mul]

/-- The one-hot matrix times a table with 21 rows, at (p, d), for any occupation word. -/
theorem oneHot_dot_row {n : Nat} (D : DotDims S2048x21 ⟨2, ![21, n]⟩ ⟨2, ![2048, n]⟩)
    (hD : D = DotDims.plain 2048 21 n) (prec : Option ContractPrecision)
    (x3 : Vec Ideal S2048x1 .i32) (T : FVec Ideal ⟨2, ![21, n]⟩ .f32) (p : Fin 2048) (d : Fin n) :
    matmul D prec (Gen.k1_pay4 (F := Ideal) x3) T (constant (F := Ideal) ⟨2, ![2048, n]⟩ .f32 0x00000000#32) (ix2 p d)
      = Cert.Spec.row T (x3 (ix2 p 0)) d := by
  refine (dot_zero_apply D hD prec _ T p d).trans ?_
  simp only [oneHot_apply]
  exact sum_oneHot_row (x3 (ix2 p 0)) T d

/-- The occupation's bias at row p, for any occupation word. -/
theorem pay5_row (x3 : Vec Ideal S2048x1 .i32) (x6 : Vec Ideal S21x1 .f32) (p : Fin 2048) :
    Gen.k1_pay5 (F := Ideal) x3 x6 (ix2 p 0) = Cert.Spec.row x6 (x3 (ix2 p 0)) 0 := by
  unfold Gen.k1_pay5
  exact oneHot_dot_row _ rfl _ x3 x6 p 0

/-- The occupation row's inner product with the user row at row p, for any occupation word. -/
theorem pay6_row (x0 : Vec Ideal S2048x64 .f32) (x3 : Vec Ideal S2048x1 .i32) (x5 : Vec Ideal S21x64 .f32)
    (p : Fin 2048) :
    Gen.k1_pay6 (F := Ideal) x0 x3 x5 (ix2 p 0)
      = ∑ d : Fin 64, Cert.Spec.row x5 (x3 (ix2 p 0)) d * x0 (ix2 p d) := by
  unfold Gen.k1_pay6
  refine (rowSum_apply _ Gen.reduces_S2048x64_S2048 _ _ p).trans ?_
  refine Finset.sum_congr rfl fun d _ => ?_
  rw [mulf_apply, shapeCast_self x0]
  exact congrArg (· * x0 (ix2 p d)) (oneHot_dot_row _ rfl _ x3 x5 p d)

/-- Row r's value from the nine arrays: the first call's partial sum, the occupation row's inner product with the
    user row, the genre mean times the item-row sum, the mean genre bias and the occupation's bias, in the
    kernel's order of additions. -/
def rowOut (A6 : FVec Ideal S16384x64 .f32) (A7 A8 : FVec Ideal S16384x1 .f32) (A0 : IVec S16384x1 32)
    (A3 : IVec S16384x18 32) (T5 : FVec Ideal S21x64 .f32) (T6 : FVec Ideal S21x1 .f32)
    (T7 : FVec Ideal S18x64 .f32) (T8 : FVec Ideal S18x1 .f32) (r : Fin 16384) : EReal :=
  A7 (ix2 r 0) + (∑ d : Fin 64, Cert.Spec.row T5 (A0 (ix2 r 0)) d * A6 (ix2 r d))
    + Cert.Spec.gmean (fun k => A3 (ix2 r k)) T7 * A8 (ix2 r 0) + Cert.Spec.bmean (fun k => A3 (ix2 r k)) T8
    + Cert.Spec.row T6 (A0 (ix2 r 0)) 0

/-- The tile's value at its row p, when the tile's blocks hold at row p what the arrays hold at batch row r. -/
theorem tileOut_row (x0 : Vec Ideal S2048x64 .f32) (x1 x2 : Vec Ideal S2048x1 .f32) (x3 : Vec Ideal S2048x1 .i32)
    (x4 : Vec Ideal S2048x18 .i32) (x5 : Vec Ideal S21x64 .f32) (x6 : Vec Ideal S21x1 .f32)
    (x7 : Vec Ideal S18x64 .f32) (x8 : Vec Ideal S18x1 .f32)
    (A6 : FVec Ideal S16384x64 .f32) (A7 A8 : FVec Ideal S16384x1 .f32) (A0 : IVec S16384x1 32)
    (A3 : IVec S16384x18 32) (p : Fin 2048) (r : Fin 16384)
    (h0 : ∀ d : Fin 64, x0 (ix2 p d) = A6 (ix2 r d)) (h1 : x1 (ix2 p 0) = A7 (ix2 r 0))
    (h2 : x2 (ix2 p 0) = A8 (ix2 r 0)) (h3 : x3 (ix2 p 0) = A0 (ix2 r 0))
    (h4 : ∀ k : Fin 18, x4 (ix2 p k) = A3 (ix2 r k)) :
    tileOut x0 x1 x2 x3 x4 x5 x6 x7 x8 (ix2 p 0) = rowOut A6 A7 A8 A0 A3 x5 x6 x7 x8 r := by
  unfold tileOut Gen.k1_pay1 Gen.k1_pay2 Gen.k1_pay3
  rw [shapeCast_self x1, shapeCast_self x2]
  rw [addf_apply, addf_apply, addf_apply, addf_apply, mulf_apply, divf_apply]
  rw [pay5_row x3 x6 p, pay6_row x0 x3 x5 p, pay8_apply, pay9_apply]
  rw [genreMask_dot_apply dot_S2048x18_S18x1_S2048x1_1_0_0_1_n_n rfl _ x4 x8 p 0]
  unfold rowOut Cert.Spec.bmean
  rw [h1, h2, h3, show (fun k => x4 (ix2 p k)) = (fun k => A3 (ix2 r k)) from funext h4]
  simp only [h0, h4]

end Cert.KernelIdeal.Val1

end
-- ==== Proof.KIVal1b.lean ====
/-
  From the combine kernel's tiles to its result array, over the extended reals, for any contents V of the core's
  buffers when the second call is entered.

  The grid has 8 points; point t handles the batch rows t·2048 … t·2048 + 2047. Its blocks of the five row-indexed
  arrays are those rows, its blocks of the four small tables are the tables whole, and what it writes back is the
  tile's 2048 values. Row p of the tile at point t is therefore the row sum rowOut at batch row t·2048 + p, so point
  t writes back block t of ONE function G9 of the arrays; the 8 blocks tile the 16384 rows (row r is in the block of
  point r / 2048), and the array ends holding G9.
-/
import proofs.«428560_j76630806495462_2_alg».proof.Proof.KIRegion1
import proofs.«428560_j76630806495462_2_alg».proof.Proof.KIVal1a
import Idealize.ShloMosaic.Lib.Pipeline.Value

noncomputable section

open scoped BigOperators

namespace Cert.KernelIdeal.Val1

open Idealize.ShloMosaic Idealize.ShloMosaic.ValueIdx Cert.KernelIdeal
open Cert.KernelIdeal.Gen Cert.KernelIdeal.Hand Cert.KernelIdeal.PayValue
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the region finds. -/
def G9 (c : Dev nD) : S16384x1.Idx → Elt Ideal .f32 := fun i =>
  rowOut (V c main_v6) (V c main_v7) (V c main_v8) (V c main_v0) (V c main_arg3) (V c main_arg8) (V c main_arg9)
    (V c main_arg10) (V c main_arg11) (i 0)

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem flushed9_eq (c : Dev nD) (t : Fin cfg1.N) :
    (dat1 V c).flushed 9 t = ((cfg1.win 9).blk t).view.read (Elt Ideal) (G9 V c) := by
  show (cfg1.win 9).cut (grid1.coords t) ((dat1 V c).after 9 t) = _
  rw [after1_9]
  unfold out1_9
  rw [View.canon_unit_zero hz]
  simp only [View.ld_unit_zero (S := S2048x64) hz, View.ld_unit_zero (S := S2048x1) hz, View.ld_unit_zero (S := S2048x18) hz,
    View.ld_unit_zero (S := S21x64) hz, View.ld_unit_zero (S := S21x1) hz, View.ld_unit_zero (S := S18x64) hz,
    View.ld_unit_zero (S := S18x1) hz]
  funext j
  obtain ⟨e00, e01, e10, e11, e20, e21, e30, e31, e40, e41, e50, e51, e60, e61, e70, e71, e80, e81, e90, e91⟩ := idx_facts t
  have hj0 : (j 0).val < 2048 := (j 0).isLt
  have hj1 : (j 1).val < 1 := (j 1).isLt
  have ht : t.val < 8 := t.isLt
  have hx : (win1 9).xinj (grid1.coords t) j = ix2 (⟨(j 0).val, hj0⟩ : Fin 2048) (0 : Fin 1) := by
    funext a; apply Fin.ext
    match a with
    | ⟨0, _⟩ => rfl
    | ⟨1, _⟩ => show (j 1).val = 0; omega
  show tile1 (iblk1 V c 0 t) (iblk1 V c 1 t) (iblk1 V c 2 t) (iblk1 V c 3 t) (iblk1 V c 4 t) (iblk1 V c 5 t)
        (iblk1 V c 6 t) (iblk1 V c 7 t) (iblk1 V c 8 t) ((win1 9).xinj (grid1.coords t) j)
      = G9 V c (((cfg1.win 9).blk t).view.emb j)
  rw [hx]
  have h5 : iblk1 V c 5 t = V c main_arg8 := funext fun y => by
    show V c main_arg8 (((cfg1.win 5).blk t).view.emb y) = V c main_arg8 y
    refine congrArg (V c main_arg8) (funext fun a => Fin.ext ?_)
    match a with
    | ⟨0, _⟩ => show win1_5.index t (0 : Fin 2) * 21 + 1 * (y 0).val = (y 0).val; omega
    | ⟨1, _⟩ => show win1_5.index t (1 : Fin 2) * 64 + 1 * (y 1).val = (y 1).val; omega
  have h6 : iblk1 V c 6 t = V c main_arg9 := funext fun y => by
    show V c main_arg9 (((cfg1.win 6).blk t).view.emb y) = V c main_arg9 y
    refine congrArg (V c main_arg9) (funext fun a => Fin.ext ?_)
    match a with
    | ⟨0, _⟩ => show win1_6.index t (0 : Fin 2) * 21 + 1 * (y 0).val = (y 0).val; omega
    | ⟨1, _⟩ => show win1_6.index t (1 : Fin 2) * 1 + 1 * (y 1).val = (y 1).val; omega
  have h7 : iblk1 V c 7 t = V c main_arg10 := funext fun y => by
    show V c main_arg10 (((cfg1.win 7).blk t).view.emb y) = V c main_arg10 y
    refine congrArg (V c main_arg10) (funext fun a => Fin.ext ?_)
    match a with
    | ⟨0, _⟩ => show win1_7.index t (0 : Fin 2) * 18 + 1 * (y 0).val = (y 0).val; omega
    | ⟨1, _⟩ => show win1_7.index t (1 : Fin 2) * 64 + 1 * (y 1).val = (y 1).val; omega
  have h8 : iblk1 V c 8 t = V c main_arg11 := funext fun y => by
    show V c main_arg11 (((cfg1.win 8).blk t).view.emb y) = V c main_arg11 y
    refine congrArg (V c main_arg11) (funext fun a => Fin.ext ?_)
    match a with
    | ⟨0, _⟩ => show win1_8.index t (0 : Fin 2) * 18 + 1 * (y 0).val = (y 0).val; omega
    | ⟨1, _⟩ => show win1_8.index t (1 : Fin 2) * 1 + 1 * (y 1).val = (y 1).val; omega
  rw [h5, h6, h7, h8]
  refine (tileOut_row (iblk1 V c 0 t) (iblk1 V c 1 t) (iblk1 V c 2 t) (iblk1 V c 3 t) (iblk1 V c 4 t)
    (V c main_arg8) (V c main_arg9) (V c main_arg10) (V c main_arg11)
    (V c main_v6) (V c main_v7) (V c main_v8) (V c main_v0) (V c main_arg3)
    ⟨(j 0).val, hj0⟩ ⟨t.val * 2048 + (j 0).val, by omega⟩ (fun d => ?_) ?_ ?_ ?_ (fun k => ?_)).trans ?_
  · show V c main_v6 (((cfg1.win 0).blk t).view.emb (ix2 (⟨(j 0).val, hj0⟩ : Fin 2048) d)) = _
    refine congrArg (V c main_v6) (funext fun a => Fin.ext ?_)
    match a with
    | ⟨0, _⟩ => show win1_0.index t (0 : Fin 2) * 2048 + 1 * (j 0).val = t.val * 2048 + (j 0).val; omega
    | ⟨1, _⟩ => show win1_0.index t (1 : Fin 2) * 64 + 1 * d.val = d.val; omega
  · show V c main_v7 (((cfg1.win 1).blk t).view.emb (ix2 (⟨(j 0).val, hj0⟩ : Fin 2048) (0 : Fin 1))) = _
    refine congrArg (V c main_v7) (funext fun a => Fin.ext ?_)
    match a with
    | ⟨0, _⟩ => show win1_1.index t (0 : Fin 2) * 2048 + 1 * (j 0).val = t.val * 2048 + (j 0).val; omega
    | ⟨1, _⟩ => show win1_1.index t (1 : Fin 2) * 1 + 1 * 0 = 0; omega
  · show V c main_v8 (((cfg1.win 2).blk t).view.emb (ix2 (⟨(j 0).val, hj0⟩ : Fin 2048) (0 : Fin 1))) = _
    refine congrArg (V c main_v8) (funext fun a => Fin.ext ?_)
    match a with
    | ⟨0, _⟩ => show win1_2.index t (0 : Fin 2) * 2048 + 1 * (j 0).val = t.val * 2048 + (j 0).val; omega
    | ⟨1, _⟩ => show win1_2.index t (1 : Fin 2) * 1 + 1 * 0 = 0; omega
  · show V c main_v0 (((cfg1.win 3).blk t).view.emb (ix2 (⟨(j 0).val, hj0⟩ : Fin 2048) (0 : Fin 1))) = _
    refine congrArg (V c main_v0) (funext fun a => Fin.ext ?_)
    match a with
    | ⟨0, _⟩ => show win1_3.index t (0 : Fin 2) * 2048 + 1 * (j 0).val = t.val * 2048 + (j 0).val; omega
    | ⟨1, _⟩ => show win1_3.index t (1 : Fin 2) * 1 + 1 * 0 = 0; omega
  · show V c main_arg3 (((cfg1.win 4).blk t).view.emb (ix2 (⟨(j 0).val, hj0⟩ : Fin 2048) k)) = _
    refine congrArg (V c main_arg3) (funext fun a => Fin.ext ?_)
    match a with
    | ⟨0, _⟩ => show win1_4.index t (0 : Fin 2) * 2048 + 1 * (j 0).val = t.val * 2048 + (j 0).val; omega
    | ⟨1, _⟩ => show win1_4.index t (1 : Fin 2) * 18 + 1 * k.val = k.val; omega
  · show _ = rowOut (V c main_v6) (V c main_v7) (V c main_v8) (V c main_v0) (V c main_arg3) (V c main_arg8) (V c main_arg9)
      (V c main_arg10) (V c main_arg11) ((((cfg1.win 9).blk t).view.emb j) 0)
    refine congrArg (rowOut (V c main_v6) (V c main_v7) (V c main_v8) (V c main_v0) (V c main_arg3) (V c main_arg8)
      (V c main_arg9) (V c main_arg10) (V c main_arg11)) (Fin.ext ?_)
    show t.val * 2048 + (j 0).val = win1_9.index t (0 : Fin 2) * 2048 + 1 * (j 0).val
    omega

/-- An index of the result array is in point t's block iff each coordinate is in the block's range on its axis. -/
theorem mem_blk9 (t : Fin cfg1.N) (i : S16384x1.Idx) :
    i ∈ ((cfg1.win 9).blk t).view.set ↔ ∀ a : Fin 2, win1_9.index t a * S2048x1.size a ≤ (i a).val ∧ (i a).val < win1_9.index t a * S2048x1.size a + S2048x1.size a := by
  show i ∈ ((View.whole main_v9).slice (win1_9.rect t)).set ↔ _
  rw [View.set_slice_whole, Rect.mem_set_unit]
  exact Iff.rfl

/-- Every row of the result is in the block of the point its tile number names. -/
theorem cover9 (i : S16384x1.Idx) : ∃ t : Fin cfg1.N, (cfg1.win 9).flush t = true ∧ i ∈ ((cfg1.win 9).blk t).view.set := by
  have hi0 : (i 0).val < 16384 := (i 0).isLt
  have hi1 : (i 1).val < 1 := (i 1).isLt
  refine ⟨⟨(i 0).val / 2048, by show (i 0).val / 2048 < 8; omega⟩, flush1_9 _, ?_⟩
  rw [mem_blk9]
  obtain ⟨-, -, -, -, -, -, -, -, -, -, -, -, -, -, -, -, -, -, e90, e91⟩ := idx_facts ⟨(i 0).val / 2048, by show (i 0).val / 2048 < 8; omega⟩
  intro a
  match a with
  | ⟨0, _⟩ =>
    show win1_9.index ⟨(i 0).val / 2048, _⟩ (0 : Fin 2) * 2048 ≤ (i 0).val ∧ (i 0).val < win1_9.index ⟨(i 0).val / 2048, _⟩ (0 : Fin 2) * 2048 + 2048
    rw [e90]
    show (i 0).val / 2048 * 2048 ≤ (i 0).val ∧ (i 0).val < (i 0).val / 2048 * 2048 + 2048
    omega
  | ⟨1, _⟩ =>
    show win1_9.index ⟨(i 0).val / 2048, _⟩ (1 : Fin 2) * 1 ≤ (i 1).val ∧ (i 1).val < win1_9.index ⟨(i 0).val / 2048, _⟩ (1 : Fin 2) * 1 + 1
    rw [e91]
    omega

/-- The result array after the second call: row by row the kernel's sum of that row's summands. -/
theorem final9 (c : Dev nD) : (dat1 V c).arrAt 9 cfg1.N = G9 V c :=
  (dat1 V c).arrAt_eq_of_cover 9 (G9 V c) (fun t _ => flushed9_eq V c t) cover9

/-- Row r of the result array after the second call, for any contents of the arrays it reads and any occupation
    word: the kernel's sum of the row's summands. -/
theorem arrAt9_row (c : Dev nD) (r : Fin 16384) :
    (dat1 V c).arrAt 9 cfg1.N (ix2 r 0)
      = rowOut (V c main_v6) (V c main_v7) (V c main_v8) (V c main_v0) (V c main_arg3) (V c main_arg8)
          (V c main_arg9) (V c main_arg10) (V c main_arg11) r := by
  rw [final9]
  rfl

/-- The same with the nine arrays named: whatever the region finds in them, row r of the result is the first
    call's partial sum, plus the occupation row's inner product with the user row, plus the genre mean times the
    item-row sum, plus the mean genre bias, plus the occupation's bias. -/
theorem arrAt9_row_of_eq (c : Dev nD) (r : Fin 16384)
    (A6 : FVec Ideal S16384x64 .f32) (A7 A8 : FVec Ideal S16384x1 .f32) (A0 : IVec S16384x1 32)
    (A3 : IVec S16384x18 32) (T5 : FVec Ideal S21x64 .f32) (T6 : FVec Ideal S21x1 .f32)
    (T7 : FVec Ideal S18x64 .f32) (T8 : FVec Ideal S18x1 .f32)
    (h6 : V c main_v6 = A6) (h7 : V c main_v7 = A7) (h8 : V c main_v8 = A8) (h0 : V c main_v0 = A0)
    (h3 : V c main_arg3 = A3) (g5 : V c main_arg8 = T5) (g6 : V c main_arg9 = T6) (g7 : V c main_arg10 = T7)
    (g8 : V c main_arg11 = T8) :
    (dat1 V c).arrAt 9 cfg1.N (ix2 r 0)
      = A7 (ix2 r 0) + (∑ d : Fin 64, Cert.Spec.row T5 (A0 (ix2 r 0)) d * A6 (ix2 r d))
        + Cert.Spec.gmean (fun k => A3 (ix2 r k)) T7 * A8 (ix2 r 0) + Cert.Spec.bmean (fun k => A3 (ix2 r k)) T8
        + Cert.Spec.row T6 (A0 (ix2 r 0)) 0 := by
  rw [arrAt9_row V c r, h6, h7, h8, h0, h3, g5, g6, g7, g8]
  rfl

end Cert.KernelIdeal.Val1

end
-- ==== Proof.KIValHost.lean ====
/-
  The host reshapes between the two calls, read at one index.

  Before the first call the occupation words become a [16384, 1] column and each embedding or bias table [N, K] gets
  a unit middle axis, [N, 1, K]; after it the three results [16384, 1, K] lose that axis; after the second call the
  [16384, 1] result becomes the [16384] vector. A reshape keeps the row-major position, so entry (a, 0, d) of the
  reshaped table is entry (a, d) of the table, and likewise for the others. The buffers a stretch or a call does not
  write are read through it unchanged.
-/
import proofs.«428560_j76630806495462_2_alg».proof.Proof.KIRun
import Idealize.ShloMosaic.Lib.Pipeline.Value
import Idealize.ShloMosaic.Lib.ValueIdx

set_option maxRecDepth 16384

noncomputable section

namespace Cert.KernelIdeal.ValHost

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-! ## The four reshapes at an index -/

/-- [n, k] → [n, 1, k] at (a, 0, d). -/
theorem shapeCast_addMid_apply {α : Type} {n k : ℕ} (x : (⟨2, ![n, k]⟩ : Shape).Idx → α)
    (h : (⟨2, ![n, k]⟩ : Shape).ShapeCasts ⟨3, ![n, 1, k]⟩) (a : Fin n) (d : Fin k) :
    shapeCast ⟨3, ![n, 1, k]⟩ x h (ix3 a 0 d) = x (ix2 a d) :=
  shapeCast_apply x h (ix3 a 0 d) (ix2 a d) (by
    rw [Shape.rowMajor_val_two, Shape.rowMajor_val_three]
    show a.val * k + d.val = (a.val * 1 + 0) * k + d.val
    rw [Nat.mul_one, Nat.add_zero])

/-- [n, 1, k] → [n, k] at (r, d). -/
theorem shapeCast_dropMid_apply {α : Type} {n k : ℕ} (x : (⟨3, ![n, 1, k]⟩ : Shape).Idx → α)
    (h : (⟨3, ![n, 1, k]⟩ : Shape).ShapeCasts ⟨2, ![n, k]⟩) (r : Fin n) (d : Fin k) :
    shapeCast ⟨2, ![n, k]⟩ x h (ix2 r d) = x (ix3 r 0 d) :=
  shapeCast_apply x h (ix2 r d) (ix3 r 0 d) (by
    rw [Shape.rowMajor_val_two, Shape.rowMajor_val_three]
    show (r.val * 1 + 0) * k + d.val = r.val * k + d.val
    rw [Nat.mul_one, Nat.add_zero])

/-- [n] → [n, 1] at (r, 0). -/
theorem shapeCast_toCol_apply {α : Type} {n : ℕ} (x : (⟨1, ![n]⟩ : Shape).Idx → α)
    (h : (⟨1, ![n]⟩ : Shape).ShapeCasts ⟨2, ![n, 1]⟩) (r : Fin n) :
    shapeCast ⟨2, ![n, 1]⟩ x h (ix2 r 0) = x (ix1 r) :=
  shapeCast_apply x h (ix2 r 0) (ix1 r) (by
    rw [Shape.rowMajor_val_two, Shape.rowMajor_val_one]
    show r.val = r.val * 1 + 0
    rw [Nat.mul_one, Nat.add_zero])

/-- [n, 1] → [n] at r. -/
theorem shapeCast_ofCol_apply {α : Type} {n : ℕ} (x : (⟨2, ![n, 1]⟩ : Shape).Idx → α)
    (h : (⟨2, ![n, 1]⟩ : Shape).ShapeCasts ⟨1, ![n]⟩) (r : Fin n) :
    shapeCast ⟨1, ![n]⟩ x h (ix1 r) = x (ix2 r 0) :=
  shapeCast_apply x h (ix1 r) (ix2 r 0) (by
    rw [Shape.rowMajor_val_two, Shape.rowMajor_val_one]
    show r.val * 1 + 0 = r.val
    rw [Nat.mul_one, Nat.add_zero])

variable (m : (ℓ : Loc nD τ sig) → Buf (Elt F) ℓ) (ρ : Dev nD → PrngReg)

/-- A buffer that no reshape of a host stretch writes keeps its contents over the stretch. -/
local macro "unwritten " b:ident : tactic => `(tactic|
  exact StableHlo.after_of_forall_not_mem (b := Proc.devRef .tc $b) _ _ (List.forall_iff_forall_mem.mp (by
    simp only [hostOps0, hostOps1, hostOps2, List.Forall, StableHlo.reshape_writes, Finset.mem_singleton]
    repeat' apply And.intro
    all_goals exact StableHlo.devRef_ne_of_ne (by decide))))

/-! ## The first call's entry: the four tables with their unit middle axis -/

theorem V1_main_v1 (c : Dev nD) :
    (V1 m ρ c main_v1 : Vec F S1000000x1x64 .f32)
      = shapeCast S1000000x1x64 (m ((c : Thread nD τ).loc main_arg4) : Vec F S1000000x64 .f32)
          shapeCasts_S1000000x64_S1000000x1x64 := by
  show StableHlo.after hostOps0 (W0 m ρ c) (Proc.devRef .tc main_v1) = _
  after_results
  rfl

theorem V1_main_v2 (c : Dev nD) :
    (V1 m ρ c main_v2 : Vec F S1000000x1x1 .f32)
      = shapeCast S1000000x1x1 (m ((c : Thread nD τ).loc main_arg5) : Vec F S1000000x1 .f32)
          shapeCasts_S1000000x1_S1000000x1x1 := by
  show StableHlo.after hostOps0 (W0 m ρ c) (Proc.devRef .tc main_v2) = _
  after_results
  rfl

theorem V1_main_v3 (c : Dev nD) :
    (V1 m ρ c main_v3 : Vec F S100000x1x64 .f32)
      = shapeCast S100000x1x64 (m ((c : Thread nD τ).loc main_arg6) : Vec F S100000x64 .f32)
          shapeCasts_S100000x64_S100000x1x64 := by
  show StableHlo.after hostOps0 (W0 m ρ c) (Proc.devRef .tc main_v3) = _
  after_results
  rfl

theorem V1_main_v4 (c : Dev nD) :
    (V1 m ρ c main_v4 : Vec F S100000x1x1 .f32)
      = shapeCast S100000x1x1 (m ((c : Thread nD τ).loc main_arg7) : Vec F S100000x1 .f32)
          shapeCasts_S100000x1_S100000x1x1 := by
  show StableHlo.after hostOps0 (W0 m ρ c) (Proc.devRef .tc main_v4) = _
  after_results
  rfl

/-- Entry (a, 0, d) of the reshaped user embedding table is entry (a, d) of the table. -/
theorem V1_main_v1_apply (c : Dev nD) (a : Fin 1000000) (d : Fin 64) :
    (V1 m ρ c main_v1 : Vec F S1000000x1x64 .f32) (ix3 a 0 d)
      = (m ((c : Thread nD τ).loc main_arg4) : Vec F S1000000x64 .f32) (ix2 a d) := by
  rw [V1_main_v1]; exact shapeCast_addMid_apply _ _ a d

/-- Entry (a, 0, 0) of the reshaped user bias table is entry (a, 0) of the table. -/
theorem V1_main_v2_apply (c : Dev nD) (a : Fin 1000000) :
    (V1 m ρ c main_v2 : Vec F S1000000x1x1 .f32) (ix3 a 0 0)
      = (m ((c : Thread nD τ).loc main_arg5) : Vec F S1000000x1 .f32) (ix2 a 0) := by
  rw [V1_main_v2]; exact shapeCast_addMid_apply _ _ a 0

/-- Entry (a, 0, d) of the reshaped item embedding table is entry (a, d) of the table. -/
theorem V1_main_v3_apply (c : Dev nD) (a : Fin 100000) (d : Fin 64) :
    (V1 m ρ c main_v3 : Vec F S100000x1x64 .f32) (ix3 a 0 d)
      = (m ((c : Thread nD τ).loc main_arg6) : Vec F S100000x64 .f32) (ix2 a d) := by
  rw [V1_main_v3]; exact shapeCast_addMid_apply _ _ a d

/-- Entry (a, 0, 0) of the reshaped item bias table is entry (a, 0) of the table. -/
theorem V1_main_v4_apply (c : Dev nD) (a : Fin 100000) :
    (V1 m ρ c main_v4 : Vec F S100000x1x1 .f32) (ix3 a 0 0)
      = (m ((c : Thread nD τ).loc main_arg7) : Vec F S100000x1 .f32) (ix2 a 0) := by
  rw [V1_main_v4]; exact shapeCast_addMid_apply _ _ a 0

/-! ## The second call's entry -/

theorem V3_main_v6 (hO : Ok m) (c : Dev nD) :
    (V3 m ρ hO c main_v6 : Vec F S16384x64 .f32)
      = shapeCast S16384x64 (W2 m ρ hO c (Proc.devRef .tc main_v5_0) : Vec F S16384x1x64 .f32)
          shapeCasts_S16384x1x64_S16384x64 := by
  show StableHlo.after hostOps1 (W2 m ρ hO c) (Proc.devRef .tc main_v6) = _
  after_results
  rfl

theorem V3_main_v7 (hO : Ok m) (c : Dev nD) :
    (V3 m ρ hO c main_v7 : Vec F S16384x1 .f32)
      = shapeCast S16384x1 (W2 m ρ hO c (Proc.devRef .tc main_v5_1) : Vec F S16384x1x1 .f32)
          shapeCasts_S16384x1x1_S16384x1 := by
  show StableHlo.after hostOps1 (W2 m ρ hO c) (Proc.devRef .tc main_v7) = _
  after_results
  rfl

theorem V3_main_v8 (hO : Ok m) (c : Dev nD) :
    (V3 m ρ hO c main_v8 : Vec F S16384x1 .f32)
      = shapeCast S16384x1 (W2 m ρ hO c (Proc.devRef .tc main_v5_2) : Vec F S16384x1x1 .f32)
          shapeCasts_S16384x1x1_S16384x1 := by
  show StableHlo.after hostOps1 (W2 m ρ hO c) (Proc.devRef .tc main_v8) = _
  after_results
  rfl

/-- The occupation column at the second call's entry is the one the first stretch made: neither the first call nor
    the second stretch writes it. -/
theorem V3_main_v0 (hO : Ok m) (c : Dev nD) :
    (V3 m ρ hO c main_v0 : Vec F S16384x1 .i32)
      = shapeCast S16384x1 (m ((c : Thread nD τ).loc main_arg2) : Vec F S16384 .i32) shapeCasts_S16384_S16384x1 :=
  calc W3 m ρ hO c (Proc.devRef .tc main_v0)
    _ = W2 m ρ hO c (Proc.devRef .tc main_v0) := by unwritten main_v0
    _ = W1 m ρ c (Proc.devRef .tc main_v0) := W2_of_ne m ρ hO c main_v0 (by decide)
    _ = _ := by
      show StableHlo.after hostOps0 (W0 m ρ c) (Proc.devRef .tc main_v0) = _
      after_results
      rfl

/-- Entry (r, d) of the user rows the second call reads is entry (r, 0, d) of the first call's first result. -/
theorem V3_main_v6_apply (hO : Ok m) (c : Dev nD) (r : Fin 16384) (d : Fin 64) :
    (V3 m ρ hO c main_v6 : Vec F S16384x64 .f32) (ix2 r d)
      = (W2 m ρ hO c (Proc.devRef .tc main_v5_0) : Vec F S16384x1x64 .f32) (ix3 r 0 d) := by
  rw [V3_main_v6]; exact shapeCast_dropMid_apply _ _ r d

/-- Entry (r, 0) of the second call's second operand is entry (r, 0, 0) of the first call's second result. -/
theorem V3_main_v7_apply (hO : Ok m) (c : Dev nD) (r : Fin 16384) :
    (V3 m ρ hO c main_v7 : Vec F S16384x1 .f32) (ix2 r 0)
      = (W2 m ρ hO c (Proc.devRef .tc main_v5_1) : Vec F S16384x1x1 .f32) (ix3 r 0 0) := by
  rw [V3_main_v7]; exact shapeCast_dropMid_apply _ _ r 0

/-- Entry (r, 0) of the second call's third operand is entry (r, 0, 0) of the first call's third result. -/
theorem V3_main_v8_apply (hO : Ok m) (c : Dev nD) (r : Fin 16384) :
    (V3 m ρ hO c main_v8 : Vec F S16384x1 .f32) (ix2 r 0)
      = (W2 m ρ hO c (Proc.devRef .tc main_v5_2) : Vec F S16384x1x1 .f32) (ix3 r 0 0) := by
  rw [V3_main_v8]; exact shapeCast_dropMid_apply _ _ r 0

/-- Entry (r, 0) of the occupation column is the occupation word of batch row r. -/
theorem V3_main_v0_apply (hO : Ok m) (c : Dev nD) (r : Fin 16384) :
    (V3 m ρ hO c main_v0 : Vec F S16384x1 .i32) (ix2 r 0)
      = (m ((c : Thread nD τ).loc main_arg2) : Vec F S16384 .i32) (ix1 r) := by
  rw [V3_main_v0]; exact shapeCast_toCol_apply _ _ r

/-! ## The return -/

/-- Entry r of the returned vector is entry (r, 0) of what the second call leaves in its output array. -/
theorem W5_main_v10_apply (hO : Ok m) (c : Dev nD) (r : Fin 16384) :
    (W5 m ρ hO c (Proc.devRef .tc main_v10) : Vec F S16384 .f32) (ix1 r)
      = ((dat1 (V3 m ρ hO) c).arrAt 9 cfg1.N : Vec F S16384x1 .f32) (ix2 r 0) := by
  have e : (W5 m ρ hO c (Proc.devRef .tc main_v10) : Vec F S16384 .f32)
      = shapeCast S16384 (W4 m ρ hO c (Proc.devRef .tc main_v9) : Vec F S16384x1 .f32) shapeCasts_S16384x1_S16384 := by
    show StableHlo.after hostOps2 (W4 m ρ hO c) (Proc.devRef .tc main_v10) = _
    after_results
    rfl
  rw [e, ← W4_arr m ρ hO c 9]
  exact shapeCast_ofCol_apply _ _ r

end Cert.KernelIdeal.ValHost

end
-- ==== Proof.KIScore.lean ====
/-
  The kernel program's returned vector is the score, row by row, over the extended reals.

  Row r of the result is what the second call stores for it: the first call's partial sum for r, plus the inner
  product of the occupation's row with the user's row, plus the genre mean times the item row's sum, plus the mean
  genre bias, plus the occupation's bias. The first call left for r the user's row itself, the inner product of the
  user's and the item's rows plus the two biases, and the sum of the item's row; the reshapes between the calls move
  nothing. With the index words in range every row read is a row of the launch arrays, so the result is the seven
  summands of the score in the kernel's order of additions, which is the score.
-/
import proofs.«428560_j76630806495462_2_alg».proof.Proof.KIVal0
import proofs.«428560_j76630806495462_2_alg».proof.Proof.KIVal1b
import proofs.«428560_j76630806495462_2_alg».proof.Proof.KIValHost
import proofs.«428560_j76630806495462_2_alg».proof.Proof.KIArgs
import proofs.«428560_j76630806495462_2_alg».proof.Proof.Spec

set_option maxRecDepth 16384

noncomputable section

open scoped BigOperators

namespace Cert.KernelIdeal.Score

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (hO : Ok m)

/-! The twelve argument arrays of core c as launched, at the specification's types. -/
abbrev uid (c : Dev nD) : IVec Cert.Spec.Rows 32 := m ((c : Thread nD τ).loc main_arg0)
abbrev iid (c : Dev nD) : IVec Cert.Spec.Rows 32 := m ((c : Thread nD τ).loc main_arg1)
abbrev occ (c : Dev nD) : IVec Cert.Spec.Rows 32 := m ((c : Thread nD τ).loc main_arg2)
abbrev gen (c : Dev nD) : IVec Cert.Spec.RowsG 32 := m ((c : Thread nD τ).loc main_arg3)
abbrev ue (c : Dev nD) : FVec Ideal (Cert.Spec.Tab 1000000 64) .f32 := m ((c : Thread nD τ).loc main_arg4)
abbrev ub (c : Dev nD) : FVec Ideal (Cert.Spec.Tab 1000000 1) .f32 := m ((c : Thread nD τ).loc main_arg5)
abbrev ie (c : Dev nD) : FVec Ideal (Cert.Spec.Tab 100000 64) .f32 := m ((c : Thread nD τ).loc main_arg6)
abbrev ib (c : Dev nD) : FVec Ideal (Cert.Spec.Tab 100000 1) .f32 := m ((c : Thread nD τ).loc main_arg7)
abbrev oe (c : Dev nD) : FVec Ideal (Cert.Spec.Tab 21 64) .f32 := m ((c : Thread nD τ).loc main_arg8)
abbrev ob (c : Dev nD) : FVec Ideal (Cert.Spec.Tab 21 1) .f32 := m ((c : Thread nD τ).loc main_arg9)
abbrev ge (c : Dev nD) : FVec Ideal (Cert.Spec.Tab 18 64) .f32 := m ((c : Thread nD τ).loc main_arg10)
abbrev gb (c : Dev nD) : FVec Ideal (Cert.Spec.Tab 18 1) .f32 := m ((c : Thread nD τ).loc main_arg11)

/-- Row r of the returned vector is row r's score. -/
theorem result_row (c : Dev nD)
    (hu : ∀ r : Fin 16384, (tbl m 0 (ix1 r) : BitVec 32).toNat < 1000000)
    (ht : ∀ r : Fin 16384, (tbl m 1 (ix1 r) : BitVec 32).toNat < 100000) (r : Fin 16384) :
    (W5 m ρ hO c (Proc.devRef .tc main_v10) : Vec Ideal S16384 .f32) (ix1 r)
      = Cert.Spec.scoreAt (uid m c) (iid m c) (occ m c) (gen m c) (ue m c) (ub m c) (ie m c) (ib m c) (oe m c) (ob m c) (ge m c) (gb m c) r := by
  obtain rfl : c = 0 := Subsingleton.elim _ _
  have hU : (uid m 0 (ix1 r)).toNat < 1000000 := hu r
  have hT : (iid m 0 (ix1 r)).toNat < 100000 := ht r
  -- the rows the first call gathered are rows of the launch tables
  have a1 : ∀ d : Fin 64, Val0.ue (V1 m ρ) 0 (ix3 ⟨(tbl m 0 (ix1 r) : BitVec 32).toNat, hu r⟩ 0 d) = Cert.Spec.row (ue m 0) (uid m 0 (ix1 r)) d := fun d =>
    (ValHost.V1_main_v1_apply m ρ 0 ⟨_, hu r⟩ d).trans (Cert.Spec.row_of_lt (ue m 0) (uid m 0 (ix1 r)) d hU).symm
  have a2 : Val0.ub (V1 m ρ) 0 (ix3 ⟨(tbl m 0 (ix1 r) : BitVec 32).toNat, hu r⟩ 0 0) = Cert.Spec.row (ub m 0) (uid m 0 (ix1 r)) 0 :=
    (ValHost.V1_main_v2_apply m ρ 0 ⟨_, hu r⟩).trans (Cert.Spec.row_of_lt (ub m 0) (uid m 0 (ix1 r)) 0 hU).symm
  have a3 : ∀ d : Fin 64, Val0.ie (V1 m ρ) 0 (ix3 ⟨(tbl m 1 (ix1 r) : BitVec 32).toNat, ht r⟩ 0 d) = Cert.Spec.row (ie m 0) (iid m 0 (ix1 r)) d := fun d =>
    (ValHost.V1_main_v3_apply m ρ 0 ⟨_, ht r⟩ d).trans (Cert.Spec.row_of_lt (ie m 0) (iid m 0 (ix1 r)) d hT).symm
  have a4 : Val0.ib (V1 m ρ) 0 (ix3 ⟨(tbl m 1 (ix1 r) : BitVec 32).toNat, ht r⟩ 0 0) = Cert.Spec.row (ib m 0) (iid m 0 (ix1 r)) 0 :=
    (ValHost.V1_main_v4_apply m ρ 0 ⟨_, ht r⟩).trans (Cert.Spec.row_of_lt (ib m 0) (iid m 0 (ix1 r)) 0 hT).symm
  -- what the second call finds in the arrays it reads at row r
  have e6 : ∀ d : Fin 64, (V3 m ρ hO 0 main_v6 : Vec Ideal S16384x64 .f32) (ix2 r d) = Cert.Spec.row (ue m 0) (uid m 0 (ix1 r)) d := fun d =>
    (ValHost.V3_main_v6_apply m ρ hO 0 r d).trans ((Val0.out0_user_row m ρ hO 0 hu r d).trans (a1 d))
  have e7 : (V3 m ρ hO 0 main_v7 : Vec Ideal S16384x1 .f32) (ix2 r 0)
      = (∑ d : Fin 64, Cert.Spec.row (ue m 0) (uid m 0 (ix1 r)) d * Cert.Spec.row (ie m 0) (iid m 0 (ix1 r)) d)
        + Cert.Spec.row (ub m 0) (uid m 0 (ix1 r)) 0 + Cert.Spec.row (ib m 0) (iid m 0 (ix1 r)) 0 := by
    refine (ValHost.V3_main_v7_apply m ρ hO 0 r).trans ((Val0.out0_dot_row m ρ hO 0 hu ht r).trans ?_)
    rw [a2, a4]
    simp only [a1, a3]
  have e8 : (V3 m ρ hO 0 main_v8 : Vec Ideal S16384x1 .f32) (ix2 r 0) = ∑ d : Fin 64, Cert.Spec.row (ie m 0) (iid m 0 (ix1 r)) d := by
    refine (ValHost.V3_main_v8_apply m ρ hO 0 r).trans ((Val0.out0_isum_row m ρ hO 0 ht r).trans ?_)
    simp only [a3]
  have e0 : (V3 m ρ hO 0 main_v0 : Vec Ideal S16384x1 .i32) (ix2 r 0) = occ m 0 (ix1 r) :=
    ValHost.V3_main_v0_apply m ρ hO 0 r
  rw [ValHost.W5_main_v10_apply m ρ hO 0 r]
  rw [Val1.arrAt9_row_of_eq (V3 m ρ hO) 0 r (V3 m ρ hO 0 main_v6) (V3 m ρ hO 0 main_v7) (V3 m ρ hO 0 main_v8) (V3 m ρ hO 0 main_v0)
    (gen m 0) (oe m 0) (ob m 0) (ge m 0) (gb m 0) rfl rfl rfl rfl
    (W3_main_arg3 m ρ hO 0) (W3_main_arg8 m ρ hO 0) (W3_main_arg9 m ρ hO 0) (W3_main_arg10 m ρ hO 0) (W3_main_arg11 m ρ hO 0)]
  rw [e7, e8, e0]
  simp only [e6]
  unfold Cert.Spec.scoreAt
  rw [← Cert.Spec.kernelSum_eq]
  rfl

/-- The returned vector is the batch's scores. -/
theorem result_eq (c : Dev nD)
    (hu : ∀ r : Fin 16384, (tbl m 0 (ix1 r) : BitVec 32).toNat < 1000000)
    (ht : ∀ r : Fin 16384, (tbl m 1 (ix1 r) : BitVec 32).toNat < 100000) :
    (W5 m ρ hO c (Proc.devRef .tc main_v10) : Vec Ideal S16384 .f32)
      = Cert.Spec.score (uid m c) (iid m c) (occ m c) (gen m c) (ue m c) (ub m c) (ie m c) (ib m c) (oe m c) (ob m c) (ge m c) (gb m c) := by
  funext i
  have e : i = ix1 (i 0) := eq_ix1 (n := 16384) i
  exact (congrArg (W5 m ρ hO c (Proc.devRef .tc main_v10)) e).trans (result_row m ρ hO c hu ht (i 0))

end Cert.KernelIdeal.Score

end
-- ==== Proof.LibGraphRead.lean ====
/-
  Reading the host's accumulating scatter and its row gather at ONE index, over the extended reals.

  A segment sum prints as a scatter-add whose indices are an [n × 1] column: update `e` (a scalar, or row `e` of an
  [n × C] array) is added at the row its index word names, read signed and NOT clamped, and is dropped when that row is
  outside the operand. So entry `v` of the result is the operand's entry plus the sum of the updates whose word is `v`.
  A row gather `X[idx]` reads, for position `e`, the row its word names, read signed and clamped into [0, N − 1].
  jnp first wraps a negative word by adding N; a word that lands on `v` is not negative, so wrap and clamp return `v`.
-/
import Idealize.ShloMosaic.PureOps.Ideal
import Idealize.ShloMosaic.Lib.ValueIdx
import Idealize.ShloMosaic.Lib.StableHlo.Predicate

noncomputable section

namespace Cert.GcnLib

open Idealize.ShloMosaic Idealize.ShloMosaic.ValueIdx

/-- The updates that land on row `v`: their index word, read signed, is `v`. -/
def landing {N n : ℕ} (idx : IVec ⟨2, ![n, 1]⟩ 32) (v : Fin N) : Finset (Fin n) :=
  Finset.univ.filter fun e : Fin n => (idx (ix2 e 0)).toInt = (v.val : Int)

/-- An update lands on operand index `i` exactly when, on every axis, its start plus its window coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro heq a
      have h1 := congrFun (Option.some.inj heq) a
      have h2 := congrArg Fin.val h1
      simp only at h2
      have := (h a).1
      omega
    · intro hall
      congr 1
      funext a
      apply Fin.ext
      simp only
      rw [hall a]
      simp
  · next h =>
    constructor
    · intro heq; cases heq
    · intro hall
      exfalso
      apply h
      intro a
      rw [hall a]
      exact ⟨Int.natCast_nonneg _, by exact_mod_cast (i a).isLt⟩

/-- A scatter-add into a rank-1 operand through a column of indices, read at entry `v`. -/
theorem scatterAdd_vec_apply {N n : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ 32) (u : (⟨1, ![n]⟩ : Shape).Idx → EReal) (v : Fin N) :
    Ideal.hostScatterAdd d x idx u (ix1 v) = x (ix1 v) + ∑ e ∈ landing idx v, u (ix1 e) := by
  have hm : (0 : Fin 1) ∈ d.scatterDimsToOperandDims := by rw [hsd]; exact List.mem_singleton.mpr rfl
  have hk : (0 : Fin 1) ∉ d.sKept := by
    simp [ScatterDims.sKept, Shape.kept, hiw]
  have hstart : ∀ j : (⟨1, ![n]⟩ : Shape).Idx, d.start j idx 0 = (idx (ix2 (j 0) 0)).toInt := by
    intro j
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  have hwin : ∀ j : (⟨1, ![n]⟩ : Shape).Idx, d.window j 0 = 0 := by
    intro j; unfold ScatterDims.window; rw [dif_neg hk]
  have hiff : ∀ j : (⟨1, ![n]⟩ : Shape).Idx, d.resultIdx? j idx = some (ix1 v) ↔ (idx (ix2 (j 0) 0)).toInt = (v.val : Int) := by
    intro j
    rw [resultIdx?_eq_some_iff]
    constructor
    · intro h
      have h0 : d.start j idx 0 + (d.window j 0 : Int) = (v.val : Int) := h 0
      rw [hstart, hwin] at h0
      simpa using h0
    · intro h a
      have ha0 : a = 0 := Subsingleton.elim _ _
      subst ha0
      show d.start j idx 0 + (d.window j 0 : Int) = (v.val : Int)
      rw [hstart, hwin, h]
      simp
  show x (ix1 v) + ∑ j ∈ Finset.univ.filter (fun j => d.resultIdx? j idx = some (ix1 v)), u j = _
  congr 1
  refine Finset.sum_bij' (fun j _ => j 0) (fun e _ => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg u (eq_ix1 j)

/-- A scatter-add of ROWS into an [N × C] operand through a column of indices, read at entry `(v, j)`. -/
theorem scatterAdd_rows_apply {N n C : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ 32) (u : (⟨2, ![n, C]⟩ : Shape).Idx → EReal)
    (v : Fin N) (j : Fin C) :
    Ideal.hostScatterAdd d x idx u (ix2 v j) = x (ix2 v j) + ∑ e ∈ landing idx v, u (ix2 e j) := by
  have hm : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by simp [ScatterDims.sKept, Shape.kept, hiw]
  have hk1 : (1 : Fin 2) ∈ d.sKept := by simp [ScatterDims.sKept, Shape.kept, hiw]
  have hstart0 : ∀ t : (⟨2, ![n, C]⟩ : Shape).Idx, d.start t idx 0 = (idx (ix2 (t 0) 0)).toInt := by
    intro t
    unfold ScatterDims.start
    rw [dif_pos hm]
    congr 2
    funext b
    match b with
    | ⟨0, _⟩ =>
      unfold ScatterDims.siIdx
      rw [dif_neg (by rw [hiv]; simp)]
      unfold ScatterDims.siCoord
      apply Fin.ext
      simp only [Fin.val_cast]
      have hX : ∀ X : Fin 2, X ∈ d.uScatter → (t X).val = (t 0).val := by
        intro X hX
        have h1 : X ∉ d.updateWindowDims := by simpa [ScatterDims.uScatter, Shape.kept] using hX
        rw [huw] at h1
        match X, h1 with
        | ⟨0, _⟩, _ => rfl
        | ⟨1, _⟩, h => exact absurd (List.mem_singleton.mpr rfl) h
      exact hX _ (List.getElem_mem _)
    | ⟨1, _⟩ =>
      unfold ScatterDims.siIdx
      rw [dif_pos (by rw [hiv])]
      apply Fin.ext
      show List.idxOf (0 : Fin 2) d.scatterDimsToOperandDims = 0
      rw [hsd]; simp
  have hstart1 : ∀ t : (⟨2, ![n, C]⟩ : Shape).Idx, d.start t idx 1 = 0 := by
    intro t; unfold ScatterDims.start; rw [dif_neg hm1]
  have hwin0 : ∀ t : (⟨2, ![n, C]⟩ : Shape).Idx, d.window t 0 = 0 := by
    intro t; unfold ScatterDims.window; rw [dif_neg hk0]
  have hl : ∀ (l : List (Fin 2)) (_ : l = [1]) (k : ℕ) (hk : k < l.length), l[k] = 1 := by
    intro l hl k hk; subst hl
    simp only [List.length_singleton, Nat.lt_one_iff] at hk
    subst hk; rfl
  have hwin1 : ∀ t : (⟨2, ![n, C]⟩ : Shape).Idx, d.window t 1 = (t 1).val := by
    intro t; unfold ScatterDims.window; rw [dif_pos hk1]
    rw [hl d.updateWindowDims huw]
  have hiff : ∀ t : (⟨2, ![n, C]⟩ : Shape).Idx,
      d.resultIdx? t idx = some (ix2 v j) ↔ (idx (ix2 (t 0) 0)).toInt = (v.val : Int) ∧ t 1 = j := by
    intro t
    rw [resultIdx?_eq_some_iff]
    constructor
    · intro h
      have h0 : d.start t idx 0 + (d.window t 0 : Int) = (v.val : Int) := h 0
      have h1 : d.start t idx 1 + (d.window t 1 : Int) = (j.val : Int) := h 1
      rw [hstart0, hwin0] at h0
      rw [hstart1, hwin1] at h1
      refine ⟨by simpa using h0, Fin.ext ?_⟩
      have h2 : ((t 1).val : Int) = (j.val : Int) := by simpa using h1
      exact_mod_cast h2
    · rintro ⟨h0, h1⟩ a
      match a with
      | ⟨0, _⟩ =>
        show d.start t idx 0 + (d.window t 0 : Int) = (v.val : Int)
        rw [hstart0, hwin0, h0]; simp
      | ⟨1, _⟩ =>
        show d.start t idx 1 + (d.window t 1 : Int) = (j.val : Int)
        rw [hstart1, hwin1, h1]; simp
  show x (ix2 v j) + ∑ t ∈ Finset.univ.filter (fun t => d.resultIdx? t idx = some (ix2 v j)), u t = _
  congr 1
  refine Finset.sum_bij' (fun t _ => t 0) (fun e _ => ix2 e j) ?_ ?_ ?_ ?_ ?_
  · intro t ht
    exact Finset.mem_filter.2 ⟨Finset.mem_univ _, ((hiff t).1 (Finset.mem_filter.1 ht).2).1⟩
  · intro e he
    exact Finset.mem_filter.2 ⟨Finset.mem_univ _, (hiff (ix2 e j)).2 ⟨(Finset.mem_filter.1 he).2, rfl⟩⟩
  · intro t ht
    have h1 := ((hiff t).1 (Finset.mem_filter.1 ht).2).2
    show ix2 (t 0) j = t
    rw [← h1]; exact (eq_ix2 t).symm
  · intro e _
    rfl
  · intro t ht
    have h1 := ((hiff t).1 (Finset.mem_filter.1 ht).2).2
    show u t = u (ix2 (t 0) j)
    rw [← h1]; exact congrArg u (eq_ix2 t)

/-- The row a gather reads for index word `w`: read signed, clamped into [0, N − 1]. -/
def clampRow (N : ℕ) (hN : 0 < N) (w : BitVec 32) : Fin N := ⟨min w.toInt.toNat (N - 1), by omega⟩

/-- A gather of entries of a rank-1 operand through a column of indices, read at position `e`
    (Lib/StableHlo/Predicate.lean `gather_take` with the row named). -/
theorem gather_vec_apply {α : Type} {N n : ℕ} (hN : 0 < N) (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ 32) (e : Fin n) :
    Host.gather d x idx (ix1 e) = x (ix1 (clampRow N hN (idx (ix2 e 0)))) := by
  have h1 : (ix1 e : (⟨1, ![n]⟩ : Shape).Idx) = Shape.Idx.ofFin e := by
    funext a; match a with | ⟨0, _⟩ => rfl
  have h2 : (ix2 e 0 : (⟨2, ![n, 1]⟩ : Shape).Idx) = StableHlo.Predicate.ixP e := by
    funext a; match a with | ⟨0, _⟩ => rfl | ⟨1, _⟩ => rfl
  rw [h1, h2, StableHlo.Predicate.gather_take d hcoll hob hsim hivd x idx e hN]
  congr 1
  funext a; match a with | ⟨0, _⟩ => rfl

/-- A gather of ROWS of an [N × C] operand through a column of indices, read at `(e, j)`. -/
theorem gather_rows_apply {α : Type} {N n C : ℕ} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ 32) (e : Fin n) (j : Fin C) :
    Host.gather d x idx (ix2 e j) = x (ix2 (clampRow N hN (idx (ix2 e 0))) j) := by
  unfold Host.gather
  congr 1
  funext a
  apply Fin.ext
  have hb : ∀ a, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ix2 e 0)).toInt.toNat (N - 1)
    rw [GatherDims.batchCoord_eq_zero _ _ _ (hb _), GatherDims.offCoord_eq_zero _ _ _ hk]
    simp only [Nat.add_zero]
    unfold GatherDims.start
    rw [dif_pos hm]
    have hsi : d.siIdx (ix2 e j) ⟨List.idxOf (0 : Fin 2) d.startIndexMap, List.idxOf_lt_length_iff.2 hm⟩ = ix2 e 0 := by
      funext b
      match b with
      | ⟨0, _⟩ =>
        unfold GatherDims.siIdx
        rw [dif_neg (by rw [hivd]; simp)]
        unfold GatherDims.siCoord
        apply Fin.ext
        simp only [Fin.val_cast]
        have hX : ∀ X : Fin 2, X ∈ d.batchDims → ((ix2 e j : (⟨2, ![n, C]⟩ : Shape).Idx) X).val = e.val := by
          intro X hX
          have h1 : X ∉ d.offsetDims := by simpa [GatherDims.batchDims, Shape.kept] using hX
          rw [hoff] at h1
          match X, h1 with
          | ⟨0, _⟩, _ => rfl
          | ⟨1, _⟩, h => exact absurd (List.mem_singleton.mpr rfl) h
        exact hX _ (List.getElem_mem _)
      | ⟨1, _⟩ =>
        unfold GatherDims.siIdx
        rw [dif_pos (by rw [hivd])]
        apply Fin.ext
        show List.idxOf (0 : Fin 2) d.startIndexMap = 0
        rw [hsim]; simp
    rw [hsi]
    show min (idx (ix2 e 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb _)]
    unfold GatherDims.start
    rw [dif_neg hm]
    unfold GatherDims.offCoord
    rw [dif_pos hk]
    simp only [Nat.zero_add, Nat.add_zero]
    have hl : ∀ (l : List (Fin 2)) (_ : l = [1]) (k : ℕ) (hk : k < l.length), l[k] = 1 := by
      intro l hl k hk; subst hl
      simp only [List.length_singleton, Nat.lt_one_iff] at hk
      subst hk; rfl
    rw [hl d.offsetDims hoff]

/-- jnp's wrap of a negative index word: `select (w < 0) (w + N) w`, on one word. -/
def wrapWord (N : BitVec 32) (w : BitVec 32) : BitVec 32 :=
  Scalar.select (Scalar.cmpi .slt w 0#32) (IntOp.addi w N) w

/-- A word that lands on row `v` (read signed it is `v`, and `v < N`) is left alone by the wrap and by the clamp. -/
theorem clampRow_wrapWord_of_lands {N : ℕ} (hN : 0 < N) (hN31 : N < 2 ^ 31) (w : BitVec 32) (v : Fin N)
    (h : w.toInt = (v.val : Int)) : clampRow N hN (wrapWord (BitVec.ofNat 32 N) w) = v := by
  have hslt : w.slt 0#32 = false := by
    simp [BitVec.slt, h]
  have hw : wrapWord (BitVec.ofNat 32 N) w = w := by
    unfold wrapWord Scalar.cmpi IntOp.cmpi
    simp only [hslt]
    exact select_zero _ _
  rw [hw]
  apply Fin.ext
  show min w.toInt.toNat (N - 1) = v.val
  rw [h]
  have := v.isLt
  simp only [Int.toNat_natCast]
  omega

end Cert.GcnLib

end
-- ==== Proof.RefValueGather.lean ====
/-
  The six row gathers of the reference, read at one entry.

  jnp's  table[idx]  prints as: wrap a negative index word by adding the table's height N, lay the words out as a
  [16384, 1] column, and gather one row per position, the start index read signed and clamped into [0, N − 1]. A word
  that, read unsigned, is below N (and N is below 2³¹) is not negative, so neither the wrap nor the clamp moves it: the
  gather returns the row the word names, which is the specification's `row`.
-/
import proofs.«428560_j76630806495462_2_alg».proof.Proof.Gen.ReferenceIdeal.Read
import proofs.«428560_j76630806495462_2_alg».proof.Proof.Spec
import proofs.«428560_j76630806495462_2_alg».proof.Proof.LibGraphRead

noncomputable section

namespace Cert.ReferenceIdeal.RefValue

open Cert.ReferenceIdeal Cert.ReferenceIdeal.Gen Cert.ReferenceIdeal.Read Idealize.ShloMosaic Idealize.ShloMosaic.ValueIdx

/-- A 32-bit word below N < 2³¹, read signed, is its unsigned value. -/
theorem toInt_of_lt {N : ℕ} (hN31 : N < 2 ^ 31) (w : BitVec 32) (h : w.toNat < N) : w.toInt = (w.toNat : Int) := by
  unfold BitVec.toInt
  rw [if_pos (by omega)]

/-- A row gather through a wrapped index column, at a word inside the table, reads the row that word names. -/
theorem gather_row {N K : ℕ} (hN : 0 < N) (hN31 : N < 2 ^ 31)
    (g : GatherDims ⟨2, ![N, K]⟩ ⟨2, ![16384, 1]⟩ ⟨2, ![16384, K]⟩)
    (hoff : g.offsetDims = [1]) (hcoll : g.collapsedSliceDims = [0]) (hob : g.operandBatchingDims = [])
    (hsb : g.startIndicesBatchingDims = []) (hsim : g.startIndexMap = [0]) (hivd : g.indexVectorDim = 1)
    (hss : g.sliceSizes = ![1, K])
    (x : FVec Ideal (Cert.Spec.Tab N K) .f32) (col : IVec ⟨2, ![16384, 1]⟩ 32) (w : BitVec 32)
    (r : Fin 16384) (j : Fin K)
    (hcol : col (ix2 r 0) = Cert.GcnLib.wrapWord (BitVec.ofNat 32 N) w) (hw : w.toNat < N) :
    Host.gather g x col (ix2 r j) = Cert.Spec.row x w j := by
  rw [Cert.GcnLib.gather_rows_apply hN g hoff hcoll hob hsb hsim hivd hss x col r j, hcol,
    Cert.GcnLib.clampRow_wrapWord_of_lands hN hN31 w ⟨w.toNat, hw⟩ (toInt_of_lt hN31 w hw),
    Cert.Spec.row_of_lt x w j hw]

/-! The six index columns at position r: the wrapped index word. -/

theorem col5_apply (a0 : IVec S16384 32) (r : Fin 16384) :
    val_main_v5 (F := Ideal) a0 (ix2 r 0) = Cert.GcnLib.wrapWord 1000000#32 (a0 (ix1 r)) := by
  have e : idx_main_v5 (ix2 r 0) = ix1 r := funext fun a => by match a with | ⟨0, _⟩ => rfl
  rw [val_main_v5_apply, e, val_main_v4_apply, val_main_v1_apply, val_main_v3_apply, val_main_v0_apply, val_main_v2_apply, val_main_c_apply, val_main_c_0_apply]
  rfl

theorem col12_apply (a0 : IVec S16384 32) (r : Fin 16384) :
    val_main_v12 (F := Ideal) a0 (ix2 r 0) = Cert.GcnLib.wrapWord 1000000#32 (a0 (ix1 r)) := by
  have e : idx_main_v12 (ix2 r 0) = ix1 r := funext fun a => by match a with | ⟨0, _⟩ => rfl
  rw [val_main_v12_apply, e, val_main_v11_apply, val_main_v8_apply, val_main_v10_apply, val_main_v7_apply, val_main_v9_apply, val_main_c_1_apply, val_main_c_2_apply]
  rfl

theorem col20_apply (a1 : IVec S16384 32) (r : Fin 16384) :
    val_main_v20 (F := Ideal) a1 (ix2 r 0) = Cert.GcnLib.wrapWord 100000#32 (a1 (ix1 r)) := by
  have e : idx_main_v20 (ix2 r 0) = ix1 r := funext fun a => by match a with | ⟨0, _⟩ => rfl
  rw [val_main_v20_apply, e, val_main_v19_apply, val_main_v16_apply, val_main_v18_apply, val_main_v15_apply, val_main_v17_apply, val_main_c_3_apply, val_main_c_4_apply]
  rfl

theorem col27_apply (a1 : IVec S16384 32) (r : Fin 16384) :
    val_main_v27 (F := Ideal) a1 (ix2 r 0) = Cert.GcnLib.wrapWord 100000#32 (a1 (ix1 r)) := by
  have e : idx_main_v27 (ix2 r 0) = ix1 r := funext fun a => by match a with | ⟨0, _⟩ => rfl
  rw [val_main_v27_apply, e, val_main_v26_apply, val_main_v23_apply, val_main_v25_apply, val_main_v22_apply, val_main_v24_apply, val_main_c_5_apply, val_main_c_6_apply]
  rfl

theorem col35_apply (a2 : IVec S16384 32) (r : Fin 16384) :
    val_main_v35 (F := Ideal) a2 (ix2 r 0) = Cert.GcnLib.wrapWord 21#32 (a2 (ix1 r)) := by
  have e : idx_main_v35 (ix2 r 0) = ix1 r := funext fun a => by match a with | ⟨0, _⟩ => rfl
  rw [val_main_v35_apply, e, val_main_v34_apply, val_main_v31_apply, val_main_v33_apply, val_main_v30_apply, val_main_v32_apply, val_main_c_7_apply, val_main_c_8_apply]
  rfl

theorem col42_apply (a2 : IVec S16384 32) (r : Fin 16384) :
    val_main_v42 (F := Ideal) a2 (ix2 r 0) = Cert.GcnLib.wrapWord 21#32 (a2 (ix1 r)) := by
  have e : idx_main_v42 (ix2 r 0) = ix1 r := funext fun a => by match a with | ⟨0, _⟩ => rfl
  rw [val_main_v42_apply, e, val_main_v41_apply, val_main_v38_apply, val_main_v40_apply, val_main_v37_apply, val_main_v39_apply, val_main_c_9_apply, val_main_c_10_apply]
  rfl

/-! The gathers. -/

/-- Entry d of the user embedding row of batch row r. -/
theorem userRow_apply (a0 : IVec S16384 32) (a4 : FVec Ideal S1000000x64 .f32) (r : Fin 16384) (d : Fin 64)
    (h : (a0 (ix1 r)).toNat < 1000000) :
    val_main_v6 (F := Ideal) a0 a4 (ix2 r d) = Cert.Spec.row a4 (a0 (ix1 r)) d := by
  unfold val_main_v6
  exact gather_row (by norm_num) (by norm_num) _ rfl rfl rfl rfl rfl rfl rfl a4 _ _ r d (col5_apply a0 r) h

/-- The user bias of batch row r, still as a one-entry row. -/
theorem userBiasCol_apply (a0 : IVec S16384 32) (a5 : FVec Ideal S1000000x1 .f32) (r : Fin 16384) (d : Fin 1)
    (h : (a0 (ix1 r)).toNat < 1000000) :
    val_main_v13 (F := Ideal) a0 a5 (ix2 r d) = Cert.Spec.row a5 (a0 (ix1 r)) d := by
  unfold val_main_v13
  exact gather_row (by norm_num) (by norm_num) _ rfl rfl rfl rfl rfl rfl rfl a5 _ _ r d (col12_apply a0 r) h

/-- Entry d of the item embedding row of batch row r. -/
theorem itemRow_apply (a1 : IVec S16384 32) (a6 : FVec Ideal S100000x64 .f32) (r : Fin 16384) (d : Fin 64)
    (h : (a1 (ix1 r)).toNat < 100000) :
    val_main_v21 (F := Ideal) a1 a6 (ix2 r d) = Cert.Spec.row a6 (a1 (ix1 r)) d := by
  unfold val_main_v21
  exact gather_row (by norm_num) (by norm_num) _ rfl rfl rfl rfl rfl rfl rfl a6 _ _ r d (col20_apply a1 r) h

/-- The item bias of batch row r, still as a one-entry row. -/
theorem itemBiasCol_apply (a1 : IVec S16384 32) (a7 : FVec Ideal S100000x1 .f32) (r : Fin 16384) (d : Fin 1)
    (h : (a1 (ix1 r)).toNat < 100000) :
    val_main_v28 (F := Ideal) a1 a7 (ix2 r d) = Cert.Spec.row a7 (a1 (ix1 r)) d := by
  unfold val_main_v28
  exact gather_row (by norm_num) (by norm_num) _ rfl rfl rfl rfl rfl rfl rfl a7 _ _ r d (col27_apply a1 r) h

/-- Entry d of the occupation embedding row of batch row r. -/
theorem occRow_apply (a2 : IVec S16384 32) (a8 : FVec Ideal S21x64 .f32) (r : Fin 16384) (d : Fin 64)
    (h : (a2 (ix1 r)).toNat < 21) :
    val_main_v36 (F := Ideal) a2 a8 (ix2 r d) = Cert.Spec.row a8 (a2 (ix1 r)) d := by
  unfold val_main_v36
  exact gather_row (by norm_num) (by norm_num) _ rfl rfl rfl rfl rfl rfl rfl a8 _ _ r d (col35_apply a2 r) h

/-- The occupation bias of batch row r, still as a one-entry row. -/
theorem occBiasCol_apply (a2 : IVec S16384 32) (a9 : FVec Ideal S21x1 .f32) (r : Fin 16384) (d : Fin 1)
    (h : (a2 (ix1 r)).toNat < 21) :
    val_main_v43 (F := Ideal) a2 a9 (ix2 r d) = Cert.Spec.row a9 (a2 (ix1 r)) d := by
  unfold val_main_v43
  exact gather_row (by norm_num) (by norm_num) _ rfl rfl rfl rfl rfl rfl rfl a9 _ _ r d (col42_apply a2 r) h

/-! The three biases after the reshape to a vector. -/

/-- The user bias of batch row r. -/
theorem userBias_apply (a0 : IVec S16384 32) (a5 : FVec Ideal S1000000x1 .f32) (r : Fin 16384)
    (h : (a0 (ix1 r)).toNat < 1000000) :
    val_main_v14 (F := Ideal) a0 a5 (ix1 r) = Cert.Spec.row a5 (a0 (ix1 r)) 0 := by
  have e : idx_main_v14 (ix1 r) = ix2 r 0 := funext fun a => by
    match a with
    | ⟨0, _⟩ => exact Fin.ext (Nat.div_one _)
    | ⟨1, _⟩ => rfl
  rw [val_main_v14_apply, e]
  exact userBiasCol_apply a0 a5 r 0 h

/-- The item bias of batch row r. -/
theorem itemBias_apply (a1 : IVec S16384 32) (a7 : FVec Ideal S100000x1 .f32) (r : Fin 16384)
    (h : (a1 (ix1 r)).toNat < 100000) :
    val_main_v29 (F := Ideal) a1 a7 (ix1 r) = Cert.Spec.row a7 (a1 (ix1 r)) 0 := by
  have e : idx_main_v29 (ix1 r) = ix2 r 0 := funext fun a => by
    match a with
    | ⟨0, _⟩ => exact Fin.ext (Nat.div_one _)
    | ⟨1, _⟩ => rfl
  rw [val_main_v29_apply, e]
  exact itemBiasCol_apply a1 a7 r 0 h

/-- The occupation bias of batch row r. -/
theorem occBias_apply (a2 : IVec S16384 32) (a9 : FVec Ideal S21x1 .f32) (r : Fin 16384)
    (h : (a2 (ix1 r)).toNat < 21) :
    val_main_v44 (F := Ideal) a2 a9 (ix1 r) = Cert.Spec.row a9 (a2 (ix1 r)) 0 := by
  have e : idx_main_v44 (ix1 r) = ix2 r 0 := funext fun a => by
    match a with
    | ⟨0, _⟩ => exact Fin.ext (Nat.div_one _)
    | ⟨1, _⟩ => rfl
  rw [val_main_v44_apply, e]
  exact occBiasCol_apply a2 a9 r 0 h

end Cert.ReferenceIdeal.RefValue

end
-- ==== Proof.RefValueGenre.lean ====
/-
  The two genre means of the reference, read at one batch row.

  The reference turns a row's 18 genre words into the 0/1 mask  [word ≠ 0]  (a comparison with zero, converted to a
  float), multiplies the mask into genre_emb (18 × 64) and into genre_b (18 × 1), sums the products, and divides by the
  number of set genres: times the embedding width 64 for the embedding mean, times the constant one for the bias mean.
  Read at row r these are the specification's `gmean` and `bmean` of that row's genre words.
-/
import proofs.«428560_j76630806495462_2_alg».proof.Proof.Gen.ReferenceIdeal.Read
import proofs.«428560_j76630806495462_2_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- The comparison of a word with zero, converted to a float, is the indicator of a nonzero word. -/
theorem uitofp_ne_zero (w : BitVec 32) :
    (FloatOps.uitofp (F := Ideal) .f32 (IntOp.cmpi .ne w 0#32) : EReal) = Cert.Spec.ind w := by
  show (((IntOp.cmpi .ne w 0#32).toNat : ℝ) : EReal) = Cert.Spec.ind w
  unfold Cert.Spec.ind IntOp.cmpi
  by_cases h : w = 0#32
  · subst h; simp
  · simp [h]

/-- The reduce's initial value, the zero word, is zero. -/
theorem zero_word : (FloatOps.ofBits (F := Ideal) .f32 0x00000000#32 : EReal) = 0 := Ideal.ofBits_zero_f32

/-- The constant one. -/
theorem one_word : (FloatOps.ofBits (F := Ideal) .f32 0x3F800000#32 : EReal) = 1 := Ideal.ofBits_one_f32

/-- The first mask at (r, k). -/
theorem mask47_apply (a3 : IVec S16384x18 32) (r : Fin 16384) (k : Fin 18) :
    val_main_v47 (F := Ideal) a3 (ix2 r k) = Cert.Spec.ind (a3 (ix2 r k)) := by
  rw [val_main_v47_apply, val_main_v46_apply, val_main_v45_apply, val_main_c_11_apply]
  exact uitofp_ne_zero _

/-- The second mask at (r, k). -/
theorem mask56_apply (a3 : IVec S16384x18 32) (r : Fin 16384) (k : Fin 18) :
    val_main_v56 (F := Ideal) a3 (ix2 r k) = Cert.Spec.ind (a3 (ix2 r k)) := by
  rw [val_main_v56_apply, val_main_v55_apply, val_main_v54_apply, val_main_c_14_apply]
  exact uitofp_ne_zero _

/-- Row r's count of set genres, first copy. -/
theorem cnt50_apply (a3 : IVec S16384x18 32) (r : Fin 16384) :
    val_main_v50 (F := Ideal) a3 (ix1 r) = Cert.Spec.cnt (fun k => a3 (ix2 r k)) := by
  rw [val_main_v50_apply, val_main_cst_12_apply, zero_word, zero_add]
  unfold Cert.Spec.cnt
  refine Finset.sum_congr rfl fun k _ => ?_
  have e : idx_main_v50 (ix1 r) k = ix2 r k := funext fun a => by match a with | ⟨0, _⟩ => rfl | ⟨1, _⟩ => rfl
  rw [e, mask47_apply]

/-- Row r's count of set genres, second copy. -/
theorem cnt59_apply (a3 : IVec S16384x18 32) (r : Fin 16384) :
    val_main_v59 (F := Ideal) a3 (ix1 r) = Cert.Spec.cnt (fun k => a3 (ix2 r k)) := by
  rw [val_main_v59_apply, val_main_cst_16_apply, zero_word, zero_add]
  unfold Cert.Spec.cnt
  refine Finset.sum_congr rfl fun k _ => ?_
  have e : idx_main_v59 (ix1 r) k = ix2 r k := funext fun a => by match a with | ⟨0, _⟩ => rfl | ⟨1, _⟩ => rfl
  rw [e, mask56_apply]

/-- The masked sum of genre_emb over all genres and all 64 entries, at row r. -/
theorem tot49_apply (a3 : IVec S16384x18 32) (a10 : FVec Ideal S18x64 .f32) (r : Fin 16384) :
    val_main_v49 (F := Ideal) a3 a10 (ix1 r)
      = ∑ d : Fin 64, ∑ k : Fin 18, Cert.Spec.ind (a3 (ix2 r k)) * a10 (ix2 k d) := by
  rw [val_main_v49_apply, val_main_cst_apply, zero_word, zero_add]
  refine Finset.sum_congr rfl fun d _ => ?_
  have e : idx_main_v49 (ix1 r) d = ix2 r d := funext fun a => by match a with | ⟨0, _⟩ => rfl | ⟨1, _⟩ => rfl
  rw [e, val_main_v48_apply]
  refine Finset.sum_congr rfl fun k _ => ?_
  have el : lidx_main_v48 (ix2 r d) k = ix2 r k := funext fun a => by match a with | ⟨0, _⟩ => rfl | ⟨1, _⟩ => rfl
  have er : ridx_main_v48 (ix2 r d) k = ix2 k d := funext fun a => by match a with | ⟨0, _⟩ => rfl | ⟨1, _⟩ => rfl
  rw [el, er, mask47_apply]

/-- The masked sum of genre_b over all genres, at row r. -/
theorem tot58_apply (a3 : IVec S16384x18 32) (a11 : FVec Ideal S18x1 .f32) (r : Fin 16384) :
    val_main_v58 (F := Ideal) a3 a11 (ix1 r)
      = ∑ k : Fin 18, Cert.Spec.ind (a3 (ix2 r k)) * a11 (ix2 k 0) := by
  rw [val_main_v58_apply, val_main_cst_15_apply, zero_word, zero_add, Fin.sum_univ_one]
  have e : idx_main_v58 (ix1 r) 0 = ix2 r 0 := funext fun a => by match a with | ⟨0, _⟩ => rfl | ⟨1, _⟩ => rfl
  rw [e, val_main_v57_apply]
  refine Finset.sum_congr rfl fun k _ => ?_
  have el : lidx_main_v57 (ix2 r 0) k = ix2 r k := funext fun a => by match a with | ⟨0, _⟩ => rfl | ⟨1, _⟩ => rfl
  have er : ridx_main_v57 (ix2 r 0) k = ix2 k 0 := funext fun a => by match a with | ⟨0, _⟩ => rfl | ⟨1, _⟩ => rfl
  rw [el, er, mask56_apply]

/-- The embedding mean at row r is the specification's. -/
theorem gmean_apply (a3 : IVec S16384x18 32) (a10 : FVec Ideal S18x64 .f32) (r : Fin 16384) :
    val_main_v53 (F := Ideal) a3 a10 (ix1 r) = Cert.Spec.gmean (fun k => a3 (ix2 r k)) a10 := by
  rw [val_main_v53_apply, val_main_v52_apply, val_main_v51_apply, val_main_cst_13_apply, tot49_apply, cnt50_apply]
  rfl

/-- The bias mean at row r is the specification's: the divisor's factor one drops. -/
theorem bmean_apply (a3 : IVec S16384x18 32) (a11 : FVec Ideal S18x1 .f32) (r : Fin 16384) :
    val_main_v62 (F := Ideal) a3 a11 (ix1 r) = Cert.Spec.bmean (fun k => a3 (ix2 r k)) a11 := by
  rw [val_main_v62_apply, val_main_v61_apply, val_main_v60_apply, val_main_cst_17_apply, tot58_apply, cnt59_apply,
    one_word]
  show Ideal.div _ (_ * 1) = _
  rw [mul_one]
  rfl

end Cert.ReferenceIdeal.RefValue

end
-- ==== Proof.RefValue.lean ====
/-
  The reference's result is the specification's score.

  Read at batch row r, the reference adds, in this order: the product sum of the user and item rows, the product sum
  of the occupation and user rows, the embedding mean of the row's genres times the sum of the item row, the user,
  item and occupation biases, and the bias mean of the row's genres. Each sum is the host's reduce from the zero word,
  each row a gather the index ranges keep inside its table; these are the seven summands of `Cert.Spec.refSum`.
-/
import proofs.«428560_j76630806495462_2_alg».proof.Proof.RefValueGather
import proofs.«428560_j76630806495462_2_alg».proof.Proof.RefValueGenre

noncomputable section

open scoped BigOperators

namespace Cert.ReferenceIdeal.RefValue

open Cert.ReferenceIdeal Cert.ReferenceIdeal.Gen Cert.ReferenceIdeal.Read Idealize.ShloMosaic Idealize.ShloMosaic.ValueIdx

/-- The product sum of the user row and the item row of batch row r. -/
theorem dotUserItem_apply (a0 a1 : IVec S16384 32) (a4 : FVec Ideal S1000000x64 .f32) (a6 : FVec Ideal S100000x64 .f32)
    (r : Fin 16384) (hu : (a0 (ix1 r)).toNat < 1000000) (ht : (a1 (ix1 r)).toNat < 100000) :
    val_main_v64 (F := Ideal) a0 a1 a4 a6 (ix1 r)
      = ∑ d : Fin 64, Cert.Spec.row a4 (a0 (ix1 r)) d * Cert.Spec.row a6 (a1 (ix1 r)) d := by
  rw [val_main_v64_apply, val_main_cst_18_apply, zero_word, zero_add]
  refine Finset.sum_congr rfl fun d _ => ?_
  have e : idx_main_v64 (ix1 r) d = ix2 r d := funext fun a => by match a with | ⟨0, _⟩ => rfl | ⟨1, _⟩ => rfl
  rw [e, val_main_v63_apply, userRow_apply a0 a4 r d hu, itemRow_apply a1 a6 r d ht]
  rfl

/-- The product sum of the occupation row and the user row of batch row r. -/
theorem dotOccUser_apply (a0 a2 : IVec S16384 32) (a4 : FVec Ideal S1000000x64 .f32) (a8 : FVec Ideal S21x64 .f32)
    (r : Fin 16384) (hu : (a0 (ix1 r)).toNat < 1000000) (ho : (a2 (ix1 r)).toNat < 21) :
    val_main_v66 (F := Ideal) a0 a2 a4 a8 (ix1 r)
      = ∑ d : Fin 64, Cert.Spec.row a8 (a2 (ix1 r)) d * Cert.Spec.row a4 (a0 (ix1 r)) d := by
  rw [val_main_v66_apply, val_main_cst_19_apply, zero_word, zero_add]
  refine Finset.sum_congr rfl fun d _ => ?_
  have e : idx_main_v66 (ix1 r) d = ix2 r d := funext fun a => by match a with | ⟨0, _⟩ => rfl | ⟨1, _⟩ => rfl
  rw [e, val_main_v65_apply, occRow_apply a2 a8 r d ho, userRow_apply a0 a4 r d hu]
  rfl

/-- The sum of the item row of batch row r. -/
theorem sumItem_apply (a1 : IVec S16384 32) (a6 : FVec Ideal S100000x64 .f32)
    (r : Fin 16384) (ht : (a1 (ix1 r)).toNat < 100000) :
    val_main_v68 (F := Ideal) a1 a6 (ix1 r) = ∑ d : Fin 64, Cert.Spec.row a6 (a1 (ix1 r)) d := by
  rw [val_main_v68_apply, val_main_cst_20_apply, zero_word, zero_add]
  refine Finset.sum_congr rfl fun d _ => ?_
  have e : idx_main_v68 (ix1 r) d = ix2 r d := funext fun a => by match a with | ⟨0, _⟩ => rfl | ⟨1, _⟩ => rfl
  rw [e, itemRow_apply a1 a6 r d ht]

/-- Under the index ranges the reference computes the specification's score. -/
theorem ref_eq (a0 a1 a2 : IVec S16384 32) (a3 : IVec S16384x18 32) (a4 : FVec Ideal S1000000x64 .f32)
    (a5 : FVec Ideal S1000000x1 .f32) (a6 : FVec Ideal S100000x64 .f32) (a7 : FVec Ideal S100000x1 .f32)
    (a8 : FVec Ideal S21x64 .f32) (a9 : FVec Ideal S21x1 .f32) (a10 : FVec Ideal S18x64 .f32)
    (a11 : FVec Ideal S18x1 .f32)
    (hu : ∀ r : Fin 16384, (a0 (ix1 r)).toNat < 1000000) (ht : ∀ r : Fin 16384, (a1 (ix1 r)).toNat < 100000)
    (ho : ∀ r : Fin 16384, (a2 (ix1 r)).toNat < 21) :
    val_main_v74 (F := Ideal) a0 a1 a2 a3 a4 a5 a6 a7 a8 a9 a10 a11
      = Cert.Spec.score a0 a1 a2 a3 a4 a5 a6 a7 a8 a9 a10 a11 := by
  funext i
  obtain ⟨r, rfl⟩ : ∃ r : Fin 16384, i = ix1 r := ⟨i 0, eq_ix1 i⟩
  rw [val_main_v74_apply, val_main_v73_apply, val_main_v72_apply, val_main_v71_apply, val_main_v70_apply,
    val_main_v67_apply, val_main_v69_apply, bmean_apply, occBias_apply a2 a9 r (ho r), itemBias_apply a1 a7 r (ht r),
    userBias_apply a0 a5 r (hu r), gmean_apply, sumItem_apply a1 a6 r (ht r),
    dotOccUser_apply a0 a2 a4 a8 r (hu r) (ho r), dotUserItem_apply a0 a1 a4 a6 r (hu r) (ht r)]
  rfl

end Cert.ReferenceIdeal.RefValue

end
-- ==== Proof.lean ====
/-
  The certificate of a matrix-factorization score: a kernel program of two calls against a jnp reference.

  Per batch row r (16384 rows), with u = user_id[r], t = item_id[r], o = occupation[r], Q, I, O the rows u, t, o of
  user_emb, item_emb, occ_emb and mask k = [genre[r, k] ≠ 0]:

      score r = Σ_d Q_d I_d + Σ_d O_d Q_d + g · Σ_d I_d + user_b[u] + item_b[t] + occ_b[o] + bg,
      g = (Σ_d Σ_k mask k · genre_emb[k, d]) / (cnt · 64),  bg = (Σ_k mask k · genre_b[k]) / cnt,  cnt = Σ_k mask k.

  The kernel's first call gathers rows u and t through two prefetched index tables, one grid point per batch row, and
  leaves Q, Σ_d Q_d I_d + user_b[u] + item_b[t] and Σ_d I_d; its second call, one grid point per 2048 rows, selects
  the occupation row by a one-hot product, forms g and bg by mask products and adds the remaining summands. The
  reference indexes the tables directly. Under the precondition's index ranges (every index word names a row of its
  table) the one-hot product is the selected row and every gathered block lies inside its array; the two programs
  then add the same seven summands in two orders, equal because addition of extended reals is commutative and
  associative. A row with no genre set divides the same terms by the same zero count on both sides.

  The frames: each kernel program is run as five items (reshapes, first call, reshapes, second call, reshape) with
  every buffer's contents named at each boundary; no item writes an argument. The reference's frame is its run.
  The idealization rewrote nothing, so it preserves the kernel with nothing to show.
-/
import proofs.«428560_j76630806495462_2_alg».proof.Defs
import proofs.«428560_j76630806495462_2_alg».proof.Proof.Gen.Kernel
import proofs.«428560_j76630806495462_2_alg».proof.Proof.Gen.KernelIdeal
import proofs.«428560_j76630806495462_2_alg».proof.Proof.Gen.ReferenceIdeal
import proofs.«428560_j76630806495462_2_alg».proof.Proof.Gen.Pre_finite_inputs
import proofs.«428560_j76630806495462_2_alg».proof.Proof.Gen.ReferenceIdeal.Run
import proofs.«428560_j76630806495462_2_alg».proof.Proof.Gen.ReferenceIdeal.Read
import proofs.«428560_j76630806495462_2_alg».proof.Proof.Frames
import proofs.«428560_j76630806495462_2_alg».proof.Proof.KIScore
import proofs.«428560_j76630806495462_2_alg».proof.Proof.RefValue

noncomputable section

namespace Cert.Proof

open Idealize.ShloMosaic Idealize.ShloMosaic.TcCoe Idealize.SL.Sem

/-- Run from memories that agree on the arguments, the kernel program and the reference both end, the arguments
    unchanged, with the same vector: the batch's scores. -/
theorem algebraic : Cert.algebraic_KernelIdeal_ReferenceIdeal := by
  intro m ρ m' ρ' hpre hagree
  have hr := Cert.KernelIdeal.Hand.ranges_of_pre m hpre
  have hO : Cert.KernelIdeal.Hand.Ok m := Cert.KernelIdeal.Hand.ok_of_pre m hpre
  refine ⟨fun c => Cert.Spec.score (Cert.KernelIdeal.Score.uid m c) (Cert.KernelIdeal.Score.iid m c) (Cert.KernelIdeal.Score.occ m c)
      (Cert.KernelIdeal.Score.gen m c) (Cert.KernelIdeal.Score.ue m c) (Cert.KernelIdeal.Score.ub m c) (Cert.KernelIdeal.Score.ie m c)
      (Cert.KernelIdeal.Score.ib m c) (Cert.KernelIdeal.Score.oe m c) (Cert.KernelIdeal.Score.ob m c) (Cert.KernelIdeal.Score.ge m c)
      (Cert.KernelIdeal.Score.gb m c), ?_, ?_⟩
  · exact (θ_run (Cert.KernelIdeal.defs (F := Ideal)) _ _).mono (fun r h c => ⟨
      (h c _ (Cert.KernelIdeal.Hand.mem_uc Cert.KernelIdeal.main_v10 (by decide))).trans
        (Cert.KernelIdeal.Score.result_eq m ρ hO c hr.1 hr.2.1),
      (h c _ (Cert.KernelIdeal.Hand.mem_uc Cert.KernelIdeal.main_arg0 (by decide))).trans (Cert.KernelIdeal.Hand.W5_main_arg0 m ρ hO c),
      (h c _ (Cert.KernelIdeal.Hand.mem_uc Cert.KernelIdeal.main_arg1 (by decide))).trans (Cert.KernelIdeal.Hand.W5_main_arg1 m ρ hO c),
      (h c _ (Cert.KernelIdeal.Hand.mem_uc Cert.KernelIdeal.main_arg2 (by decide))).trans (Cert.KernelIdeal.Hand.W5_main_arg2 m ρ hO c),
      (h c _ (Cert.KernelIdeal.Hand.mem_uc Cert.KernelIdeal.main_arg3 (by decide))).trans (Cert.KernelIdeal.Hand.W5_main_arg3 m ρ hO c),
      (h c _ (Cert.KernelIdeal.Hand.mem_uc Cert.KernelIdeal.main_arg4 (by decide))).trans (Cert.KernelIdeal.Hand.W5_main_arg4 m ρ hO c),
      (h c _ (Cert.KernelIdeal.Hand.mem_uc Cert.KernelIdeal.main_arg5 (by decide))).trans (Cert.KernelIdeal.Hand.W5_main_arg5 m ρ hO c),
      (h c _ (Cert.KernelIdeal.Hand.mem_uc Cert.KernelIdeal.main_arg6 (by decide))).trans (Cert.KernelIdeal.Hand.W5_main_arg6 m ρ hO c),
      (h c _ (Cert.KernelIdeal.Hand.mem_uc Cert.KernelIdeal.main_arg7 (by decide))).trans (Cert.KernelIdeal.Hand.W5_main_arg7 m ρ hO c),
      (h c _ (Cert.KernelIdeal.Hand.mem_uc Cert.KernelIdeal.main_arg8 (by decide))).trans (Cert.KernelIdeal.Hand.W5_main_arg8 m ρ hO c),
      (h c _ (Cert.KernelIdeal.Hand.mem_uc Cert.KernelIdeal.main_arg9 (by decide))).trans (Cert.KernelIdeal.Hand.W5_main_arg9 m ρ hO c),
      (h c _ (Cert.KernelIdeal.Hand.mem_uc Cert.KernelIdeal.main_arg10 (by decide))).trans (Cert.KernelIdeal.Hand.W5_main_arg10 m ρ hO c),
      (h c _ (Cert.KernelIdeal.Hand.mem_uc Cert.KernelIdeal.main_arg11 (by decide))).trans (Cert.KernelIdeal.Hand.W5_main_arg11 m ρ hO c)⟩)
      (Cert.KernelIdeal.Hand.run m ρ hO)
  · refine (θ_run Cert.ReferenceIdeal.defs _ _).mono (fun _ h c => ⟨?_, (h c).2⟩)
      (Cert.ReferenceIdeal.Value.run (F := Ideal) m' ρ')
    obtain rfl : c = 0 := Subsingleton.elim _ _
    rw [(h 0).1, Cert.ReferenceIdeal.Read.val_main_v74_eq,
      (hagree 0).1, (hagree 0).2.1, (hagree 0).2.2.1, (hagree 0).2.2.2.1, (hagree 0).2.2.2.2.1, (hagree 0).2.2.2.2.2.1,
      (hagree 0).2.2.2.2.2.2.1, (hagree 0).2.2.2.2.2.2.2.1, (hagree 0).2.2.2.2.2.2.2.2.1, (hagree 0).2.2.2.2.2.2.2.2.2.1,
      (hagree 0).2.2.2.2.2.2.2.2.2.2.1, (hagree 0).2.2.2.2.2.2.2.2.2.2.2]
    exact Cert.ReferenceIdeal.RefValue.ref_eq _ _ _ _ _ _ _ _ _ _ _ _ hr.1 hr.2.1 hr.2.2

theorem claim : Cert.Claim := ⟨Cert.Kernel.Gen.facts, Cert.KernelIdeal.Gen.facts, Cert.ReferenceIdeal.Gen.facts, Cert.Pre_finite_inputs.Gen.facts,
  Cert.Proof.Frames.frame_kernel, Cert.Proof.Frames.frame_kernelIdeal, Cert.Proof.Frames.frame_referenceIdeal, trivial, algebraic⟩

end Cert.Proof

end
